-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S768x768 : Shape := ⟨2, ![768, 768]⟩
abbrev S2x10240x768 : Shape := ⟨3, ![2, 10240, 768]⟩
abbrev S16x1024x2 : Shape := ⟨3, ![16, 1024, 2]⟩
abbrev S16x1024 : Shape := ⟨2, ![16, 1024]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S2x10240x768 : S_.BroadcastsInDim S2x10240x768 (![] : Fin 0 → Fin S2x10240x768.rank)
  reducesTo_S2x10240x768_S_d0_1_2 : S2x10240x768.ReducesTo [0, 1, 2] S_
  bcast_S_S16x1024x2 : S_.BroadcastsInDim S16x1024x2 (![] : Fin 0 → Fin S16x1024x2.rank)
  reducesTo_S16x1024x2_S_d0_1_2 : S16x1024x2.ReducesTo [0, 1, 2] S_

variable [Facts]

def fn_part1 {F : FTy → Type} [FloatOps F] (main_v13 : IVec S_ 1) (main_v15 : IVec S16x1024x2 1) (main_c_5 : IVec S_ 1) : IVec S_ 1 :=
  let main_v16 : IVec S_ 1 := (fun x v => Host.reduce IntOp.andi x v reducesTo_S16x1024x2_S_d0_1_2 h_S_) main_v15 main_c_5
  let main_v17 : IVec S_ 1 := andi main_v13 main_v16
  main_v17

def fn {F : FTy → Type} [FloatOps F] (main_arg0 : FVec F S16x3x512x512 .f32) (main_arg1 : FVec F S768x768 .f32) (main_arg2 : FVec F S2x10240x768 .f32) (main_arg3 : IVec S16x1024x2 32) (main_arg4 : IVec S16x1024 1) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S2x10240x768 .f32 := Host.absf main_arg2
  let main_cst_2 : FVec F S_ .f32 := constant S_ .f32 0x7F800000#32
  let main_v10 : FVec F S2x10240x768 .f32 := broadcastInDim S2x10240x768 ![] bcast_S_S2x10240x768 main_cst_2
  let main_v11 : IVec S2x10240x768 1 := cmpf .olt main_v9 main_v10
  let main_c_3 : IVec S_ 1 := constantI S_ 1 1#1
  let main_v12 : IVec S_ 1 := (fun x v => Host.reduce IntOp.andi x v reducesTo_S2x10240x768_S_d0_1_2 h_S_) main_v11 main_c_3
  let main_v13 : IVec S_ 1 := andi main_v8 main_v12
  let main_c_4 : IVec S_ 32 := constantI S_ 32 10240#32
  let main_v14 : IVec S16x1024x2 32 := broadcastInDim S16x1024x2 ![] bcast_S_S16x1024x2 main_c_4
  let main_v15 : IVec S16x1024x2 1 := cmpi .slt main_arg3 main_v14
  let main_c_5 : IVec S_ 1 := constantI S_ 1 1#1
  fn_part1 (F := F) main_v13 main_v15 main_c_5
-- ==== Kernel.lean ====
abbrev S16x3x512x512 : Shape := ⟨4, ![16, 3, 512, 512]⟩
abbrev S768x768 : Shape := ⟨2, ![768, 768]⟩
abbrev S2x10240x768 : Shape := ⟨3, ![2, 10240, 768]⟩
abbrev S16x1024x2 : Shape := ⟨3, ![16, 1024, 2]⟩
abbrev S16x1024 : Shape := ⟨2, ![16, 1024]⟩
abbrev S16x3x32x16x32x16 : Shape := ⟨6, ![16, 3, 32, 16, 32, 16]⟩
abbrev S16x32x32x3x16x16 : Shape := ⟨6, ![16, 32, 32, 3, 16, 16]⟩
abbrev S16x1024x768 : Shape := ⟨3, ![16, 1024, 768]⟩
abbrev S_ : Shape := ⟨0, ![]⟩
abbrev S1x1024x768 : Shape := ⟨3, ![1, 1024, 768]⟩
abbrev S1024x768 : Shape := ⟨2, ![1024, 768]⟩
abbrev S16x1024x1 : Shape := ⟨3, ![16, 1024, 1]⟩
abbrev S16384 : Shape := ⟨1, ![16384]⟩
abbrev S16384x1x768 : Shape := ⟨3, ![16384, 1, 768]⟩
abbrev S1x10240x768 : Shape := ⟨3, ![1, 10240, 768]⟩
abbrev S10240x768 : Shape := ⟨2, ![10240, 768]⟩
abbrev S10240x1x768 : Shape := ⟨3, ![10240, 1, 768]⟩
abbrev S1x1x768 : Shape := ⟨3, ![1, 1, 768]⟩
abbrev S1 : Shape := ⟨1, ![1]⟩
abbrev S768 : Shape := ⟨1, ![768]⟩

abbrev nBuf : Space → Nat
  | .hbm => 36
  | .vmem => 13
  | .smem => 3
  | _ => 0

abbrev bufTy : (tb : Table) → Fin (tcTables nBuf tb) → BufTy
  | .hbm, ⟨0, _⟩ => ⟨S16x3x512x512, .f32⟩
  | .hbm, ⟨1, _⟩ => ⟨S768x768, .f32⟩
  | .hbm, ⟨2, _⟩ => ⟨S2x10240x768, .f32⟩
  | .hbm, ⟨3, _⟩ => ⟨S16x1024x2, .i32⟩
  | .hbm, ⟨4, _⟩ => ⟨S16x1024, .i1⟩
  | .hbm, ⟨5, _⟩ => ⟨S16x3x32x16x32x16, .f32⟩
  | .hbm, ⟨6, _⟩ => ⟨S16x32x32x3x16x16, .f32⟩
  | .hbm, ⟨7, _⟩ => ⟨S16x1024x768, .f32⟩
  | .hbm, ⟨8, _⟩ => ⟨S_, .f32⟩
  | .hbm, ⟨9, _⟩ => ⟨S16x1024x768, .f32⟩
  | .hbm, ⟨10, _⟩ => ⟨S16x1024x768, .f32⟩
  | .hbm, ⟨11, _⟩ => ⟨S_, .f32⟩
  | .hbm, ⟨12, _⟩ => ⟨S16x1024x768, .f32⟩
  | .hbm, ⟨13, _⟩ => ⟨S16x1024x768, .f32⟩
  | .hbm, ⟨14, _⟩ => ⟨S16x1024x768, .bf16⟩
  | .hbm, ⟨15, _⟩ => ⟨S768x768, .f32⟩
  | .hbm, ⟨16, _⟩ => ⟨S768x768, .bf16⟩
  | .hbm, ⟨17, _⟩ => ⟨S16x1024x768, .f32⟩
  | .hbm, ⟨18, _⟩ => ⟨S_, .i32⟩
  | .hbm, ⟨19, _⟩ => ⟨S_, .i32⟩
  | .hbm, ⟨20, _⟩ => ⟨S16x1024x2, .i32⟩
  | .hbm, ⟨21, _⟩ => ⟨S16x1024x2, .i32⟩
  | .hbm, ⟨22, _⟩ => ⟨S16x1024x1, .i32⟩
  | .hbm, ⟨23, _⟩ => ⟨S16x1024, .i32⟩
  | .hbm, ⟨24, _⟩ => ⟨S16x1024x1, .i32⟩
  | .hbm, ⟨25, _⟩ => ⟨S16x1024, .i32⟩
  | .hbm, ⟨26, _⟩ => ⟨S16384, .i1⟩
  | .hbm, ⟨27, _⟩ => ⟨S16384x1x768, .f32⟩
  | .hbm, ⟨28, _⟩ => ⟨S1x10240x768, .f32⟩
  | .hbm, ⟨29, _⟩ => ⟨S10240x768, .f32⟩
  | .hbm, ⟨30, _⟩ => ⟨S10240x1x768, .f32⟩
  | .hbm, ⟨31, _⟩ => ⟨S1x10240x768, .f32⟩
  | .hbm, ⟨32, _⟩ => ⟨S10240x768, .f32⟩
  | .hbm, ⟨33, _⟩ => ⟨S10240x1x768, .f32⟩
  | .hbm, ⟨34, _⟩ => ⟨S16384x1x768, .f32⟩
  | .hbm, ⟨35, _⟩ => ⟨S16x1024x768, .f32⟩
  | .local _ .vmem, ⟨0, _⟩ => ⟨S1x1024x768, .bf16⟩
  | .local _ .vmem, ⟨1, _⟩ => ⟨S1x1024x768, .bf16⟩
  | .local _ .vmem, ⟨2, _⟩ => ⟨S768x768, .bf16⟩
  | .local _ .vmem, ⟨3, _⟩ => ⟨S1x1024x768, .f32⟩
  | .local _ .vmem, ⟨4, _⟩ => ⟨S1x1024x768, .f32⟩
  | .local _ .vmem, ⟨5, _⟩ => ⟨S1x1x768, .f32⟩
  | .local _ .vmem, ⟨6, _⟩ => ⟨S1x1x768, .f32⟩
  | .local _ .vmem, ⟨7, _⟩ => ⟨S1x1x768, .f32⟩
  | .local _ .vmem, ⟨8, _⟩ => ⟨S1x1x768, .f32⟩
  | .local _ .vmem, ⟨9, _⟩ => ⟨S1x1x768, .f32⟩
  | .local _ .vmem, ⟨10, _⟩ => ⟨S1x1x768, .f32⟩
  | .local _ .vmem, ⟨11, _⟩ => ⟨S1x1x768, .f32⟩
  | .local _ .vmem, ⟨12, _⟩ => ⟨S1x1x768, .f32⟩
  | .local _ .smem, ⟨0, _⟩ => ⟨S16384, .i32⟩
  | .local _ .smem, ⟨1, _⟩ => ⟨S16384, .i32⟩
  | .local _ .smem, ⟨2, _⟩ => ⟨S16384, .i32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v15 : Ref sig .tc := ⟨.hbm, 24, rfl⟩
abbrev main_v16 : Ref sig .tc := ⟨.hbm, 25, rfl⟩
abbrev main_v18 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v14 : Ref sig .tc := ⟨.smem, 0, rfl⟩
abbrev main_v17 : Ref sig .tc := ⟨.smem, 1, rfl⟩
abbrev main_v19 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16384], ![false]⟩

abbrev pre1 : Pipeline.Prefetch sig := ⟨3, ![main_v14.idx, main_v17.idx, main_v19.idx], fun | 0 => main_v14.names | 1 => main_v17.names | 2 => main_v19.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (k1_off1_inb : ∀ i : grid1.Coords, ∀ a, (k1_off1 i) a + S1.size a ≤ S16384.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S16384.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S16x3x512x512_S16x3x32x16x32x16 : S16x3x512x512.ShapeCasts S16x3x32x16x32x16
  transposes_S16x3x32x16x32x16_S16x32x32x3x16x16_0_2_4_1_3_5 : S16x3x32x16x32x16.Transposes [0, 2, 4, 1, 3, 5] S16x32x32x3x16x16
  shapeCasts_S16x32x32x3x16x16_S16x1024x768 : S16x32x32x3x16x16.ShapeCasts S16x1024x768
  bcast_S_S16x1024x768 : S_.BroadcastsInDim S16x1024x768 (![] : Fin 0 → Fin S16x1024x768.rank)
  bitsLt_bf16_f32 : FTy.bits .bf16 < FTy.bits .f32
  transposes_S768x768_S768x768_1_0 : S768x768.Transposes [1, 0] S768x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  shapeCasts_S1024x768_S1x1024x768 : S1024x768.ShapeCasts S1x1024x768
  bcast_S_S16x1024x2 : S_.BroadcastsInDim S16x1024x2 (![] : Fin 0 → Fin S16x1024x2.rank)
  slices_S16x1024x2_S16x1024x1_0_0_0 : S16x1024x2.Slices ![0, 0, 0] S16x1024x1
  shapeCasts_S16x1024x1_S16x1024 : S16x1024x1.ShapeCasts S16x1024
  shapeCasts_S16x1024_S16384 : S16x1024.ShapeCasts S16384
  slices_S16x1024x2_S16x1024x1_0_0_1 : S16x1024x2.Slices ![0, 0, 1] S16x1024x1
  natLt_1_32 : 1 < 32
  shapeCasts_S16x1024x768_S16384x1x768 : S16x1024x768.ShapeCasts S16384x1x768
  slices_S2x10240x768_S1x10240x768_0_0_0 : S2x10240x768.Slices ![0, 0, 0] S1x10240x768
  shapeCasts_S1x10240x768_S10240x768 : S1x10240x768.ShapeCasts S10240x768
  shapeCasts_S10240x768_S10240x1x768 : S10240x768.ShapeCasts S10240x1x768
  slices_S2x10240x768_S1x10240x768_1_0_0 : S2x10240x768.Slices ![1, 0, 0] S1x10240x768
  numel1_S1 : S1.numel = 1
  inb_S1x1x768_S1x1x768_0_0_0 : ∀ a, (![0, 0, 0] : Fin 3 → Nat) a + S1x1x768.size a ≤ S1x1x768.size a
  h_S1x1x768 : 0 < S1x1x768.numel
  shapeCasts_S1x1x768_S768 : S1x1x768.ShapeCasts S768
  shapeCasts_S768_S1x1x768 : S768.ShapeCasts S1x1x768
  shapeCasts_S16384x1x768_S16x1024x768 : S16384x1x768.ShapeCasts S16x1024x768
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S16x1024x768.size a
  hwx0_0 : ∀ i : grid0.Coords, EltTy.bits .bf16 = 32 ∨ (Rect.block (s := S16x1024x768) S1x1024x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x768.size a ≤ S16x1024x768.size a
  hwx0_2 : ∀ i : grid0.Coords, EltTy.bits .f32 = 32 ∨ (Rect.block (s := S16x1024x768) S1x1024x768.size (cc0_transform_2 i) (hinb0_2 i)).WholeWords (EltTy.packing .f32)
  hrank1 : 0 < grid1.rank
  k1_off1_inb : ∀ i : grid1.Coords, ∀ a, (k1_off1 i) a + S1.size a ≤ S16384.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x768.size a ≤ S16384x1x768.size a
  hwx1_0 : ∀ i : grid1.Coords, EltTy.bits .f32 = 32 ∨ (Rect.block (s := S16384x1x768) S1x1x768.size (cc1_transform_0 i) (hinb1_0 i)).WholeWords (EltTy.packing .f32)
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x768.size a ≤ S16384x1x768.size a
  hwx1_3 : ∀ i : grid1.Coords, EltTy.bits .f32 = 32 ∨ (Rect.block (s := S16384x1x768) S1x1x768.size (cc1_transform_3 i) (hinb1_3 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v7) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v20) S1x1x768.size reads1_0 false false 2 stage1_0 sem1_0 nbuf1_0 hstage1_0

abbrev spec1_1 : Pipeline.WinSpec sig grid1.rank :=
  Pipeline.WinSpec.ofSpec (Memref.whole main_v23) S1x1x768.size reads1_1 false false 2 stage1_1 sem1_1 nbuf1_1 hstage1_1

abbrev spec1_2 : Pipeline.WinSpec sig grid1.rank :=
  Pipeline.WinSpec.ofSpec (Memref.whole main_v26) S1x1x768.size reads1_2 false false 2 stage1_2 sem1_2 nbuf1_2 hstage1_2

abbrev spec1_3 : Pipeline.WinSpec sig grid1.rank :=
  Pipeline.WinSpec.ofSpec (Memref.whole main_v27) S1x1x768.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 | 1 => cc1_transform_1 k1_off1_inb numel1_S1 pf | 2 => cc1_transform_2 k1_off1_inb numel1_S1 pf | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 pf | 2 => hreads1_2 pf | 3 => hreads1_3 | ⟨_ + 4, h⟩ => absurd h (Nat.not_lt.2 (Nat.le_add_left _ _))
def ok1 (pf : pre1.Contents (Elt F)) : Prop :=
  (∀ i : grid1.Coords, ∃ h : (∀ a, (cc1_transform_1 k1_off1_inb numel1_S1 pf i a + 1) * S1x1x768.size a ≤ S10240x1x768.size a), EltTy.bits .f32 = 32 ∨ (Rect.block (s := S10240x1x768) S1x1x768.size (cc1_transform_1 k1_off1_inb numel1_S1 pf i) h).WholeWords (EltTy.packing .f32)) ∧
  (∀ i : grid1.Coords, ∃ h : (∀ a, (cc1_transform_2 k1_off1_inb numel1_S1 pf i a + 1) * S1x1x768.size a ≤ S10240x1x768.size a), EltTy.bits .f32 = 32 ∨ (Rect.block (s := S10240x1x768) S1x1x768.size (cc1_transform_2 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => hinb1_0 | 1 => fun i a => (hok.1 i).elim fun h _ => h a | 2 => fun i a => (hok.2 i).elim fun h _ => h a | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => hwx1_0 | 1 => fun i => (hok.1 i).elim fun _ h => h | 2 => fun i => (hok.2 i).elim fun _ h => h | 3 => hwx1_3 | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S16x3x512x512 : Shape := ⟨4, ![16, 3, 512, 512]⟩
abbrev S768x768 : Shape := ⟨2, ![768, 768]⟩
abbrev S2x10240x768 : Shape := ⟨3, ![2, 10240, 768]⟩
abbrev S16x1024x2 : Shape := ⟨3, ![16, 1024, 2]⟩
abbrev S16x1024 : Shape := ⟨2, ![16, 1024]⟩
abbrev S16x3x32x16x32x16 : Shape := ⟨6, ![16, 3, 32, 16, 32, 16]⟩
abbrev S16x32x32x3x16x16 : Shape := ⟨6, ![16, 32, 32, 3, 16, 16]⟩
abbrev S16x1024x768 : Shape := ⟨3, ![16, 1024, 768]⟩
abbrev S_ : Shape := ⟨0, ![]⟩
abbrev S1x10240x768 : Shape := ⟨3, ![1, 10240, 768]⟩
abbrev S10240x768 : Shape := ⟨2, ![10240, 768]⟩
abbrev S16x1024x1 : Shape := ⟨3, ![16, 1024, 1]⟩

abbrev nBuf : Space → Nat
  | .hbm => 53
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S768x768, .f32⟩
  | .hbm, ⟨2, _⟩ => ⟨S2x10240x768, .f32⟩
  | .hbm, ⟨3, _⟩ => ⟨S16x1024x2, .i32⟩
  | .hbm, ⟨4, _⟩ => ⟨S16x1024, .i1⟩
  | .hbm, ⟨5, _⟩ => ⟨S16x3x32x16x32x16, .f32⟩
  | .hbm, ⟨6, _⟩ => ⟨S16x32x32x3x16x16, .f32⟩
  | .hbm, ⟨7, _⟩ => ⟨S16x1024x768, .f32⟩
  | .hbm, ⟨8, _⟩ => ⟨S_, .f32⟩
  | .hbm, ⟨9, _⟩ => ⟨S16x1024x768, .f32⟩
  | .hbm, ⟨10, _⟩ => ⟨S16x1024x768, .f32⟩
  | .hbm, ⟨11, _⟩ => ⟨S_, .f32⟩
  | .hbm, ⟨12, _⟩ => ⟨S16x1024x768, .f32⟩
  | .hbm, ⟨13, _⟩ => ⟨S16x1024x768, .f32⟩
  | .hbm, ⟨14, _⟩ => ⟨S16x1024x768, .f32⟩
  | .hbm, ⟨15, _⟩ => ⟨S_, .i32⟩
  | .hbm, ⟨16, _⟩ => ⟨S_, .i32⟩
  | .hbm, ⟨17, _⟩ => ⟨S16x1024x2, .i32⟩
  | .hbm, ⟨18, _⟩ => ⟨S16x1024x2, .i32⟩
  | .hbm, ⟨19, _⟩ => ⟨S1x10240x768, .f32⟩
  | .hbm, ⟨20, _⟩ => ⟨S10240x768, .f32⟩
  | .hbm, ⟨21, _⟩ => ⟨S16x1024x1, .i32⟩
  | .hbm, ⟨22, _⟩ => ⟨S16x1024, .i32⟩
  | .hbm, ⟨23, _⟩ => ⟨S_, .i32⟩
  | .hbm, ⟨24, _⟩ => ⟨S16x1024, .i32⟩
  | .hbm, ⟨25, _⟩ => ⟨S16x1024, .i1⟩
  | .hbm, ⟨26, _⟩ => ⟨S_, .i32⟩
  | .hbm, ⟨27, _⟩ => ⟨S16x1024, .i32⟩
  | .hbm, ⟨28, _⟩ => ⟨S16x1024, .i32⟩
  | .hbm, ⟨29, _⟩ => ⟨S16x1024, .i32⟩
  | .hbm, ⟨30, _⟩ => ⟨S16x1024x1, .i32⟩
  | .hbm, ⟨31, _⟩ => ⟨S16x1024x768, .f32⟩
  | .hbm, ⟨32, _⟩ => ⟨S1x10240x768, .f32⟩
  | .hbm, ⟨33, _⟩ => ⟨S10240x768, .f32⟩
  | .hbm, ⟨34, _⟩ => ⟨S16x1024x1, .i32⟩
  | .hbm, ⟨35, _⟩ => ⟨S16x1024, .i32⟩
  | .hbm, ⟨36, _⟩ => ⟨S_, .i32⟩
  | .hbm, ⟨37, _⟩ => ⟨S16x1024, .i32⟩
  | .hbm, ⟨38, _⟩ => ⟨S16x1024, .i1⟩
  | .hbm, ⟨39, _⟩ => ⟨S_, .i32⟩
  | .hbm, ⟨40, _⟩ => ⟨S16x1024, .i32⟩
  | .hbm, ⟨41, _⟩ => ⟨S16x1024, .i32⟩
  | .hbm, ⟨42, _⟩ => ⟨S16x1024, .i32⟩
  | .hbm, ⟨43, _⟩ => ⟨S16x1024x1, .i32⟩
  | .hbm, ⟨44, _⟩ => ⟨S16x1024x768, .f32⟩
  | .hbm, ⟨45, _⟩ => ⟨S16x1024x768, .f32⟩
  | .hbm, ⟨46, _⟩ => ⟨S16x1024x1, .i1⟩
  | .hbm, ⟨47, _⟩ => ⟨S_, .f32⟩
  | .hbm, ⟨48, _⟩ => ⟨S_, .f32⟩
  | .hbm, ⟨49, _⟩ => ⟨S16x1024x768, .i1⟩
  | .hbm, ⟨50, _⟩ => ⟨S16x1024x768, .f32⟩
  | .hbm, ⟨51, _⟩ => ⟨S16x1024x768, .f32⟩
  | .hbm, ⟨52, _⟩ => ⟨S16x1024x768, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  shapeCasts_S16x3x512x512_S16x3x32x16x32x16 : S16x3x512x512.ShapeCasts S16x3x32x16x32x16
  transposes_S16x3x32x16x32x16_S16x32x32x3x16x16_0_2_4_1_3_5 : S16x3x32x16x32x16.Transposes [0, 2, 4, 1, 3, 5] S16x32x32x3x16x16
  shapeCasts_S16x32x32x3x16x16_S16x1024x768 : S16x32x32x3x16x16.ShapeCasts S16x1024x768
  bcast_S_S16x1024x768 : S_.BroadcastsInDim S16x1024x768 (![] : Fin 0 → Fin S16x1024x768.rank)
  bcast_S_S16x1024x2 : S_.BroadcastsInDim S16x1024x2 (![] : Fin 0 → Fin S16x1024x2.rank)
  slices_S2x10240x768_S1x10240x768_0_0_0 : S2x10240x768.Slices ![0, 0, 0] S1x10240x768
  shapeCasts_S1x10240x768_S10240x768 : S1x10240x768.ShapeCasts S10240x768
  slices_S16x1024x2_S16x1024x1_0_0_0 : S16x1024x2.Slices ![0, 0, 0] S16x1024x1
  shapeCasts_S16x1024x1_S16x1024 : S16x1024x1.ShapeCasts S16x1024
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  slices_S2x10240x768_S1x10240x768_1_0_0 : S2x10240x768.Slices ![1, 0, 0] S1x10240x768
  slices_S16x1024x2_S16x1024x1_0_0_1 : S16x1024x2.Slices ![0, 0, 1] S16x1024x1
  bcast_S16x1024x1_S16x1024x768_0_1_2 : S16x1024x1.BroadcastsInDim S16x1024x768 (![0, 1, 2] : Fin 3 → Fin S16x1024x768.rank)
  dot_S16x1024x768_S768x768_S16x1024x768_2_1_01_0_n_n_wf : DotDims.WF S16x1024x768 S768x768 S16x1024x768 [2] [1] [0, 1] [0] [] []
  gather_S10240x768_S16x1024x1_S16x1024x768_2_0_n_n_0_2_1768_wf : GatherDims.WF S10240x768 S16x1024x1 S16x1024x768 [2] [0] [] [0] [] 2 ![1, 768]

variable [Facts₀]

def dot_S16x1024x768_S768x768_S16x1024x768_2_1_01_0_n_n : DotDims S16x1024x768 S768x768 S16x1024x768 where
  lhsContracting := [2]
  rhsContracting := [1]
  lhsNonContracting := [0, 1]
  rhsNonContracting := [0]
  lhsBatch := []
  rhsBatch := []
  wf := dot_S16x1024x768_S768x768_S16x1024x768_2_1_01_0_n_n_wf
def gather_S10240x768_S16x1024x1_S16x1024x768_2_0_n_n_0_2_1768 : GatherDims S10240x768 S16x1024x1 S16x1024x768 where
  offsetDims := [2]
  collapsedSliceDims := [0]
  operandBatchingDims := []
  startIndicesBatchingDims := []
  startIndexMap := [0]
  indexVectorDim := 2
  sliceSizes := ![1, 768]
  wf := gather_S10240x768_S16x1024x1_S16x1024x768_2_0_n_n_0_2_1768_wf

class Facts : Prop extends Facts₀ where

variable [Facts]
-- ==== Proof.ProjRegion.lean ====
/-
  The first kernel region of the program: the patch projection. On a grid of 16 points (one per
  image) it stages image `t`'s [1, 1024, 768] block of the patch array and the whole [768, 768] transposed
  weight, and writes back the [1, 1024, 768] block of the product: every row of patches times the weight,
  summed over the 768 patch features, into a zero accumulator. Stated here at any float family and at a
  PARAMETER `V`, the core's buffer contents when the region is entered: what the body leaves in the output
  window's staging buffer as a function of the two input blocks (`projOut`), the body's triple, the proof data
  of the pipeline, each input block found in its staging buffer at every point, and the body obligation.
-/
import proofs.«431244_j39298950758871_1_alg».proof.Proof.Gen.KernelIdeal.Launch
import proofs.«431244_j39298950758871_1_alg».proof.Proof.Gen.KernelIdeal.Skeleton
import proofs.«431244_j39298950758871_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the projection stages -/

/-- Window `w`'s block at grid point `t` of the projection, cut out of its array as the region finds it. -/
def projBlk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole-block rectangles the body loads and stores through. -/
abbrev rPatch : Rect S1x1024x768 := Rect.unit (s := S1x1024x768) ![0, 0, 0] S1x1024x768.size inb_S1x1024x768_S1x1024x768_0_0_0
abbrev rWeight : Rect S768x768 := Rect.unit (s := S768x768) ![0, 0] S768x768.size inb_S768x768_S768x768_0_0

/-- What the body leaves in the output window's staging buffer: its one store, of the product of the patch
    block and the weight block. -/
def projOut (x : Vec F S1x1024x768 .bf16) (wt : Vec F S768x768 .bf16) : Vec F S1x1024x768 .f32 :=
  View.canon [⟨rPatch, k0_pay1 (View.ld x rPatch) (View.ld wt rWeight)⟩]

/-- That store is of the whole buffer. -/
theorem projOut_cover (p0 : Vec F S1x1024x768 .f32) (y : S1x1024x768.Idx) :
    ∃ pc ∈ ([⟨rPatch, p0⟩] : List (View.Piece (Elt F) S1x1024x768 .f32)), y ∈ pc.1.set :=
  View.cover_of_tiled [⟨rPatch, p0⟩] S1x1024x768.size (by rfl) y

/-! ## The body's triple -/

set_option maxHeartbeats 1000000 in
/-- The projection body on whole staging memrefs, the inputs' holding `x` and `wt` and the output's anything,
    runs to a continuation that holds the inputs' unchanged and the output's at `projOut x wt`. -/
theorem proj_body (c : Dev nD) (E : Set ℕ) (i : grid0.Coords)
    (arg1 : Memref sig .tc .vmem S1x1024x768 .bf16) (harg1 : arg1.IsWhole)
    (arg2 : Memref sig .tc .vmem S768x768 .bf16) (harg2 : arg2.IsWhole)
    (arg3 : Memref sig .tc .vmem S1x1024x768 .f32) (harg3 : arg3.IsWhole)
    (x : Vec F S1x1024x768 .bf16) (wt : Vec F S768x768 .bf16) (K : PUnit → sProp 𝕄) :
    iprop(owns (c : Thread nD τ) arg1 fullShare x ∗ owns (c : Thread nD τ) arg2 fullShare wt
        ∗ (∃ d, owns (c : Thread nD τ) arg3 fullShare d)
        ∗ (iprop(owns (c : Thread nD τ) arg1 fullShare x ∗ owns (c : Thread nD τ) arg2 fullShare wt
            ∗ owns (c : Thread nD τ) arg3 fullShare (projOut x wt)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projOut_cover _)

/-! ## The proof data of the projection's pipeline -/

/-- The arrays as the region finds them; after the body at point `t` each input's staging buffer still at its
    block and the output's at the product of the two blocks; the invariant the scoped rest and the generator
    register, untouched; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

theorem projDat_A (c : Dev nD) (w : Fin cfg0.W) : (projDat V c).A w = V c (Pipeline.arrRef spec0 w) := by
  dsimp only [projDat]

theorem projDat_after0 (c : Dev nD) (t : Fin cfg0.N) : (projDat V c).after 0 t = projBlk V c 0 t := by dsimp only [projDat]
theorem projDat_after1 (c : Dev nD) (t : Fin cfg0.N) : (projDat V c).after 1 t = projBlk V c 1 t := by dsimp only [projDat]
theorem projDat_after2 (c : Dev nD) (t : Fin cfg0.N) :
    (projDat V c).after 2 t = projOut (projBlk V c 0 t) (projBlk V c 1 t) := by dsimp only [projDat]

/-- The patch window's staging buffer holds image `t`'s block when the body is called, fetched there or not. -/
theorem projDat_before0 (c : Dev nD) (t : Fin cfg0.N) (d) : (projDat V c).before 0 t d = projBlk V c 0 t :=
  ((projDat V c).before_in_eq_fetched 0 rfl (fun _ => rfl) (fun _ _ _ => rfl)
    (fun t => by rw [projDat_after0]; unfold Dat.blockOf projBlk; rw [projDat_A]; try rfl) t d).trans
    (by unfold Dat.fetched Dat.blockOf projBlk; rw [projDat_A]; try rfl)

/-- The weight window's staging buffer holds the weight at every point: fetched once, never moved. -/
theorem projDat_before1 (c : Dev nD) (t : Fin cfg0.N) (d) : (projDat V c).before 1 t d = projBlk V c 1 t :=
  ((projDat V c).before_in_eq_fetched 1 rfl (fun _ => rfl) (fun _ _ _ => rfl)
    (fun t => by rw [projDat_after1]; unfold Dat.blockOf projBlk; rw [projDat_A]; try rfl) t d).trans
    (by unfold Dat.fetched Dat.blockOf projBlk; rw [projDat_A]; try rfl)

/-! ## The body obligation -/

def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

theorem proj_point (c : Dev nD) (t : Fin cfg0.N) :
    projPre V c t ⊢ wp frame (wpE (defs₀ (F := F)) Variants.none c none) Set.univ (bodyAt0 t) (fun _ => projPost V c t) := by
  unfold projPre projPost bodyAt0
  simp only [projDat_before0, projDat_before1]
  rw [show (projDat V c).Φ t.succ = (projDat V c).Φ t.castSucc from rfl,
    show (projDat V c).owesAt () t.succ = (projDat V c).owesAt () t.castSucc from rfl,
    projDat_after0, projDat_after1, projDat_after2]
  iintro ⟨HΦ, Ho, ⟨%d0, H0⟩, ⟨%d1, H1⟩, ⟨%d2, H2⟩⟩
  iapply (proj_body c Set.univ _ _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem proj_obligation (c : Dev nD) : BodyObligation (projDat (F := F) V c) (defs₀ (F := F)) Variants.none () Set.univ := fun t => by
  rw [bigSep_W0, bigSep_W0]
  exact proj_point V c t

end Cert.KernelIdeal.Embed

end
-- ==== Proof.GatherRegion.lean ====
/-
  The second kernel region of the program: the position gather. Its grid has one point per patch row
  (16 x 1024 = 16384). Three prefetched tables of 16384 words sit in scalar memory: the clipped x coordinates,
  the clipped y coordinates and the padding flags. At point `t` the pipeline stages row `t` of the projected
  hidden array, row `xs[t]` of the first position table and row `ys[t]` of the second, and writes back row `t`
  of the result; the body adds the two table rows, replaces the sum by zero when the padding flag at `t` is set,
  and adds that onto the hidden row. Stated at any float family, at ANY admissible contents `a1` of the three
  tables (a variable here: nothing below evaluates a table) and at a parameter `V`, the buffer contents when
  the region is entered: the body's run with the output's stored pieces found by the run itself, what the output
  staging buffer then holds (`gatherOut`), the pipeline's proof data, each input row found in its staging buffer
  at every point whether fetched there or not, and the body obligation.
-/
import proofs.«431244_j39298950758871_1_alg».proof.Proof.Gen.KernelIdeal.Launch
import proofs.«431244_j39298950758871_1_alg».proof.Proof.Gen.KernelIdeal.Skeleton
import proofs.«431244_j39298950758871_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three tables as the body is handed them -/

abbrev tabX : Memref sig .tc .smem S16384 .i32 := Memref.whole main_v14
abbrev tabY : Memref sig .tc .smem S16384 .i32 := Memref.whole main_v17
abbrev tabPad : Memref sig .tc .smem S16384 .i32 := Memref.whole main_v19

/-- A table's contents type on core `c`, and the table held whole at contents `f`. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare} f

/-- The three tables held at the full share, one by one. -/
theorem tablesHeld_eq (c : Dev nD) (v : pre1.Contents (Elt F)) :
    (Pipeline.prefHeld (Ix := Unit) (Name := ℕ) (U := UR sig nD τ) (Lvl := ℕ) pre1 c (fun _ => fullShare) v : sProp 𝕄)
      = iprop(tabPt c tabX (v 0) ∗ tabPt c tabY (v 1) ∗ tabPt c tabPad (v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The body's run on any staging memrefs -/

set_option maxHeartbeats 1000000 in
/-- The gather body on whole staging memrefs — the hidden row's at `x0`, the two table rows' at `x1` and `x2`,
    the output's at anything — with the padding table held at `xp`: it runs to a continuation that holds the inputs
    and the table unchanged and the output's buffer with the pieces `L` written, `L` being what the run finds. -/
noncomputable def gather_run (c : Dev nD) (i : grid1.Coords)
    (arg4 : Memref sig .tc .vmem S1x1x768 .f32) (harg4 : arg4.IsWhole) (arg5 : Memref sig .tc .vmem S1x1x768 .f32) (harg5 : arg5.IsWhole)
    (arg6 : Memref sig .tc .vmem S1x1x768 .f32) (harg6 : arg6.IsWhole) (arg7 : Memref sig .tc .vmem S1x1x768 .f32) (harg7 : arg7.IsWhole)
    (x0 x1 x2 : Vec F S1x1x768 .f32) (xp : TabBuf (F := F) c tabPad) :
    { L : List (View.Piece (Elt F) S1x1x768 .f32) //
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d) ∗ tabPt c tabPad xp
            ∗ (iprop(owns (c : Thread nD τ) arg4 fullShare x0 ∗ owns (c : Thread nD τ) arg5 fullShare x1 ∗ owns (c : Thread nD τ) arg6 fullShare x2
                ∗ (∃ f, arg7.view.loc (c : Thread nD τ) ↦[arg7.view.set]{fullShare} arg7.view.writes (Elt F) f L) ∗ tabPt c tabPad xp) -∗ K ⟨⟩))
          ⊢ wp frame (wpE (defs₀ (F := F)) Variants.none c none) E
              (cc1__gather_kernel i tabX (Memref.isWhole_whole _) tabY (Memref.isWhole_whole _) tabPad (Memref.isWhole_whole _)
                arg4 harg4 arg5 harg5 arg6 harg6 arg7 harg7) K } := by
  refine ⟨?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, HT, Hk⟩
    obtain rfl := harg4.eq_unread hf0
    obtain rfl := harg5.eq_unread hf1
    obtain rfl := harg6.eq_unread hf2
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    iexact HT

/-- The pieces the run leaves cover the output buffer: one of them is a store of the whole block. -/
theorem gather_cover (c : Dev nD) (i : grid1.Coords)
    (arg4 : Memref sig .tc .vmem S1x1x768 .f32) (harg4 : arg4.IsWhole) (arg5 : Memref sig .tc .vmem S1x1x768 .f32) (harg5 : arg5.IsWhole)
    (arg6 : Memref sig .tc .vmem S1x1x768 .f32) (harg6 : arg6.IsWhole) (arg7 : Memref sig .tc .vmem S1x1x768 .f32) (harg7 : arg7.IsWhole)
    (x0 x1 x2 : Vec F S1x1x768 .f32) (xp : TabBuf (F := F) c tabPad) (y : S1x1x768.Idx) :
    ∃ pc ∈ (gather_run c i arg4 harg4 arg5 harg5 arg6 harg6 arg7 harg7 x0 x1 x2 xp).1, y ∈ pc.1.set :=
  View.cover_of_wholeMem (gather_run c i arg4 harg4 arg5 harg5 arg6 harg6 arg7 harg7 x0 x1 x2 xp).1 (by sl_whole_mem) y

/-- One staging buffer of the output window, through which its contents are stated (the choice does not matter). -/
abbrev VOut : View sig .tc .vmem S1x1x768 .f32 := (Memref.whole cc1_stg3_0 : Memref sig .tc .vmem S1x1x768 .f32).view

/-- What the run leaves in the output's staging buffer: its pieces read back over junk. -/
def gatherOutOf (c : Dev nD) (i : grid1.Coords)
    (arg4 : Memref sig .tc .vmem S1x1x768 .f32) (harg4 : arg4.IsWhole) (arg5 : Memref sig .tc .vmem S1x1x768 .f32) (harg5 : arg5.IsWhole)
    (arg6 : Memref sig .tc .vmem S1x1x768 .f32) (harg6 : arg6.IsWhole) (arg7 : Memref sig .tc .vmem S1x1x768 .f32) (harg7 : arg7.IsWhole)
    (x0 x1 x2 : Vec F S1x1x768 .f32) (xp : TabBuf (F := F) c tabPad) : Vec F S1x1x768 .f32 :=
  VOut.read (Elt F) (VOut.writes (Elt F) VOut.junk (gather_run c i arg4 harg4 arg5 harg5 arg6 harg6 arg7 harg7 x0 x1 x2 xp).1)

/-! ## The pipeline at the tables `a1`, its blocks and staging memrefs -/

variable (V : (c : Dev nD) → (b : Ref sig .tc) → Buf (Elt F) ((c : Thread nD τ).loc b))
variable (a1 : (pcfg1 (F := F)).Adm)

/-- Window `w`'s block at point `t`: for the two table windows, the table row the tables' words name. -/
def gatherBlk (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

abbrev gs0 (t : Fin (cfg1 a1).N) : Memref sig .tc .vmem S1x1x768 .f32 := spec1_0.stage ((cfg1 a1).slots t 0)
abbrev gh0 (t : Fin (cfg1 a1).N) : (gs0 a1 t).IsWhole := hstage1_0 (((cfg1 a1).slots t 0).cast nbuf1_0)
abbrev gs1 (t : Fin (cfg1 a1).N) : Memref sig .tc .vmem S1x1x768 .f32 := spec1_1.stage ((cfg1 a1).slots t 1)
abbrev gh1 (t : Fin (cfg1 a1).N) : (gs1 a1 t).IsWhole := hstage1_1 (((cfg1 a1).slots t 1).cast nbuf1_1)
abbrev gs2 (t : Fin (cfg1 a1).N) : Memref sig .tc .vmem S1x1x768 .f32 := spec1_2.stage ((cfg1 a1).slots t 2)
abbrev gh2 (t : Fin (cfg1 a1).N) : (gs2 a1 t).IsWhole := hstage1_2 (((cfg1 a1).slots t 2).cast nbuf1_2)
abbrev gs3 (t : Fin (cfg1 a1).N) : Memref sig .tc .vmem S1x1x768 .f32 := spec1_3.stage ((cfg1 a1).slots t 3)
abbrev gh3 (t : Fin (cfg1 a1).N) : (gs3 a1 t).IsWhole := hstage1_3 (((cfg1 a1).slots t 3).cast nbuf1_3)

/-- The gather body as the pipeline calls it at point `t`. -/
abbrev gatherAt (t : Fin (cfg1 a1).N) : Prog (TpuEff nD τ sig (Elt F) Λ₀ .tc) PUnit :=
  cc1__gather_kernel (grid1.coords t) tabX (Memref.isWhole_whole _) tabY (Memref.isWhole_whole _) tabPad (Memref.isWhole_whole _)
    (gs0 a1 t) (gh0 a1 t) (gs1 a1 t) (gh1 a1 t) (gs2 a1 t) (gh2 a1 t) (gs3 a1 t) (gh3 a1 t)

/-- What the output's staging buffer holds after the body at point `t`. -/
def gatherOut (c : Dev nD) (t : Fin (cfg1 a1).N) : Vec F S1x1x768 .f32 :=
  gatherOutOf c (grid1.coords t) (gs0 a1 t) (gh0 a1 t) (gs1 a1 t) (gh1 a1 t) (gs2 a1 t) (gh2 a1 t) (gs3 a1 t) (gh3 a1 t)
    (gatherBlk V a1 c 0 t) (gatherBlk V a1 c 1 t) (gatherBlk V a1 c 2 t) (a1.1 2)

/-! ## The proof data of the gather's pipeline -/

/-- The arrays as the region finds them; after the body each input's staging buffer still at its row and the
    output's at `gatherOut`; the invariant the scoped rest, the generator register and the three tables held
    whole at `a1`'s contents; nothing owed; full shares. -/
def gatherDat (c : Dev nD) : Dat τ (Elt F) Unit ℕ (UR sig nD τ) ℕ (cfg1 a1) c where
  A w := V c (Pipeline.arrRef spec1 w)
  after w t := match w with
    | ⟨0, _⟩ => gatherBlk V a1 c 0 t
    | ⟨1, _⟩ => gatherBlk V a1 c 1 t
    | ⟨2, _⟩ => gatherBlk V a1 c 2 t
    | ⟨3, _⟩ => gatherOut V a1 c t
  Φ _ := iprop(Pipeline.ΦA spec1 c ∗ Pipeline.prefHeld (Ix := Unit) (Name := ℕ) (U := UR sig nD τ) (Lvl := ℕ) pre1 c (fun _ => fullShare) a1.1)
  q _ := fullShare
  owed _ := 0

theorem gatherDat_A (c : Dev nD) (w : Fin (cfg1 a1).W) : (gatherDat V a1 c).A w = V c (Pipeline.arrRef spec1 w) := by
  dsimp only [gatherDat]

theorem gatherDat_after0 (c : Dev nD) (t : Fin (cfg1 a1).N) : (gatherDat V a1 c).after 0 t = gatherBlk V a1 c 0 t := by dsimp only [gatherDat]; try rfl
theorem gatherDat_after1 (c : Dev nD) (t : Fin (cfg1 a1).N) : (gatherDat V a1 c).after 1 t = gatherBlk V a1 c 1 t := by dsimp only [gatherDat]; try rfl
theorem gatherDat_after2 (c : Dev nD) (t : Fin (cfg1 a1).N) : (gatherDat V a1 c).after 2 t = gatherBlk V a1 c 2 t := by dsimp only [gatherDat]; try rfl
theorem gatherDat_after3 (c : Dev nD) (t : Fin (cfg1 a1).N) : (gatherDat V a1 c).after 3 t = gatherOut V a1 c t := by dsimp only [gatherDat]; try rfl

/-- Each input window's staging buffer holds its row when the body is called, fetched at that point or not
    (not fetched: the row's number has not moved since the last fetch). -/
theorem gatherDat_before0 (c : Dev nD) (t : Fin (cfg1 a1).N) (d) : (gatherDat V a1 c).before 0 t d = gatherBlk V a1 c 0 t :=
  ((gatherDat V a1 c).before_in_eq_fetched 0 rfl (fun _ => rfl) (fun _ _ _ => rfl)
    (fun t => by rw [gatherDat_after0]; unfold Dat.blockOf gatherBlk; rw [gatherDat_A]; try rfl) t d).trans
    (by unfold Dat.fetched Dat.blockOf gatherBlk; rw [gatherDat_A]; try rfl)
theorem gatherDat_before1 (c : Dev nD) (t : Fin (cfg1 a1).N) (d) : (gatherDat V a1 c).before 1 t d = gatherBlk V a1 c 1 t :=
  ((gatherDat V a1 c).before_in_eq_fetched 1 rfl (fun _ => rfl) (fun _ _ _ => rfl)
    (fun t => by rw [gatherDat_after1]; unfold Dat.blockOf gatherBlk; rw [gatherDat_A]; try rfl) t d).trans
    (by unfold Dat.fetched Dat.blockOf gatherBlk; rw [gatherDat_A]; try rfl)
theorem gatherDat_before2 (c : Dev nD) (t : Fin (cfg1 a1).N) (d) : (gatherDat V a1 c).before 2 t d = gatherBlk V a1 c 2 t :=
  ((gatherDat V a1 c).before_in_eq_fetched 2 rfl (fun _ => rfl) (fun _ _ _ => rfl)
    (fun t => by rw [gatherDat_after2]; unfold Dat.blockOf gatherBlk; rw [gatherDat_A]; try rfl) t d).trans
    (by unfold Dat.fetched Dat.blockOf gatherBlk; rw [gatherDat_A]; try rfl)

/-! ## The body obligation -/

def gatherPre (c : Dev nD) (t : Fin (cfg1 a1).N) : sProp 𝕄 :=
  iprop((gatherDat V a1 c).Φ t.castSucc ∗ (gatherDat V a1 c).owesAt () t.castSucc
    ∗ (∃ d, owns (c : Thread nD τ) (gs0 a1 t) fullShare ((gatherDat V a1 c).before 0 t d))
    ∗ (∃ d, owns (c : Thread nD τ) (gs1 a1 t) fullShare ((gatherDat V a1 c).before 1 t d))
    ∗ (∃ d, owns (c : Thread nD τ) (gs2 a1 t) fullShare ((gatherDat V a1 c).before 2 t d))
    ∗ (∃ d, owns (c : Thread nD τ) (gs3 a1 t) fullShare ((gatherDat V a1 c).before 3 t d)))

def gatherPost (c : Dev nD) (t : Fin (cfg1 a1).N) : sProp 𝕄 :=
  iprop((gatherDat V a1 c).Φ t.succ ∗ (gatherDat V a1 c).owesAt () t.succ
    ∗ owns (c : Thread nD τ) (gs0 a1 t) fullShare ((gatherDat V a1 c).after 0 t)
    ∗ owns (c : Thread nD τ) (gs1 a1 t) fullShare ((gatherDat V a1 c).after 1 t)
    ∗ owns (c : Thread nD τ) (gs2 a1 t) fullShare ((gatherDat V a1 c).after 2 t)
    ∗ owns (c : Thread nD τ) (gs3 a1 t) fullShare ((gatherDat V a1 c).after 3 t))

theorem gather_point (c : Dev nD) (t : Fin (cfg1 a1).N) :
    gatherPre V a1 c t ⊢ wp frame (wpE (defs₀ (F := F)) Variants.none c none) Set.univ (gatherAt a1 t) (fun _ => gatherPost V a1 c t) := by
  unfold gatherPre gatherPost gatherAt
  simp only [gatherDat_before0, gatherDat_before1, gatherDat_before2]
  rw [show (gatherDat V a1 c).Φ t.succ = (gatherDat V a1 c).Φ t.castSucc from rfl,
    show (gatherDat V a1 c).owesAt () t.succ = (gatherDat V a1 c).owesAt () t.castSucc from rfl,
    gatherDat_after0, gatherDat_after1, gatherDat_after2, gatherDat_after3]
  rw [show (gatherDat V a1 c).Φ t.castSucc = iprop(Pipeline.ΦA spec1 c ∗ Pipeline.prefHeld (Ix := Unit) (Name := ℕ) (U := UR sig nD τ) (Lvl := ℕ) pre1 c (fun _ => fullShare) a1.1) from rfl,
    tablesHeld_eq]
  unfold gatherOut gatherOutOf
  iintro ⟨⟨HΦ, ⟨HTx, HTy, HTp⟩⟩, Ho, ⟨%d0, H0⟩, ⟨%d1, H1⟩, ⟨%d2, H2⟩, ⟨%d3, H3⟩⟩
  iapply ((gather_run c (grid1.coords t) _ _ _ _ _ _ _ _ (gatherBlk V a1 c 0 t) (gatherBlk V a1 c 1 t) (gatherBlk V a1 c 2 t) (a1.1 2)).2 Set.univ _)
  isplitl [H0]; · iexact H0
  isplitl [H1]; · iexact H1
  isplitl [H2]; · iexact H2
  isplitl [H3]; · iexists _; iexact H3
  isplitl [HTp]; · iexact HTp
  iintro ⟨H0, H1, H2, ⟨%e3, H3⟩, HTp⟩
  isplitl [HΦ HTx HTy HTp]
  · isplitl [HΦ]; · iexact HΦ
    isplitl [HTx]; · iexact HTx
    isplitl [HTy]; · iexact HTy
    iexact HTp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (gather_cover c _ _ _ _ _ _ _ _ _ _ _ _ _)

theorem gather_obligation (c : Dev nD) : BodyObligation (gatherDat (F := F) V a1 c) (defs₀ (F := F)) Variants.none () Set.univ := fun t => by
  rw [bigSep_W1, bigSep_W1]
  exact gather_point V a1 c t

end Cert.KernelIdeal.Embed

end
-- ==== Proof.Run.lean ====
/-
  The whole run of the program, at any float family: @main is a stretch of host operations (the
  patches rescaled and the weight transposed), the projection region, three more host stretches (the position
  ids clipped at zero, split into x and y and flattened; the padding flags widened; the projected array and
  the two position tables re-laid as rows), the gather region, and a closing reshape. The buffer contents at
  every boundary are a fold from the launch memory `m`: a host stretch applies its operations, a region
  replaces its windows' arrays by what its write-backs leave and changes nothing else. The gather's three
  prefetched tables are READ OFF that fold at the gather's entry (`tabsOf`): they depend on the arguments only,
  and the run is stated under the pipeline's side condition of them (`TabsOk`: every table-named row inside its
  position table). Its conclusion: every weakly fair execution terminates, and every unscoped buffer ends at
  the fold's last contents (`memEnd`) — from which both the frame (the arguments as launched) and the result
  array's value are read.
-/
import proofs.«431244_j39298950758871_1_alg».proof.Proof.ProjRegion
import proofs.«431244_j39298950758871_1_alg».proof.Proof.GatherRegion
import proofs.«431244_j39298950758871_1_alg».proof.Proof.Gen.KernelIdeal.Regions

set_option maxRecDepth 16384

noncomputable section

namespace Cert.KernelIdeal.Embed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev memLaunch : Dev nD → Valuation τ sig (Elt F) := fun c b => m (c, b)
/-- After the first host stretch: the projection's entry. -/
abbrev memProjIn : Dev nD → Valuation τ sig (Elt F) := fun c => StableHlo.after hostOps0 (memLaunch m c)
/-- The same read at the TensorCore's references. -/
abbrev eProj : (c : Dev nD) → (b : Ref sig .tc) → Buf (Elt F) ((c : Thread nD τ).loc b) := fun c b => memProjIn m c b
/-- At the projection's exit: its arrays at what the pipeline leaves, every other buffer as entered. -/
def memProjOut (c : Dev nD) : Valuation τ sig (Elt F) :=
  Pipeline.withArrays spec0 c (memProjIn m c) fun w => (projDat (eProj m) c).arrAt w cfg0.N
theorem memProjOut_arr (c : Dev nD) (w : Fin cfg0.W) :
    memProjOut m c (Proc.devRef .tc (Pipeline.arrRef spec0 w)) = (projDat (eProj m) c).arrAt w cfg0.N := by
  unfold memProjOut; exact Pipeline.withArrays_arr spec0 winFacts0.arr_inj c _ _ w
theorem memProjOut_of_ne (c : Dev nD) (b : Ref sig .tc) (hb : ∀ w, Pipeline.arrRef spec0 w ≠ b) :
    memProjOut m c (Proc.devRef .tc b) = memProjIn m c (Proc.devRef .tc b) := by
  unfold memProjOut; exact Pipeline.withArrays_of_ne spec0 c _ _ b hb
abbrev xProj : (c : Dev nD) → (b : Ref sig .tc) → Buf (Elt F) ((c : Thread nD τ).loc b) := fun c b => memProjOut m c b
/-- After the zero constant, -/
abbrev memZero : Dev nD → Valuation τ sig (Elt F) := fun c => StableHlo.after hostOps1 (memProjOut m c)
/-- after the clip at zero, -/
abbrev memClip : Dev nD → Valuation τ sig (Elt F) := fun c => StableHlo.after hostOps1_1 (memZero m c)
/-- and after the tables and the rows are laid out: the gather's entry. -/
abbrev memGatherIn : Dev nD → Valuation τ sig (Elt F) := fun c => StableHlo.after hostOps1_2 (memClip m c)
abbrev eGather : (c : Dev nD) → (b : Ref sig .tc) → Buf (Elt F) ((c : Thread nD τ).loc b) := fun c b => memGatherIn m c b

/-! ## The gather's tables, read off the fold -/

/-- The three prefetched tables' contents when the gather is entered (the program runs on one device). -/
def tabsOf : pre1.Contents (Elt F) := fun j => eGather m (0 : Dev nD) (pre1.ref j)
theorem eGather_pre (c : Dev nD) (j : Fin 3) : eGather m c (pre1.ref j) = tabsOf m j := by
  obtain rfl : c = 0 := Subsingleton.elim _ _; rfl
/-- The pipeline's side condition of those contents: every row the x and y tables name lies inside its position table. -/
abbrev TabsOk : Prop := ok1 (F := F) (tabsOf m)

variable (hO : TabsOk m)

/-- The tables as admissible contents, and every pipeline's. -/
abbrev a1 : (pcfg1 (F := F)).Adm := ⟨tabsOf m, hO⟩
abbrev adm : (p : Fin 2) → (pcfgs (F := F) p).Adm
  | ⟨0, _⟩ => cfg0.toPCfg_adm
  | ⟨1, _⟩ => a1 m hO
  | ⟨_ + 2, h⟩ => absurd h (Nat.not_lt.2 (Nat.le_add_left _ _))

/-- At the gather's exit: its arrays at what the pipeline leaves, every other buffer as entered. -/
def memGatherOut (c : Dev nD) : Valuation τ sig (Elt F) :=
  Pipeline.withArrays spec1 c (memGatherIn m c) fun w => (gatherDat (eGather m) (a1 m hO) c).arrAt w (cfg1 (a1 m hO)).N
theorem memGatherOut_arr (c : Dev nD) (w : Fin (cfg1 (a1 m hO)).W) :
    memGatherOut m hO c (Proc.devRef .tc (Pipeline.arrRef spec1 w)) = (gatherDat (eGather m) (a1 m hO) c).arrAt w (cfg1 (a1 m hO)).N := by
  unfold memGatherOut; exact Pipeline.withArrays_arr spec1 winFacts1.arr_inj c _ _ w
theorem memGatherOut_of_ne (c : Dev nD) (b : Ref sig .tc) (hb : ∀ w, Pipeline.arrRef spec1 w ≠ b) :
    memGatherOut m hO c (Proc.devRef .tc b) = memGatherIn m c (Proc.devRef .tc b) := by
  unfold memGatherOut; exact Pipeline.withArrays_of_ne spec1 c _ _ b hb
abbrev xGather : (c : Dev nD) → (b : Ref sig .tc) → Buf (Elt F) ((c : Thread nD τ).loc b) := fun c b => memGatherOut m hO c b
/-- After the closing reshape: the end. -/
abbrev memEnd : Dev nD → Valuation τ sig (Elt F) := fun c => StableHlo.after hostOps2 (memGatherOut m hO c)

/-! ## The proof data family and what rides beside the buffers -/

def pdats : (p : Fin 2) → (c : Dev nD) → Dat τ (Elt F) Unit ℕ (UR sig nD τ) ℕ (Pipeline.pin (pcfgs (F := F)) (adm m hO) p) c
  | ⟨0, _⟩ => fun c => projDat (eProj m) c
  | ⟨1, _⟩ => fun c => gatherDat (eGather m) (a1 m hO) c

abbrev 𝒱₀ : Variants := Variants.none
abbrev Lev : GSem nD τ sig → Finset Unit := fun _ => ∅
abbrev lev : GSem nD τ sig → Unit → ℕ := fun _ _ => 0
/-- The generator register at some state and the core owing nothing. -/
abbrev Rides (c : Dev nD) : sProp 𝕄 := iprop((∃ r, prngReg c r) ∗ ∃ W, owes (c : Thread nD τ) (0 : CellTallies nD τ sig Unit) W)

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lev lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rides

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions' exits against the fold -/

theorem projExit_arr (c : Dev nD) (w : Fin cfg0.W) : (projDat (eProj m) c).arrAt w cfg0.N = xProj m c (Pipeline.arrRef spec0 w) :=
  (memProjOut_arr m c w).symm
theorem projExit_rest (c : Dev nD) : ∀ b, b ∉ Finset.univ.image (Pipeline.arrRef spec0) → xProj m c b = eProj m c b :=
  fun b hb => memProjOut_of_ne m c b fun w e => hb (Finset.mem_image.mpr ⟨w, Finset.mem_univ _, e⟩)
theorem gatherExit_arr (c : Dev nD) (w : Fin (cfg1 (a1 m hO)).W) :
    (gatherDat (eGather m) (a1 m hO) c).arrAt w (cfg1 (a1 m hO)).N = xGather m hO c (Pipeline.arrRef spec1 w) :=
  (memGatherOut_arr m hO c w).symm
theorem gatherExit_rest (c : Dev nD) : ∀ b, b ∉ Finset.univ.image (Pipeline.arrRef spec1) → xGather m hO c b = eGather m c b :=
  fun b hb => memGatherOut_of_ne m hO c b fun w e => hb (Finset.mem_image.mpr ⟨w, Finset.mem_univ _, e⟩)

set_option backward.isDefEq.respectTransparency.types false in
/-- The gather's unscoped rest at its entry: the three tables held whole at `tabsOf`, and the rest proper. -/
theorem gatherRest_split (c : Dev nD) :
    (Pipeline.unscopedRest (Ix := Unit) (Name := ℕ) (U := UR sig nD τ) (Lvl := ℕ) (Pipeline.pin (pcfgs (F := F)) (adm m hO) 1).spec c (eGather m c) : sProp 𝕄)
      = iprop(Pipeline.prefHeld (Ix := Unit) (Name := ℕ) (U := UR sig nD τ) (Lvl := ℕ) pre1 c (fun _ => fullShare) (tabsOf m)
          ∗ Pipeline.unscopedRestP (Ix := Unit) (Name := ℕ) (U := UR sig nD τ) (Lvl := ℕ) pre1 spec1 c (eGather m c)) := by
  have h := Pipeline.unscopedRest_split (Ix := Unit) (Name := ℕ) (U := UR sig nD τ) (Lvl := ℕ) (win := spec1) (pre := pre1) preFacts1 c (eGather m c)
  rw [show (fun k => eGather m c (pre1.ref k)) = tabsOf m from funext fun k => eGather_pre m c k] at h
  exact h

/-! ## The regions as segments -/

set_option backward.isDefEq.respectTransparency.types false in
/-- The projection region over the thread state: entered from every unscoped buffer at `memProjIn`, left at `memProjOut`. -/
def regProj : Pipeline.RegionSeg (pcfgs (F := F)) (adm m hO) (pdats m hO) () defs₀ 𝒱₀ Lev lev 0 where
  win := winFacts0.to₀
  block_pos := block_pos0
  stage_whole := stage_whole0
  K := PEmpty
  osem k := k.elim
  ho := Pipeline.OwnSemFacts.none _
  hbody c := (proj_obligation (eProj m) c).loose
  hwaits := Pipeline.hwaits_of_owed_zero _ _ _ _ Lev lev 0 fun _ _ => rfl
  pre c := iprop(StableHlo.held (c : Thread nD τ) (Pipeline.ucRefs τ sig) (memProjIn m c) ∗ Rides c)
  post c := iprop(StableHlo.held (c : Thread nD τ) (Pipeline.ucRefs τ sig) (memProjOut m c) ∗ Rides c)
  X c := iprop(∃ r, prngReg c r)
  Y c := iprop(∃ r, prngReg c r)
  Z c := Pipeline.unscopedRest (Ix := Unit) (Name := ℕ) (U := UR sig nD τ) (Lvl := ℕ) spec0 c (eProj m c)
  hentry c := by
    rw [Pipeline.ownSems0_none]
    have hsplit := Pipeline.arrays_of_unscopedBufs (p := 0) (pcfgs (F := F)) (adm m hO) (pdats m hO) winFacts0 arr_whole0 c
      ((pdats m hO 0 c).share_full fun _ => rfl) (eProj m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      winFacts0 arr_whole0 c (pdats m hO) ((pdats m hO 0 c).share_full fun _ => rfl)
      (eProj m c) (xProj m c) ((pdats m hO 0 c).arrAt · cfg0.N) (projExit_arr m c) (projExit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather region over the thread state: entered from every unscoped buffer at `memGatherIn`, left at
    `memGatherOut`. The three tables are among the unscoped buffers: taken out whole at entry at the contents the
    fold has there (which are `a1`'s), held inside the pipeline's invariant for the body to read, given back at exit. -/
def regGather : Pipeline.RegionSeg (pcfgs (F := F)) (adm m hO) (pdats m hO) () defs₀ 𝒱₀ Lev lev 1 where
  win := winFacts1.to₀
  block_pos := block_pos1
  stage_whole := stage_whole1
  K := PEmpty
  osem k := k.elim
  ho := Pipeline.OwnSemFacts.none _
  hbody c := (gather_obligation (eGather m) (a1 m hO) c).loose
  hwaits := Pipeline.hwaits_of_owed_zero _ _ _ _ Lev lev 1 fun _ _ => rfl
  pre c := iprop(StableHlo.held (c : Thread nD τ) (Pipeline.ucRefs τ sig) (memGatherIn m c) ∗ Rides c)
  post c := iprop(StableHlo.held (c : Thread nD τ) (Pipeline.ucRefs τ sig) (memGatherOut m hO c) ∗ Rides c)
  X c := iprop(∃ r, prngReg c r)
  Y c := iprop((∃ r, prngReg c r) ∗ Pipeline.prefHeld (Ix := Unit) (Name := ℕ) (U := UR sig nD τ) (Lvl := ℕ) pre1 c (fun _ => fullShare) (tabsOf m))
  Z c := Pipeline.unscopedRestP (Ix := Unit) (Name := ℕ) (U := UR sig nD τ) (Lvl := ℕ) pre1 spec1 c (eGather m c)
  hentry c := by
    rw [Pipeline.ownSems0_none]
    have hsplit := Pipeline.arrays_of_unscopedBufs (p := 1) (pcfgs (F := F)) (adm m hO) (pdats m hO) winFacts1 arr_whole1 c
      ((pdats m hO 1 c).share_full fun _ => rfl) (eGather m c) fun _ => rfl
    rw [Pipeline.unscopedBufs_held, gatherRest_split m hO c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = iprop(Pipeline.ΦA spec1 c ∗ Pipeline.prefHeld (Ix := Unit) (Name := ℕ) (U := UR sig nD τ) (Lvl := ℕ) pre1 c (fun _ => fullShare) (tabsOf m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO 1 c).Φ (Fin.last _) = iprop(Pipeline.ΦA spec1 c ∗ Pipeline.prefHeld (Ix := Unit) (Name := ℕ) (U := UR sig nD τ) (Lvl := ℕ) pre1 c (fun _ => fullShare) (tabsOf m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m hO) (Ix := Unit) (Name := ℕ) (U := UR sig nD τ) (Lvl := ℕ)
      winFacts1 arr_whole1 c (pdats m hO) ((pdats m hO 1 c).share_full fun _ => rfl)
      (eGather m c) (xGather m hO c) ((pdats m hO 1 c).arrAt · (cfg1 (a1 m hO)).N) (gatherExit_arr m hO c) (gatherExit_rest m hO c)
    rw [Pipeline.unscopedBufs_held, gatherRest_split m hO c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-- The last host stretch's exit, regrouped: the buffers and the generator register beside the core owing nothing. -/
theorem endLink (c : Dev nD) :
    (iprop(StableHlo.held (c : Thread nD τ) (Pipeline.ucRefs τ sig) (memEnd m hO c) ∗ Rides c) : sProp 𝕄)
      ⊢ iprop((StableHlo.held (c : Thread nD τ) (Pipeline.ucRefs τ sig) (memEnd m hO c) ∗ ∃ r, prngReg c r)
          ∗ ∃ W, owes (c : Thread nD τ) (0 : CellTallies nD τ sig Unit) W) := by
  iintro ⟨Hh, Hp, Ho⟩
  isplitl [Hh Hp]
  · isplitl [Hh]; · iexact Hh
    iexact Hp
  iexact Ho

/-! ## @main as segments, and the launch -/

abbrev segs : List (Pipeline.Seg (pcfgs (F := F)) (adm m hO) (pdats m hO) () defs₀ 𝒱₀ Lev lev) :=
  [ .host (hostSeg hostOps0 hostOps0_sub hostOps0_fresh (memLaunch m)),
    .region (regProj m hO),
    .host (hostSeg hostOps1 hostOps1_sub hostOps1_fresh (memProjOut m)),
    .host (hostSeg hostOps1_1 hostOps1_1_sub hostOps1_1_fresh (memZero m)),
    .host (hostSeg hostOps1_2 hostOps1_2_sub hostOps1_2_fresh (memClip m)),
    .region (regGather m hO),
    .host (hostSeg hostOps2 hostOps2_sub hostOps2_fresh (memGatherOut m hO)) ]

set_option backward.isDefEq.respectTransparency.types false in
/-- THE RUN: from any memory with zero counters, under the tables' side condition, every weakly fair execution of
    @main terminates, nothing faulting, and every unscoped buffer of every core ends at `memEnd`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = memEnd m hO c b) :=
  Pipeline.θ_run_regions_kit (pcfgs (F := F)) (adm m hO) (pdats m hO) () (cellOf_inj (adm m hO)) emb₁ defs₀ 𝒱₀ Lev lev m ρ main (segs m hO)
    (fun c Q => by
      rewrite [main_chain c, Pipeline.Seg.run_eq_chain,
        show (segs m hO).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (memLaunch m c) ∗ Rides c))
    (Tₙ := fun c => iprop(StableHlo.held (c : Thread nD τ) (Pipeline.ucRefs τ sig) (memEnd m hO c) ∗ ∃ r, prngReg c r))
    (hch := ⟨fun _ => .rfl, fun _ => .rfl, fun _ => .rfl, fun _ => .rfl, fun _ => .rfl, fun _ => .rfl, fun _ => .rfl, fun c => endLink m hO c⟩)
    (hinit := by
      refine Pipeline.initEach Lev lev fun c => ?_
      rw [show unscopedBufs c (fun b => m ((c : Thread nD τ).loc b)) = StableHlo.held (c : Thread nD τ) (Pipeline.ucRefs τ sig) (memLaunch m c)
        from Pipeline.unscopedBufs_held c (memLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = memEnd m hO c b)
    (hfin := fun c s' => by
      iintro ⟨⟨Hh, -⟩, HSI⟩
      unfold StableHlo.held
      imodintro
      iapply (pointsTo_read_all (Pipeline.ucRefs τ sig) (fun b => (((c : Thread nD τ)).1, b)) (memEnd m hO c) s')
      isplitl [Hh] <;> iassumption)
    (hQ := fun s h c => h c)

end Cert.KernelIdeal.Embed

end
-- ==== Proof.Fold.lean ====
import proofs.«431244_j39298950758871_1_alg».proof.Proof.Run
import Idealize.ShloMosaic.Lib.StableHlo.Run

set_option maxRecDepth 16384

noncomputable section

namespace Cert.KernelIdeal.Embed

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- A buffer that no host stretch writes and no region's window stages reaches the gather's entry as launched. -/
theorem memGatherIn_keeps (c : Dev nD) (r : Ref sig .tc) (h0 : r ∉ hostOps0_W) (hp : ∀ w, Pipeline.arrRef spec0 w ≠ r)
    (h1 : r ∉ hostOps1_W) (h11 : r ∉ hostOps1_1_W) (h12 : r ∉ hostOps1_2_W) :
    memGatherIn m c (Proc.devRef .tc r) = m ((c : Thread nD τ).loc r) :=
  (after_of_writes_sub hostOps1_2 _ hostOps1_2_writes h12).trans <|
  (after_of_writes_sub hostOps1_1 _ hostOps1_1_writes h11).trans <|
  (after_of_writes_sub hostOps1 _ hostOps1_writes h1).trans <|
  (memProjOut_of_ne m c r hp).trans <|
  (after_of_writes_sub hostOps0 _ hostOps0_writes h0).trans rfl

variable (hO : TabsOk m)

theorem memEnd_keeps (c : Dev nD) (r : Ref sig .tc) (h0 : r ∉ hostOps0_W) (hp : ∀ w, Pipeline.arrRef spec0 w ≠ r)
    (h1 : r ∉ hostOps1_W) (h11 : r ∉ hostOps1_1_W) (h12 : r ∉ hostOps1_2_W) (hg : ∀ w, Pipeline.arrRef spec1 w ≠ r) (h2 : r ∉ hostOps2_W) :
    memEnd m hO c (Proc.devRef .tc r) = m ((c : Thread nD τ).loc r) :=
  (after_of_writes_sub hostOps2 _ hostOps2_writes h2).trans <|
  (memGatherOut_of_ne m hO c r hg).trans <| memGatherIn_keeps m c r h0 hp h1 h11 h12

theorem memEnd_arg0 (c : Dev nD) : memEnd m hO c (Proc.devRef .tc main_arg0) = m ((c : Thread nD τ).loc main_arg0) :=
  memEnd_keeps m hO c main_arg0 (by decide) (by decide) (by decide) (by decide) (by decide) (by decide) (by decide)

theorem memEnd_arg1 (c : Dev nD) : memEnd m hO c (Proc.devRef .tc main_arg1) = m ((c : Thread nD τ).loc main_arg1) :=
  memEnd_keeps m hO c main_arg1 (by decide) (by decide) (by decide) (by decide) (by decide) (by decide) (by decide)
theorem memEnd_arg2 (c : Dev nD) : memEnd m hO c (Proc.devRef .tc main_arg2) = m ((c : Thread nD τ).loc main_arg2) :=
  memEnd_keeps m hO c main_arg2 (by decide) (by decide) (by decide) (by decide) (by decide) (by decide) (by decide)
theorem memEnd_arg3 (c : Dev nD) : memEnd m hO c (Proc.devRef .tc main_arg3) = m ((c : Thread nD τ).loc main_arg3) :=
  memEnd_keeps m hO c main_arg3 (by decide) (by decide) (by decide) (by decide) (by decide) (by decide) (by decide)
theorem memEnd_arg4 (c : Dev nD) : memEnd m hO c (Proc.devRef .tc main_arg4) = m ((c : Thread nD τ).loc main_arg4) :=
  memEnd_keeps m hO c main_arg4 (by decide) (by decide) (by decide) (by decide) (by decide) (by decide) (by decide)

omit hO

/-! ## The three tables, from any contents `W` at the projection's exit -/

/-- The position ids clipped below at zero. -/
def clipped (ids : IVec S16x1024x2 32) : IVec S16x1024x2 32 :=
  maxsi (broadcastInDim S16x1024x2 ![] Facts₀.bcast_S_S16x1024x2 (id (constantI S_ 32 0#32))) ids

/-- Coordinate `k` (0: x, 1: y) of the clipped ids, flattened to one word per row. -/
def coordTable0 (ids : IVec S16x1024x2 32) : IVec S16384 32 :=
  shapeCast S16384 (shapeCast S16x1024 (extractStridedSlice S16x1024x1 ![0, 0, 0] (clipped ids)
    Facts₀.slices_S16x1024x2_S16x1024x1_0_0_0) Facts₀.shapeCasts_S16x1024x1_S16x1024) Facts₀.shapeCasts_S16x1024_S16384
def coordTable1 (ids : IVec S16x1024x2 32) : IVec S16384 32 :=
  shapeCast S16384 (shapeCast S16x1024 (extractStridedSlice S16x1024x1 ![0, 0, 1] (clipped ids)
    Facts₀.slices_S16x1024x2_S16x1024x1_0_0_1) Facts₀.shapeCasts_S16x1024x1_S16x1024) Facts₀.shapeCasts_S16x1024_S16384
/-- The padding flags flattened and widened to words. -/
def padTable (pad : IVec S16x1024 1) : IVec S16384 32 :=
  extui 32 (shapeCast S16384 pad Facts₀.shapeCasts_S16x1024_S16384) Facts₀.natLt_1_32

theorem tab_x_of (W : Valuation τ sig (Elt F)) :
    after hostOps1_2 (after hostOps1_1 (after hostOps1 W)) (Proc.devRef .tc main_v14) = coordTable0 (W (Proc.devRef .tc main_arg3)) := by
  dsimp only [hostOps1, hostOps1_1, hostOps1_2]
  after_results
  simp only [TRef.ofBuf, TRef.toBuf, cast_eq]
  rfl
theorem tab_y_of (W : Valuation τ sig (Elt F)) :
    after hostOps1_2 (after hostOps1_1 (after hostOps1 W)) (Proc.devRef .tc main_v17) = coordTable1 (W (Proc.devRef .tc main_arg3)) := by
  dsimp only [hostOps1, hostOps1_1, hostOps1_2]
  after_results
  simp only [TRef.ofBuf, TRef.toBuf, cast_eq]
  rfl
theorem tab_pad_of (W : Valuation τ sig (Elt F)) :
    after hostOps1_2 (after hostOps1_1 (after hostOps1 W)) (Proc.devRef .tc main_v19) = padTable (W (Proc.devRef .tc main_arg4)) := by
  dsimp only [hostOps1, hostOps1_1, hostOps1_2]
  after_results
  rfl

theorem memProjOut_keeps (c : Dev nD) (r : Ref sig .tc) (h0 : r ∉ hostOps0_W) (hp : ∀ w, Pipeline.arrRef spec0 w ≠ r) :
    memProjOut m c (Proc.devRef .tc r) = m ((c : Thread nD τ).loc r) :=
  (memProjOut_of_ne m c r hp).trans <| (after_of_writes_sub hostOps0 _ hostOps0_writes h0).trans rfl

/-- The gather's tables are functions of the position ids and the padding flags alone. -/
theorem tabsOf_x : (tabsOf m 0 : IVec S16384 32) = coordTable0 (m (((0 : Dev nD) : Thread nD τ).loc main_arg3)) :=
  (tab_x_of (memProjOut m 0)).trans (congrArg coordTable0 (memProjOut_keeps m 0 main_arg3 (by decide) (by decide)))
theorem tabsOf_y : (tabsOf m 1 : IVec S16384 32) = coordTable1 (m (((0 : Dev nD) : Thread nD τ).loc main_arg3)) :=
  (tab_y_of (memProjOut m 0)).trans (congrArg coordTable1 (memProjOut_keeps m 0 main_arg3 (by decide) (by decide)))
theorem tabsOf_pad : (tabsOf m 2 : IVec S16384 32) = padTable (m (((0 : Dev nD) : Thread nD τ).loc main_arg4)) :=
  (tab_pad_of (memProjOut m 0)).trans (congrArg padTable (memProjOut_keeps m 0 main_arg4 (by decide) (by decide)))

end Cert.KernelIdeal.Embed

end
-- ==== Proof.Spec.lean ====
/-
  What both programs compute, index by index, on the extended reals. From the rescaled patch array `P`
  ([16, 1024, 768]: image, patch, feature), the projection weight `w` ([768, 768]: output feature, patch
  feature), the two position tables `T` ([2, 10240, 768]), the patch coordinates `ids` ([16, 1024, 2]) and the
  padding flags `pad` ([16, 1024]), entry (b, n, d) of the result is

      sum over k of P[b, n, k] * w[d, k]   +   (0 if pad[b, n], else T[0, x, d] + T[1, y, d])

  where x and y are the two coordinates of patch (b, n) clipped below at zero (`rowOf`; the cap at the table's
  last row never binds on a coordinate below 10240). The zero is kept as the float word both programs spell.
-/
import Idealize.ShloMosaic.PureOps.Ideal
import Idealize.ShloMosaic.Lib.ValueIdx

noncomputable section

namespace Cert.EmbedSpec

open Idealize.ShloMosaic Idealize.ShloMosaic.ValueIdx

/-- The table row a coordinate names: the coordinate clipped below at zero, read signed, capped at the last row. -/
def rowOf (w : BitVec 32) : Fin 10240 := ⟨min (IntOp.maxsi (0#32) w).toInt.toNat 10239, by omega⟩

/-- The position embedding of patch (b, n) at feature d: the x row of the first table plus the y row of the second. -/
def posAt (T : (⟨3, ![2, 10240, 768]⟩ : Shape).Idx → EReal) (ids : (⟨3, ![16, 1024, 2]⟩ : Shape).Idx → BitVec 32)
    (b : Fin 16) (n : Fin 1024) (d : Fin 768) : EReal :=
  T (ix3 (0 : Fin 2) (rowOf (ids (ix3 b n (0 : Fin 2)))) d) + T (ix3 (1 : Fin 2) (rowOf (ids (ix3 b n (1 : Fin 2)))) d)

/-- The projected patch (b, n) at feature d. -/
def projAt (P : (⟨3, ![16, 1024, 768]⟩ : Shape).Idx → EReal) (w : (⟨2, ![768, 768]⟩ : Shape).Idx → EReal)
    (b : Fin 16) (n : Fin 1024) (d : Fin 768) : EReal :=
  ∑ k : Fin 768, P (ix3 b n k) * w (ix2 d k)

/-- Entry (b, n, d) of the result. -/
def embedAt (P : (⟨3, ![16, 1024, 768]⟩ : Shape).Idx → EReal) (w : (⟨2, ![768, 768]⟩ : Shape).Idx → EReal)
    (T : (⟨3, ![2, 10240, 768]⟩ : Shape).Idx → EReal) (ids : (⟨3, ![16, 1024, 2]⟩ : Shape).Idx → BitVec 32)
    (pad : (⟨2, ![16, 1024]⟩ : Shape).Idx → BitVec 1) (b : Fin 16) (n : Fin 1024) (d : Fin 768) : EReal :=
  projAt P w b n d + Scalar.select (pad (ix2 b n)) (Ideal.ofBits .f32 0x00000000#32) (posAt T ids b n d)

/-- The whole result array. -/
def embed (P : (⟨3, ![16, 1024, 768]⟩ : Shape).Idx → EReal) (w : (⟨2, ![768, 768]⟩ : Shape).Idx → EReal)
    (T : (⟨3, ![2, 10240, 768]⟩ : Shape).Idx → EReal) (ids : (⟨3, ![16, 1024, 2]⟩ : Shape).Idx → BitVec 32)
    (pad : (⟨2, ![16, 1024]⟩ : Shape).Idx → BitVec 1) : (⟨3, ![16, 1024, 768]⟩ : Shape).Idx → EReal :=
  fun i => embedAt P w T ids pad (i 0) (i 1) (i 2)

theorem ofBool_eq_one (b : Bool) : BitVec.ofBool b = 1#1 ↔ b = true := by cases b <;> decide

/-- A coordinate below 10240 (signed) names, clipped at zero, a row below 10240: the cap does not bind. -/
theorem rowOf_val (w : BitVec 32) (h : IntOp.cmpi .slt w (10240#32) = 1#1) :
    (rowOf w).val = (IntOp.maxsi (0#32) w).toNat ∧ (IntOp.maxsi (0#32) w).toNat < 10240 := by
  unfold IntOp.cmpi at h
  rw [ofBool_eq_one] at h
  simp only [BitVec.slt, decide_eq_true_eq] at h
  have h2 : (10240#32 : BitVec 32).toInt = 10240 := by decide
  rw [h2] at h
  have key : (IntOp.maxsi (0#32) w).toInt.toNat = (IntOp.maxsi (0#32) w).toNat ∧ (IntOp.maxsi (0#32) w).toNat < 10240 := by
    unfold IntOp.maxsi
    by_cases h0 : w.slt (0#32) = true
    · rw [if_pos h0]; decide
    · rw [if_neg h0]
      simp only [BitVec.slt, decide_eq_true_eq, not_lt] at h0
      have h1 : (0#32 : BitVec 32).toInt = 0 := by decide
      rw [h1] at h0
      have hlt := w.isLt
      unfold BitVec.toInt at h0 h ⊢
      split at h0 <;> rename_i hc
      · rw [if_pos hc] at h ⊢
        simp only [Int.toNat_natCast]
        exact ⟨trivial, by omega⟩
      · exfalso; omega
  show min (IntOp.maxsi (0#32) w).toInt.toNat 10239 = _ ∧ _
  rw [key.1]
  exact ⟨by have := key.2; omega, key.2⟩

end Cert.EmbedSpec

end
-- ==== Proof.OkOfPre.lean ====
/-
  From the precondition to the gather pipeline's side condition. The precondition's last conjunct says every
  position id is below 10240, signed. The x and y tables hold the ids clipped below at zero, so every table
  word, read unsigned, is a row number below 10240: the [1, 1, 768] block it names lies inside its
  [10240, 1, 768] position table, and a transfer of 32-bit words has word-exact ends.
-/
import proofs.«431244_j39298950758871_1_alg».proof.Proof.Fold
import proofs.«431244_j39298950758871_1_alg».proof.Proof.Spec
import proofs.«431244_j39298950758871_1_alg».proof.Pre_finite_inputs
import Idealize.ShloMosaic.Lib.ReduceAll
import Idealize.ShloMosaic.Lib.Affine
import Idealize.ShloMosaic.Lib.ValueIdx

set_option maxRecDepth 16384

noncomputable section

namespace Cert.KernelIdeal.Embed

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The precondition's predicate is all ones at the launch memory of the program's one device. -/
def PreHolds [Cert.Pre_finite_inputs.Facts] : Prop :=
  Cert.Pre_finite_inputs.fn (F := F) (m (((0 : Dev nD) : Thread nD τ).loc main_arg0)) (m (((0 : Dev nD) : Thread nD τ).loc main_arg1))
    (m (((0 : Dev nD) : Thread nD τ).loc main_arg2)) (m (((0 : Dev nD) : Thread nD τ).loc main_arg3)) (m (((0 : Dev nD) : Thread nD τ).loc main_arg4))
    = (fun _ => 1#1)

/-- Every position id is below 10240, signed: the precondition's last conjunct, an "all" over the id array. -/
theorem ids_below [Cert.Pre_finite_inputs.Facts] (h : PreHolds m) (i : S16x1024x2.Idx) :
    IntOp.cmpi .slt ((m (((0 : Dev nD) : Thread nD τ).loc main_arg3) : IVec S16x1024x2 32) i) (10240#32) = 1#1 := by
  have e := congrFun h ValueIdx.ix0
  unfold Cert.Pre_finite_inputs.fn Cert.Pre_finite_inputs.fn_part1 at e
  dsimp only at e
  have e2 := (IntOp.andi_eq_one.mp e).2
  haveI : Subsingleton Cert.Pre_finite_inputs.S_.Idx := ⟨fun a b => funext fun d => d.elim0⟩
  exact Host.reduce_andi_all _ _ _ _ _ e2 i

/-- Every word of the x table is some id clipped below at zero; likewise the y table. -/
theorem coordTable0_clip (ids : IVec S16x1024x2 32) (x : S16384.Idx) : ∃ j, coordTable0 ids x = IntOp.maxsi (0#32) (ids j) := ⟨_, rfl⟩
theorem coordTable1_clip (ids : IVec S16x1024x2 32) (x : S16384.Idx) : ∃ j, coordTable1 ids x = IntOp.maxsi (0#32) (ids j) := ⟨_, rfl⟩

/-- Tables whose x and y words are all below 10240 satisfy the pipeline's side condition. -/
theorem ok1_of_rows (pf : pre1.Contents (Elt F)) (hx : ∀ x, ((pf 0 : IVec S16384 32) x).toNat < 10240)
    (hy : ∀ x, ((pf 1 : IVec S16384 32) x).toNat < 10240) : ok1 (F := F) pf := by
  refine ⟨fun i => ?_, fun i => ?_⟩
  · obtain ⟨w, hw, e⟩ : ∃ w : BitVec 32, w.toNat < 10240 ∧ cc1_transform_1 Facts₀.k1_off1_inb Facts₀.numel1_S1 pf i = ![w.toNat, 0, 0] :=
      ⟨_, hx _, rfl⟩
    refine ⟨fun a => ?_, Or.inl rfl⟩
    rw [e]
    fin_cases a <;> simp [S1x1x768, S10240x1x768] <;> omega
  · obtain ⟨w, hw, e⟩ : ∃ w : BitVec 32, w.toNat < 10240 ∧ cc1_transform_2 Facts₀.k1_off1_inb Facts₀.numel1_S1 pf i = ![w.toNat, 0, 0] :=
      ⟨_, hy _, rfl⟩
    refine ⟨fun a => ?_, Or.inl rfl⟩
    rw [e]
    fin_cases a <;> simp [S1x1x768, S10240x1x768] <;> omega

/-- Under "every id below 10240" the tables the fold holds at the gather's entry are admissible. -/
theorem tabsOk_of_below (hR : ∀ i, IntOp.cmpi .slt ((m (((0 : Dev nD) : Thread nD τ).loc main_arg3) : IVec S16x1024x2 32) i) (10240#32) = 1#1) :
    TabsOk m := by
  refine ok1_of_rows (tabsOf m) (fun x => ?_) (fun x => ?_)
  · rw [tabsOf_x]
    obtain ⟨j, e⟩ := coordTable0_clip (m (((0 : Dev nD) : Thread nD τ).loc main_arg3)) x
    rw [e]; exact (Cert.EmbedSpec.rowOf_val _ (hR j)).2
  · rw [tabsOf_y]
    obtain ⟨j, e⟩ := coordTable1_clip (m (((0 : Dev nD) : Thread nD τ).loc main_arg3)) x
    rw [e]; exact (Cert.EmbedSpec.rowOf_val _ (hR j)).2

theorem tabsOk_of_pre [Cert.Pre_finite_inputs.Facts] (h : PreHolds m) : TabsOk m :=
  tabsOk_of_below m (ids_below m h)

end Cert.KernelIdeal.Embed

end
-- ==== Proof.Word.ProjRegion.lean ====
/-
  The first kernel region of the program: the patch projection. On a grid of 16 points (one per
  image) it stages image `t`'s [1, 1024, 768] block of the patch array and the whole [768, 768] transposed
  weight, and writes back the [1, 1024, 768] block of the product: every row of patches times the weight,
  summed over the 768 patch features, into a zero accumulator. Stated here at any float family and at a
  PARAMETER `V`, the core's buffer contents when the region is entered: what the body leaves in the output
  window's staging buffer as a function of the two input blocks (`projOut`), the body's triple, the proof data
  of the pipeline, each input block found in its staging buffer at every point, and the body obligation.
-/
import proofs.«431244_j39298950758871_1_alg».proof.Proof.Gen.Kernel.Launch
import proofs.«431244_j39298950758871_1_alg».proof.Proof.Gen.Kernel.Skeleton
import proofs.«431244_j39298950758871_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Embed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the projection stages -/

/-- Window `w`'s block at grid point `t` of the projection, cut out of its array as the region finds it. -/
def projBlk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole-block rectangles the body loads and stores through. -/
abbrev rPatch : Rect S1x1024x768 := Rect.unit (s := S1x1024x768) ![0, 0, 0] S1x1024x768.size inb_S1x1024x768_S1x1024x768_0_0_0
abbrev rWeight : Rect S768x768 := Rect.unit (s := S768x768) ![0, 0] S768x768.size inb_S768x768_S768x768_0_0

/-- What the body leaves in the output window's staging buffer: its one store, of the product of the patch
    block and the weight block. -/
def projOut (x : Vec F S1x1024x768 .bf16) (wt : Vec F S768x768 .bf16) : Vec F S1x1024x768 .f32 :=
  View.canon [⟨rPatch, k0_pay1 (View.ld x rPatch) (View.ld wt rWeight)⟩]

/-- That store is of the whole buffer. -/
theorem projOut_cover (p0 : Vec F S1x1024x768 .f32) (y : S1x1024x768.Idx) :
    ∃ pc ∈ ([⟨rPatch, p0⟩] : List (View.Piece (Elt F) S1x1024x768 .f32)), y ∈ pc.1.set :=
  View.cover_of_tiled [⟨rPatch, p0⟩] S1x1024x768.size (by rfl) y

/-! ## The body's triple -/

set_option maxHeartbeats 1000000 in
/-- The projection body on whole staging memrefs, the inputs' holding `x` and `wt` and the output's anything,
    runs to a continuation that holds the inputs' unchanged and the output's at `projOut x wt`. -/
theorem proj_body (c : Dev nD) (E : Set ℕ) (i : grid0.Coords)
    (arg1 : Memref sig .tc .vmem S1x1024x768 .bf16) (harg1 : arg1.IsWhole)
    (arg2 : Memref sig .tc .vmem S768x768 .bf16) (harg2 : arg2.IsWhole)
    (arg3 : Memref sig .tc .vmem S1x1024x768 .f32) (harg3 : arg3.IsWhole)
    (x : Vec F S1x1024x768 .bf16) (wt : Vec F S768x768 .bf16) (K : PUnit → sProp 𝕄) :
    iprop(owns (c : Thread nD τ) arg1 fullShare x ∗ owns (c : Thread nD τ) arg2 fullShare wt
        ∗ (∃ d, owns (c : Thread nD τ) arg3 fullShare d)
        ∗ (iprop(owns (c : Thread nD τ) arg1 fullShare x ∗ owns (c : Thread nD τ) arg2 fullShare wt
            ∗ owns (c : Thread nD τ) arg3 fullShare (projOut x wt)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (projOut_cover _)

/-! ## The proof data of the projection's pipeline -/

/-- The arrays as the region finds them; after the body at point `t` each input's staging buffer still at its
    block and the output's at the product of the two blocks; the invariant the scoped rest and the generator
    register, untouched; nothing owed; full shares. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

theorem projDat_A (c : Dev nD) (w : Fin cfg0.W) : (projDat V c).A w = V c (Pipeline.arrRef spec0 w) := by
  dsimp only [projDat]

theorem projDat_after0 (c : Dev nD) (t : Fin cfg0.N) : (projDat V c).after 0 t = projBlk V c 0 t := by dsimp only [projDat]
theorem projDat_after1 (c : Dev nD) (t : Fin cfg0.N) : (projDat V c).after 1 t = projBlk V c 1 t := by dsimp only [projDat]
theorem projDat_after2 (c : Dev nD) (t : Fin cfg0.N) :
    (projDat V c).after 2 t = projOut (projBlk V c 0 t) (projBlk V c 1 t) := by dsimp only [projDat]

/-- The patch window's staging buffer holds image `t`'s block when the body is called, fetched there or not. -/
theorem projDat_before0 (c : Dev nD) (t : Fin cfg0.N) (d) : (projDat V c).before 0 t d = projBlk V c 0 t :=
  ((projDat V c).before_in_eq_fetched 0 rfl (fun _ => rfl) (fun _ _ _ => rfl)
    (fun t => by rw [projDat_after0]; unfold Dat.blockOf projBlk; rw [projDat_A]; try rfl) t d).trans
    (by unfold Dat.fetched Dat.blockOf projBlk; rw [projDat_A]; try rfl)

/-- The weight window's staging buffer holds the weight at every point: fetched once, never moved. -/
theorem projDat_before1 (c : Dev nD) (t : Fin cfg0.N) (d) : (projDat V c).before 1 t d = projBlk V c 1 t :=
  ((projDat V c).before_in_eq_fetched 1 rfl (fun _ => rfl) (fun _ _ _ => rfl)
    (fun t => by rw [projDat_after1]; unfold Dat.blockOf projBlk; rw [projDat_A]; try rfl) t d).trans
    (by unfold Dat.fetched Dat.blockOf projBlk; rw [projDat_A]; try rfl)

/-! ## The body obligation -/

def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

theorem proj_point (c : Dev nD) (t : Fin cfg0.N) :
    projPre V c t ⊢ wp frame (wpE (defs₀ (F := F)) Variants.none c none) Set.univ (bodyAt0 t) (fun _ => projPost V c t) := by
  unfold projPre projPost bodyAt0
  simp only [projDat_before0, projDat_before1]
  rw [show (projDat V c).Φ t.succ = (projDat V c).Φ t.castSucc from rfl,
    show (projDat V c).owesAt () t.succ = (projDat V c).owesAt () t.castSucc from rfl,
    projDat_after0, projDat_after1, projDat_after2]
  iintro ⟨HΦ, Ho, ⟨%d0, H0⟩, ⟨%d1, H1⟩, ⟨%d2, H2⟩⟩
  iapply (proj_body c Set.univ _ _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem proj_obligation (c : Dev nD) : BodyObligation (projDat (F := F) V c) (defs₀ (F := F)) Variants.none () Set.univ := fun t => by
  rw [bigSep_W0, bigSep_W0]
  exact proj_point V c t

end Cert.Kernel.Embed

end
-- ==== Proof.Word.GatherRegion.lean ====
/-
  The second kernel region of the program: the position gather. Its grid has one point per patch row
  (16 x 1024 = 16384). Three prefetched tables of 16384 words sit in scalar memory: the clipped x coordinates,
  the clipped y coordinates and the padding flags. At point `t` the pipeline stages row `t` of the projected
  hidden array, row `xs[t]` of the first position table and row `ys[t]` of the second, and writes back row `t`
  of the result; the body adds the two table rows, replaces the sum by zero when the padding flag at `t` is set,
  and adds that onto the hidden row. Stated at any float family, at ANY admissible contents `a1` of the three
  tables (a variable here: nothing below evaluates a table) and at a parameter `V`, the buffer contents when
  the region is entered: the body's run with the output's stored pieces found by the run itself, what the output
  staging buffer then holds (`gatherOut`), the pipeline's proof data, each input row found in its staging buffer
  at every point whether fetched there or not, and the body obligation.
-/
import proofs.«431244_j39298950758871_1_alg».proof.Proof.Gen.Kernel.Launch
import proofs.«431244_j39298950758871_1_alg».proof.Proof.Gen.Kernel.Skeleton
import proofs.«431244_j39298950758871_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Embed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three tables as the body is handed them -/

abbrev tabX : Memref sig .tc .smem S16384 .i32 := Memref.whole main_v14
abbrev tabY : Memref sig .tc .smem S16384 .i32 := Memref.whole main_v17
abbrev tabPad : Memref sig .tc .smem S16384 .i32 := Memref.whole main_v19

/-- A table's contents type on core `c`, and the table held whole at contents `f`. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare} f

/-- The three tables held at the full share, one by one. -/
theorem tablesHeld_eq (c : Dev nD) (v : pre1.Contents (Elt F)) :
    (Pipeline.prefHeld (Ix := Unit) (Name := ℕ) (U := UR sig nD τ) (Lvl := ℕ) pre1 c (fun _ => fullShare) v : sProp 𝕄)
      = iprop(tabPt c tabX (v 0) ∗ tabPt c tabY (v 1) ∗ tabPt c tabPad (v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The body's run on any staging memrefs -/

set_option maxHeartbeats 1000000 in
/-- The gather body on whole staging memrefs — the hidden row's at `x0`, the two table rows' at `x1` and `x2`,
    the output's at anything — with the padding table held at `xp`: it runs to a continuation that holds the inputs
    and the table unchanged and the output's buffer with the pieces `L` written, `L` being what the run finds. -/
noncomputable def gather_run (c : Dev nD) (i : grid1.Coords)
    (arg4 : Memref sig .tc .vmem S1x1x768 .f32) (harg4 : arg4.IsWhole) (arg5 : Memref sig .tc .vmem S1x1x768 .f32) (harg5 : arg5.IsWhole)
    (arg6 : Memref sig .tc .vmem S1x1x768 .f32) (harg6 : arg6.IsWhole) (arg7 : Memref sig .tc .vmem S1x1x768 .f32) (harg7 : arg7.IsWhole)
    (x0 x1 x2 : Vec F S1x1x768 .f32) (xp : TabBuf (F := F) c tabPad) :
    { L : List (View.Piece (Elt F) S1x1x768 .f32) //
      ∀ (E : Set ℕ) (K : PUnit → sProp 𝕄),
        iprop(owns (c : Thread nD τ) arg4 fullShare x0 ∗ owns (c : Thread nD τ) arg5 fullShare x1 ∗ owns (c : Thread nD τ) arg6 fullShare x2
            ∗ (∃ d, owns (c : Thread nD τ) arg7 fullShare d) ∗ tabPt c tabPad xp
            ∗ (iprop(owns (c : Thread nD τ) arg4 fullShare x0 ∗ owns (c : Thread nD τ) arg5 fullShare x1 ∗ owns (c : Thread nD τ) arg6 fullShare x2
                ∗ (∃ f, arg7.view.loc (c : Thread nD τ) ↦[arg7.view.set]{fullShare} arg7.view.writes (Elt F) f L) ∗ tabPt c tabPad xp) -∗ K ⟨⟩))
          ⊢ wp frame (wpE (defs₀ (F := F)) Variants.none c none) E
              (cc1__gather_kernel i tabX (Memref.isWhole_whole _) tabY (Memref.isWhole_whole _) tabPad (Memref.isWhole_whole _)
                arg4 harg4 arg5 harg5 arg6 harg6 arg7 harg7) K } := by
  refine ⟨?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, HT, Hk⟩
    obtain rfl := harg4.eq_unread hf0
    obtain rfl := harg5.eq_unread hf1
    obtain rfl := harg6.eq_unread hf2
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    iexact HT

/-- The pieces the run leaves cover the output buffer: one of them is a store of the whole block. -/
theorem gather_cover (c : Dev nD) (i : grid1.Coords)
    (arg4 : Memref sig .tc .vmem S1x1x768 .f32) (harg4 : arg4.IsWhole) (arg5 : Memref sig .tc .vmem S1x1x768 .f32) (harg5 : arg5.IsWhole)
    (arg6 : Memref sig .tc .vmem S1x1x768 .f32) (harg6 : arg6.IsWhole) (arg7 : Memref sig .tc .vmem S1x1x768 .f32) (harg7 : arg7.IsWhole)
    (x0 x1 x2 : Vec F S1x1x768 .f32) (xp : TabBuf (F := F) c tabPad) (y : S1x1x768.Idx) :
    ∃ pc ∈ (gather_run c i arg4 harg4 arg5 harg5 arg6 harg6 arg7 harg7 x0 x1 x2 xp).1, y ∈ pc.1.set :=
  View.cover_of_wholeMem (gather_run c i arg4 harg4 arg5 harg5 arg6 harg6 arg7 harg7 x0 x1 x2 xp).1 (by sl_whole_mem) y

/-- One staging buffer of the output window, through which its contents are stated (the choice does not matter). -/
abbrev VOut : View sig .tc .vmem S1x1x768 .f32 := (Memref.whole cc1_stg3_0 : Memref sig .tc .vmem S1x1x768 .f32).view

/-- What the run leaves in the output's staging buffer: its pieces read back over junk. -/
def gatherOutOf (c : Dev nD) (i : grid1.Coords)
    (arg4 : Memref sig .tc .vmem S1x1x768 .f32) (harg4 : arg4.IsWhole) (arg5 : Memref sig .tc .vmem S1x1x768 .f32) (harg5 : arg5.IsWhole)
    (arg6 : Memref sig .tc .vmem S1x1x768 .f32) (harg6 : arg6.IsWhole) (arg7 : Memref sig .tc .vmem S1x1x768 .f32) (harg7 : arg7.IsWhole)
    (x0 x1 x2 : Vec F S1x1x768 .f32) (xp : TabBuf (F := F) c tabPad) : Vec F S1x1x768 .f32 :=
  VOut.read (Elt F) (VOut.writes (Elt F) VOut.junk (gather_run c i arg4 harg4 arg5 harg5 arg6 harg6 arg7 harg7 x0 x1 x2 xp).1)

/-! ## The pipeline at the tables `a1`, its blocks and staging memrefs -/

variable (V : (c : Dev nD) → (b : Ref sig .tc) → Buf (Elt F) ((c : Thread nD τ).loc b))
variable (a1 : (pcfg1 (F := F)).Adm)

/-- Window `w`'s block at point `t`: for the two table windows, the table row the tables' words name. -/
def gatherBlk (c : Dev nD) (w : Fin (cfg1 a1).W) (t : Fin (cfg1 a1).N) :
    (((cfg1 a1).win w).xblock ((cfg1 a1).grid.coords t)).Idx → Elt F ((cfg1 a1).win w).elt :=
  (((cfg1 a1).win w).blk t).view.read (Elt F) (V c (Pipeline.arrRef spec1 w))

abbrev gs0 (t : Fin (cfg1 a1).N) : Memref sig .tc .vmem S1x1x768 .f32 := spec1_0.stage ((cfg1 a1).slots t 0)
abbrev gh0 (t : Fin (cfg1 a1).N) : (gs0 a1 t).IsWhole := hstage1_0 (((cfg1 a1).slots t 0).cast nbuf1_0)
abbrev gs1 (t : Fin (cfg1 a1).N) : Memref sig .tc .vmem S1x1x768 .f32 := spec1_1.stage ((cfg1 a1).slots t 1)
abbrev gh1 (t : Fin (cfg1 a1).N) : (gs1 a1 t).IsWhole := hstage1_1 (((cfg1 a1).slots t 1).cast nbuf1_1)
abbrev gs2 (t : Fin (cfg1 a1).N) : Memref sig .tc .vmem S1x1x768 .f32 := spec1_2.stage ((cfg1 a1).slots t 2)
abbrev gh2 (t : Fin (cfg1 a1).N) : (gs2 a1 t).IsWhole := hstage1_2 (((cfg1 a1).slots t 2).cast nbuf1_2)
abbrev gs3 (t : Fin (cfg1 a1).N) : Memref sig .tc .vmem S1x1x768 .f32 := spec1_3.stage ((cfg1 a1).slots t 3)
abbrev gh3 (t : Fin (cfg1 a1).N) : (gs3 a1 t).IsWhole := hstage1_3 (((cfg1 a1).slots t 3).cast nbuf1_3)

/-- The gather body as the pipeline calls it at point `t`. -/
abbrev gatherAt (t : Fin (cfg1 a1).N) : Prog (TpuEff nD τ sig (Elt F) Λ₀ .tc) PUnit :=
  cc1__gather_kernel (grid1.coords t) tabX (Memref.isWhole_whole _) tabY (Memref.isWhole_whole _) tabPad (Memref.isWhole_whole _)
    (gs0 a1 t) (gh0 a1 t) (gs1 a1 t) (gh1 a1 t) (gs2 a1 t) (gh2 a1 t) (gs3 a1 t) (gh3 a1 t)

/-- What the output's staging buffer holds after the body at point `t`. -/
def gatherOut (c : Dev nD) (t : Fin (cfg1 a1).N) : Vec F S1x1x768 .f32 :=
  gatherOutOf c (grid1.coords t) (gs0 a1 t) (gh0 a1 t) (gs1 a1 t) (gh1 a1 t) (gs2 a1 t) (gh2 a1 t) (gs3 a1 t) (gh3 a1 t)
    (gatherBlk V a1 c 0 t) (gatherBlk V a1 c 1 t) (gatherBlk V a1 c 2 t) (a1.1 2)

/-! ## The proof data of the gather's pipeline -/

/-- The arrays as the region finds them; after the body each input's staging buffer still at its row and the
    output's at `gatherOut`; the invariant the scoped rest, the generator register and the three tables held
    whole at `a1`'s contents; nothing owed; full shares. -/
def gatherDat (c : Dev nD) : Dat τ (Elt F) Unit ℕ (UR sig nD τ) ℕ (cfg1 a1) c where
  A w := V c (Pipeline.arrRef spec1 w)
  after w t := match w with
    | ⟨0, _⟩ => gatherBlk V a1 c 0 t
    | ⟨1, _⟩ => gatherBlk V a1 c 1 t
    | ⟨2, _⟩ => gatherBlk V a1 c 2 t
    | ⟨3, _⟩ => gatherOut V a1 c t
  Φ _ := iprop(Pipeline.ΦA spec1 c ∗ Pipeline.prefHeld (Ix := Unit) (Name := ℕ) (U := UR sig nD τ) (Lvl := ℕ) pre1 c (fun _ => fullShare) a1.1)
  q _ := fullShare
  owed _ := 0

theorem gatherDat_A (c : Dev nD) (w : Fin (cfg1 a1).W) : (gatherDat V a1 c).A w = V c (Pipeline.arrRef spec1 w) := by
  dsimp only [gatherDat]

theorem gatherDat_after0 (c : Dev nD) (t : Fin (cfg1 a1).N) : (gatherDat V a1 c).after 0 t = gatherBlk V a1 c 0 t := by dsimp only [gatherDat]; try rfl
theorem gatherDat_after1 (c : Dev nD) (t : Fin (cfg1 a1).N) : (gatherDat V a1 c).after 1 t = gatherBlk V a1 c 1 t := by dsimp only [gatherDat]; try rfl
theorem gatherDat_after2 (c : Dev nD) (t : Fin (cfg1 a1).N) : (gatherDat V a1 c).after 2 t = gatherBlk V a1 c 2 t := by dsimp only [gatherDat]; try rfl
theorem gatherDat_after3 (c : Dev nD) (t : Fin (cfg1 a1).N) : (gatherDat V a1 c).after 3 t = gatherOut V a1 c t := by dsimp only [gatherDat]; try rfl

/-- Each input window's staging buffer holds its row when the body is called, fetched at that point or not
    (not fetched: the row's number has not moved since the last fetch). -/
theorem gatherDat_before0 (c : Dev nD) (t : Fin (cfg1 a1).N) (d) : (gatherDat V a1 c).before 0 t d = gatherBlk V a1 c 0 t :=
  ((gatherDat V a1 c).before_in_eq_fetched 0 rfl (fun _ => rfl) (fun _ _ _ => rfl)
    (fun t => by rw [gatherDat_after0]; unfold Dat.blockOf gatherBlk; rw [gatherDat_A]; try rfl) t d).trans
    (by unfold Dat.fetched Dat.blockOf gatherBlk; rw [gatherDat_A]; try rfl)
theorem gatherDat_before1 (c : Dev nD) (t : Fin (cfg1 a1).N) (d) : (gatherDat V a1 c).before 1 t d = gatherBlk V a1 c 1 t :=
  ((gatherDat V a1 c).before_in_eq_fetched 1 rfl (fun _ => rfl) (fun _ _ _ => rfl)
    (fun t => by rw [gatherDat_after1]; unfold Dat.blockOf gatherBlk; rw [gatherDat_A]; try rfl) t d).trans
    (by unfold Dat.fetched Dat.blockOf gatherBlk; rw [gatherDat_A]; try rfl)
theorem gatherDat_before2 (c : Dev nD) (t : Fin (cfg1 a1).N) (d) : (gatherDat V a1 c).before 2 t d = gatherBlk V a1 c 2 t :=
  ((gatherDat V a1 c).before_in_eq_fetched 2 rfl (fun _ => rfl) (fun _ _ _ => rfl)
    (fun t => by rw [gatherDat_after2]; unfold Dat.blockOf gatherBlk; rw [gatherDat_A]; try rfl) t d).trans
    (by unfold Dat.fetched Dat.blockOf gatherBlk; rw [gatherDat_A]; try rfl)

/-! ## The body obligation -/

def gatherPre (c : Dev nD) (t : Fin (cfg1 a1).N) : sProp 𝕄 :=
  iprop((gatherDat V a1 c).Φ t.castSucc ∗ (gatherDat V a1 c).owesAt () t.castSucc
    ∗ (∃ d, owns (c : Thread nD τ) (gs0 a1 t) fullShare ((gatherDat V a1 c).before 0 t d))
    ∗ (∃ d, owns (c : Thread nD τ) (gs1 a1 t) fullShare ((gatherDat V a1 c).before 1 t d))
    ∗ (∃ d, owns (c : Thread nD τ) (gs2 a1 t) fullShare ((gatherDat V a1 c).before 2 t d))
    ∗ (∃ d, owns (c : Thread nD τ) (gs3 a1 t) fullShare ((gatherDat V a1 c).before 3 t d)))

def gatherPost (c : Dev nD) (t : Fin (cfg1 a1).N) : sProp 𝕄 :=
  iprop((gatherDat V a1 c).Φ t.succ ∗ (gatherDat V a1 c).owesAt () t.succ
    ∗ owns (c : Thread nD τ) (gs0 a1 t) fullShare ((gatherDat V a1 c).after 0 t)
    ∗ owns (c : Thread nD τ) (gs1 a1 t) fullShare ((gatherDat V a1 c).after 1 t)
    ∗ owns (c : Thread nD τ) (gs2 a1 t) fullShare ((gatherDat V a1 c).after 2 t)
    ∗ owns (c : Thread nD τ) (gs3 a1 t) fullShare ((gatherDat V a1 c).after 3 t))

theorem gather_point (c : Dev nD) (t : Fin (cfg1 a1).N) :
    gatherPre V a1 c t ⊢ wp frame (wpE (defs₀ (F := F)) Variants.none c none) Set.univ (gatherAt a1 t) (fun _ => gatherPost V a1 c t) := by
  unfold gatherPre gatherPost gatherAt
  simp only [gatherDat_before0, gatherDat_before1, gatherDat_before2]
  rw [show (gatherDat V a1 c).Φ t.succ = (gatherDat V a1 c).Φ t.castSucc from rfl,
    show (gatherDat V a1 c).owesAt () t.succ = (gatherDat V a1 c).owesAt () t.castSucc from rfl,
    gatherDat_after0, gatherDat_after1, gatherDat_after2, gatherDat_after3]
  rw [show (gatherDat V a1 c).Φ t.castSucc = iprop(Pipeline.ΦA spec1 c ∗ Pipeline.prefHeld (Ix := Unit) (Name := ℕ) (U := UR sig nD τ) (Lvl := ℕ) pre1 c (fun _ => fullShare) a1.1) from rfl,
    tablesHeld_eq]
  unfold gatherOut gatherOutOf
  iintro ⟨⟨HΦ, ⟨HTx, HTy, HTp⟩⟩, Ho, ⟨%d0, H0⟩, ⟨%d1, H1⟩, ⟨%d2, H2⟩, ⟨%d3, H3⟩⟩
  iapply ((gather_run c (grid1.coords t) _ _ _ _ _ _ _ _ (gatherBlk V a1 c 0 t) (gatherBlk V a1 c 1 t) (gatherBlk V a1 c 2 t) (a1.1 2)).2 Set.univ _)
  isplitl [H0]; · iexact H0
  isplitl [H1]; · iexact H1
  isplitl [H2]; · iexact H2
  isplitl [H3]; · iexists _; iexact H3
  isplitl [HTp]; · iexact HTp
  iintro ⟨H0, H1, H2, ⟨%e3, H3⟩, HTp⟩
  isplitl [HΦ HTx HTy HTp]
  · isplitl [HΦ]; · iexact HΦ
    isplitl [HTx]; · iexact HTx
    isplitl [HTy]; · iexact HTy
    iexact HTp
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (gather_cover c _ _ _ _ _ _ _ _ _ _ _ _ _)

theorem gather_obligation (c : Dev nD) : BodyObligation (gatherDat (F := F) V a1 c) (defs₀ (F := F)) Variants.none () Set.univ := fun t => by
  rw [bigSep_W1, bigSep_W1]
  exact gather_point V a1 c t

end Cert.Kernel.Embed

end
-- ==== Proof.Word.Run.lean ====
/-
  The whole run of the program, at any float family: @main is a stretch of host operations (the
  patches rescaled and the weight transposed), the projection region, three more host stretches (the position
  ids clipped at zero, split into x and y and flattened; the padding flags widened; the projected array and
  the two position tables re-laid as rows), the gather region, and a closing reshape. The buffer contents at
  every boundary are a fold from the launch memory `m`: a host stretch applies its operations, a region
  replaces its windows' arrays by what its write-backs leave and changes nothing else. The gather's three
  prefetched tables are READ OFF that fold at the gather's entry (`tabsOf`): they depend on the arguments only,
  and the run is stated under the pipeline's side condition of them (`TabsOk`: every table-named row inside its
  position table). Its conclusion: every weakly fair execution terminates, and every unscoped buffer ends at
  the fold's last contents (`memEnd`) — from which both the frame (the arguments as launched) and the result
  array's value are read.
-/
import proofs.«431244_j39298950758871_1_alg».proof.Proof.Word.ProjRegion
import proofs.«431244_j39298950758871_1_alg».proof.Proof.Word.GatherRegion
import proofs.«431244_j39298950758871_1_alg».proof.Proof.Gen.Kernel.Regions

set_option maxRecDepth 16384

noncomputable section

namespace Cert.Kernel.Embed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev memLaunch : Dev nD → Valuation τ sig (Elt F) := fun c b => m (c, b)
/-- After the first host stretch: the projection's entry. -/
abbrev memProjIn : Dev nD → Valuation τ sig (Elt F) := fun c => StableHlo.after hostOps0 (memLaunch m c)
/-- The same read at the TensorCore's references. -/
abbrev eProj : (c : Dev nD) → (b : Ref sig .tc) → Buf (Elt F) ((c : Thread nD τ).loc b) := fun c b => memProjIn m c b
/-- At the projection's exit: its arrays at what the pipeline leaves, every other buffer as entered. -/
def memProjOut (c : Dev nD) : Valuation τ sig (Elt F) :=
  Pipeline.withArrays spec0 c (memProjIn m c) fun w => (projDat (eProj m) c).arrAt w cfg0.N
theorem memProjOut_arr (c : Dev nD) (w : Fin cfg0.W) :
    memProjOut m c (Proc.devRef .tc (Pipeline.arrRef spec0 w)) = (projDat (eProj m) c).arrAt w cfg0.N := by
  unfold memProjOut; exact Pipeline.withArrays_arr spec0 winFacts0.arr_inj c _ _ w
theorem memProjOut_of_ne (c : Dev nD) (b : Ref sig .tc) (hb : ∀ w, Pipeline.arrRef spec0 w ≠ b) :
    memProjOut m c (Proc.devRef .tc b) = memProjIn m c (Proc.devRef .tc b) := by
  unfold memProjOut; exact Pipeline.withArrays_of_ne spec0 c _ _ b hb
abbrev xProj : (c : Dev nD) → (b : Ref sig .tc) → Buf (Elt F) ((c : Thread nD τ).loc b) := fun c b => memProjOut m c b
/-- After the zero constant, -/
abbrev memZero : Dev nD → Valuation τ sig (Elt F) := fun c => StableHlo.after hostOps1 (memProjOut m c)
/-- after the clip at zero, -/
abbrev memClip : Dev nD → Valuation τ sig (Elt F) := fun c => StableHlo.after hostOps1_1 (memZero m c)
/-- and after the tables and the rows are laid out: the gather's entry. -/
abbrev memGatherIn : Dev nD → Valuation τ sig (Elt F) := fun c => StableHlo.after hostOps1_2 (memClip m c)
abbrev eGather : (c : Dev nD) → (b : Ref sig .tc) → Buf (Elt F) ((c : Thread nD τ).loc b) := fun c b => memGatherIn m c b

/-! ## The gather's tables, read off the fold -/

/-- The three prefetched tables' contents when the gather is entered (the program runs on one device). -/
def tabsOf : pre1.Contents (Elt F) := fun j => eGather m (0 : Dev nD) (pre1.ref j)
theorem eGather_pre (c : Dev nD) (j : Fin 3) : eGather m c (pre1.ref j) = tabsOf m j := by
  obtain rfl : c = 0 := Subsingleton.elim _ _; rfl
/-- The pipeline's side condition of those contents: every row the x and y tables name lies inside its position table. -/
abbrev TabsOk : Prop := ok1 (F := F) (tabsOf m)

variable (hO : TabsOk m)

/-- The tables as admissible contents, and every pipeline's. -/
abbrev a1 : (pcfg1 (F := F)).Adm := ⟨tabsOf m, hO⟩
abbrev adm : (p : Fin 2) → (pcfgs (F := F) p).Adm
  | ⟨0, _⟩ => cfg0.toPCfg_adm
  | ⟨1, _⟩ => a1 m hO
  | ⟨_ + 2, h⟩ => absurd h (Nat.not_lt.2 (Nat.le_add_left _ _))

/-- At the gather's exit: its arrays at what the pipeline leaves, every other buffer as entered. -/
def memGatherOut (c : Dev nD) : Valuation τ sig (Elt F) :=
  Pipeline.withArrays spec1 c (memGatherIn m c) fun w => (gatherDat (eGather m) (a1 m hO) c).arrAt w (cfg1 (a1 m hO)).N
theorem memGatherOut_arr (c : Dev nD) (w : Fin (cfg1 (a1 m hO)).W) :
    memGatherOut m hO c (Proc.devRef .tc (Pipeline.arrRef spec1 w)) = (gatherDat (eGather m) (a1 m hO) c).arrAt w (cfg1 (a1 m hO)).N := by
  unfold memGatherOut; exact Pipeline.withArrays_arr spec1 winFacts1.arr_inj c _ _ w
theorem memGatherOut_of_ne (c : Dev nD) (b : Ref sig .tc) (hb : ∀ w, Pipeline.arrRef spec1 w ≠ b) :
    memGatherOut m hO c (Proc.devRef .tc b) = memGatherIn m c (Proc.devRef .tc b) := by
  unfold memGatherOut; exact Pipeline.withArrays_of_ne spec1 c _ _ b hb
abbrev xGather : (c : Dev nD) → (b : Ref sig .tc) → Buf (Elt F) ((c : Thread nD τ).loc b) := fun c b => memGatherOut m hO c b
/-- After the closing reshape: the end. -/
abbrev memEnd : Dev nD → Valuation τ sig (Elt F) := fun c => StableHlo.after hostOps2 (memGatherOut m hO c)

/-! ## The proof data family and what rides beside the buffers -/

def pdats : (p : Fin 2) → (c : Dev nD) → Dat τ (Elt F) Unit ℕ (UR sig nD τ) ℕ (Pipeline.pin (pcfgs (F := F)) (adm m hO) p) c
  | ⟨0, _⟩ => fun c => projDat (eProj m) c
  | ⟨1, _⟩ => fun c => gatherDat (eGather m) (a1 m hO) c

abbrev 𝒱₀ : Variants := Variants.none
abbrev Lev : GSem nD τ sig → Finset Unit := fun _ => ∅
abbrev lev : GSem nD τ sig → Unit → ℕ := fun _ _ => 0
/-- The generator register at some state and the core owing nothing. -/
abbrev Rides (c : Dev nD) : sProp 𝕄 := iprop((∃ r, prngReg c r) ∗ ∃ W, owes (c : Thread nD τ) (0 : CellTallies nD τ sig Unit) W)

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lev lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rides

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions' exits against the fold -/

theorem projExit_arr (c : Dev nD) (w : Fin cfg0.W) : (projDat (eProj m) c).arrAt w cfg0.N = xProj m c (Pipeline.arrRef spec0 w) :=
  (memProjOut_arr m c w).symm
theorem projExit_rest (c : Dev nD) : ∀ b, b ∉ Finset.univ.image (Pipeline.arrRef spec0) → xProj m c b = eProj m c b :=
  fun b hb => memProjOut_of_ne m c b fun w e => hb (Finset.mem_image.mpr ⟨w, Finset.mem_univ _, e⟩)
theorem gatherExit_arr (c : Dev nD) (w : Fin (cfg1 (a1 m hO)).W) :
    (gatherDat (eGather m) (a1 m hO) c).arrAt w (cfg1 (a1 m hO)).N = xGather m hO c (Pipeline.arrRef spec1 w) :=
  (memGatherOut_arr m hO c w).symm
theorem gatherExit_rest (c : Dev nD) : ∀ b, b ∉ Finset.univ.image (Pipeline.arrRef spec1) → xGather m hO c b = eGather m c b :=
  fun b hb => memGatherOut_of_ne m hO c b fun w e => hb (Finset.mem_image.mpr ⟨w, Finset.mem_univ _, e⟩)

set_option backward.isDefEq.respectTransparency.types false in
/-- The gather's unscoped rest at its entry: the three tables held whole at `tabsOf`, and the rest proper. -/
theorem gatherRest_split (c : Dev nD) :
    (Pipeline.unscopedRest (Ix := Unit) (Name := ℕ) (U := UR sig nD τ) (Lvl := ℕ) (Pipeline.pin (pcfgs (F := F)) (adm m hO) 1).spec c (eGather m c) : sProp 𝕄)
      = iprop(Pipeline.prefHeld (Ix := Unit) (Name := ℕ) (U := UR sig nD τ) (Lvl := ℕ) pre1 c (fun _ => fullShare) (tabsOf m)
          ∗ Pipeline.unscopedRestP (Ix := Unit) (Name := ℕ) (U := UR sig nD τ) (Lvl := ℕ) pre1 spec1 c (eGather m c)) := by
  have h := Pipeline.unscopedRest_split (Ix := Unit) (Name := ℕ) (U := UR sig nD τ) (Lvl := ℕ) (win := spec1) (pre := pre1) preFacts1 c (eGather m c)
  rw [show (fun k => eGather m c (pre1.ref k)) = tabsOf m from funext fun k => eGather_pre m c k] at h
  exact h

/-! ## The regions as segments -/

set_option backward.isDefEq.respectTransparency.types false in
/-- The projection region over the thread state: entered from every unscoped buffer at `memProjIn`, left at `memProjOut`. -/
def regProj : Pipeline.RegionSeg (pcfgs (F := F)) (adm m hO) (pdats m hO) () defs₀ 𝒱₀ Lev lev 0 where
  win := winFacts0.to₀
  block_pos := block_pos0
  stage_whole := stage_whole0
  K := PEmpty
  osem k := k.elim
  ho := Pipeline.OwnSemFacts.none _
  hbody c := (proj_obligation (eProj m) c).loose
  hwaits := Pipeline.hwaits_of_owed_zero _ _ _ _ Lev lev 0 fun _ _ => rfl
  pre c := iprop(StableHlo.held (c : Thread nD τ) (Pipeline.ucRefs τ sig) (memProjIn m c) ∗ Rides c)
  post c := iprop(StableHlo.held (c : Thread nD τ) (Pipeline.ucRefs τ sig) (memProjOut m c) ∗ Rides c)
  X c := iprop(∃ r, prngReg c r)
  Y c := iprop(∃ r, prngReg c r)
  Z c := Pipeline.unscopedRest (Ix := Unit) (Name := ℕ) (U := UR sig nD τ) (Lvl := ℕ) spec0 c (eProj m c)
  hentry c := by
    rw [Pipeline.ownSems0_none]
    have hsplit := Pipeline.arrays_of_unscopedBufs (p := 0) (pcfgs (F := F)) (adm m hO) (pdats m hO) winFacts0 arr_whole0 c
      ((pdats m hO 0 c).share_full fun _ => rfl) (eProj m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      winFacts0 arr_whole0 c (pdats m hO) ((pdats m hO 0 c).share_full fun _ => rfl)
      (eProj m c) (xProj m c) ((pdats m hO 0 c).arrAt · cfg0.N) (projExit_arr m c) (projExit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather region over the thread state: entered from every unscoped buffer at `memGatherIn`, left at
    `memGatherOut`. The three tables are among the unscoped buffers: taken out whole at entry at the contents the
    fold has there (which are `a1`'s), held inside the pipeline's invariant for the body to read, given back at exit. -/
def regGather : Pipeline.RegionSeg (pcfgs (F := F)) (adm m hO) (pdats m hO) () defs₀ 𝒱₀ Lev lev 1 where
  win := winFacts1.to₀
  block_pos := block_pos1
  stage_whole := stage_whole1
  K := PEmpty
  osem k := k.elim
  ho := Pipeline.OwnSemFacts.none _
  hbody c := (gather_obligation (eGather m) (a1 m hO) c).loose
  hwaits := Pipeline.hwaits_of_owed_zero _ _ _ _ Lev lev 1 fun _ _ => rfl
  pre c := iprop(StableHlo.held (c : Thread nD τ) (Pipeline.ucRefs τ sig) (memGatherIn m c) ∗ Rides c)
  post c := iprop(StableHlo.held (c : Thread nD τ) (Pipeline.ucRefs τ sig) (memGatherOut m hO c) ∗ Rides c)
  X c := iprop(∃ r, prngReg c r)
  Y c := iprop((∃ r, prngReg c r) ∗ Pipeline.prefHeld (Ix := Unit) (Name := ℕ) (U := UR sig nD τ) (Lvl := ℕ) pre1 c (fun _ => fullShare) (tabsOf m))
  Z c := Pipeline.unscopedRestP (Ix := Unit) (Name := ℕ) (U := UR sig nD τ) (Lvl := ℕ) pre1 spec1 c (eGather m c)
  hentry c := by
    rw [Pipeline.ownSems0_none]
    have hsplit := Pipeline.arrays_of_unscopedBufs (p := 1) (pcfgs (F := F)) (adm m hO) (pdats m hO) winFacts1 arr_whole1 c
      ((pdats m hO 1 c).share_full fun _ => rfl) (eGather m c) fun _ => rfl
    rw [Pipeline.unscopedBufs_held, gatherRest_split m hO c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = iprop(Pipeline.ΦA spec1 c ∗ Pipeline.prefHeld (Ix := Unit) (Name := ℕ) (U := UR sig nD τ) (Lvl := ℕ) pre1 c (fun _ => fullShare) (tabsOf m)) from rfl]
    unfold Pipeline.ΦA
    iintro ⟨Hp, Ht, Hr⟩
    isplitl [Hr Hp]
    · isplitl [Hr]; · iexact Hr
      iexact Hp
    iexact Ht
  hout c := by
    rw [Pipeline.ownSems0_none, show (pdats m hO 1 c).Φ (Fin.last _) = iprop(Pipeline.ΦA spec1 c ∗ Pipeline.prefHeld (Ix := Unit) (Name := ℕ) (U := UR sig nD τ) (Lvl := ℕ) pre1 c (fun _ => fullShare) (tabsOf m)) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m hO) (Ix := Unit) (Name := ℕ) (U := UR sig nD τ) (Lvl := ℕ)
      winFacts1 arr_whole1 c (pdats m hO) ((pdats m hO 1 c).share_full fun _ => rfl)
      (eGather m c) (xGather m hO c) ((pdats m hO 1 c).arrAt · (cfg1 (a1 m hO)).N) (gatherExit_arr m hO c) (gatherExit_rest m hO c)
    rw [Pipeline.unscopedBufs_held, gatherRest_split m hO c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-- The last host stretch's exit, regrouped: the buffers and the generator register beside the core owing nothing. -/
theorem endLink (c : Dev nD) :
    (iprop(StableHlo.held (c : Thread nD τ) (Pipeline.ucRefs τ sig) (memEnd m hO c) ∗ Rides c) : sProp 𝕄)
      ⊢ iprop((StableHlo.held (c : Thread nD τ) (Pipeline.ucRefs τ sig) (memEnd m hO c) ∗ ∃ r, prngReg c r)
          ∗ ∃ W, owes (c : Thread nD τ) (0 : CellTallies nD τ sig Unit) W) := by
  iintro ⟨Hh, Hp, Ho⟩
  isplitl [Hh Hp]
  · isplitl [Hh]; · iexact Hh
    iexact Hp
  iexact Ho

/-! ## @main as segments, and the launch -/

abbrev segs : List (Pipeline.Seg (pcfgs (F := F)) (adm m hO) (pdats m hO) () defs₀ 𝒱₀ Lev lev) :=
  [ .host (hostSeg hostOps0 hostOps0_sub hostOps0_fresh (memLaunch m)),
    .region (regProj m hO),
    .host (hostSeg hostOps1 hostOps1_sub hostOps1_fresh (memProjOut m)),
    .host (hostSeg hostOps1_1 hostOps1_1_sub hostOps1_1_fresh (memZero m)),
    .host (hostSeg hostOps1_2 hostOps1_2_sub hostOps1_2_fresh (memClip m)),
    .region (regGather m hO),
    .host (hostSeg hostOps2 hostOps2_sub hostOps2_fresh (memGatherOut m hO)) ]

set_option backward.isDefEq.respectTransparency.types false in
/-- THE RUN: from any memory with zero counters, under the tables' side condition, every weakly fair execution of
    @main terminates, nothing faulting, and every unscoped buffer of every core ends at `memEnd`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = memEnd m hO c b) :=
  Pipeline.θ_run_regions_kit (pcfgs (F := F)) (adm m hO) (pdats m hO) () (cellOf_inj (adm m hO)) emb₁ defs₀ 𝒱₀ Lev lev m ρ main (segs m hO)
    (fun c Q => by
      rewrite [main_chain c, Pipeline.Seg.run_eq_chain,
        show (segs m hO).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (memLaunch m c) ∗ Rides c))
    (Tₙ := fun c => iprop(StableHlo.held (c : Thread nD τ) (Pipeline.ucRefs τ sig) (memEnd m hO c) ∗ ∃ r, prngReg c r))
    (hch := ⟨fun _ => .rfl, fun _ => .rfl, fun _ => .rfl, fun _ => .rfl, fun _ => .rfl, fun _ => .rfl, fun _ => .rfl, fun c => endLink m hO c⟩)
    (hinit := by
      refine Pipeline.initEach Lev lev fun c => ?_
      rw [show unscopedBufs c (fun b => m ((c : Thread nD τ).loc b)) = StableHlo.held (c : Thread nD τ) (Pipeline.ucRefs τ sig) (memLaunch m c)
        from Pipeline.unscopedBufs_held c (memLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = memEnd m hO c b)
    (hfin := fun c s' => by
      iintro ⟨⟨Hh, -⟩, HSI⟩
      unfold StableHlo.held
      imodintro
      iapply (pointsTo_read_all (Pipeline.ucRefs τ sig) (fun b => (((c : Thread nD τ)).1, b)) (memEnd m hO c) s')
      isplitl [Hh] <;> iassumption)
    (hQ := fun s h c => h c)

end Cert.Kernel.Embed

end
-- ==== Proof.Word.Fold.lean ====
import proofs.«431244_j39298950758871_1_alg».proof.Proof.Word.Run
import Idealize.ShloMosaic.Lib.StableHlo.Run

set_option maxRecDepth 16384

noncomputable section

namespace Cert.Kernel.Embed

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- A buffer that no host stretch writes and no region's window stages reaches the gather's entry as launched. -/
theorem memGatherIn_keeps (c : Dev nD) (r : Ref sig .tc) (h0 : r ∉ hostOps0_W) (hp : ∀ w, Pipeline.arrRef spec0 w ≠ r)
    (h1 : r ∉ hostOps1_W) (h11 : r ∉ hostOps1_1_W) (h12 : r ∉ hostOps1_2_W) :
    memGatherIn m c (Proc.devRef .tc r) = m ((c : Thread nD τ).loc r) :=
  (after_of_writes_sub hostOps1_2 _ hostOps1_2_writes h12).trans <|
  (after_of_writes_sub hostOps1_1 _ hostOps1_1_writes h11).trans <|
  (after_of_writes_sub hostOps1 _ hostOps1_writes h1).trans <|
  (memProjOut_of_ne m c r hp).trans <|
  (after_of_writes_sub hostOps0 _ hostOps0_writes h0).trans rfl

variable (hO : TabsOk m)

theorem memEnd_keeps (c : Dev nD) (r : Ref sig .tc) (h0 : r ∉ hostOps0_W) (hp : ∀ w, Pipeline.arrRef spec0 w ≠ r)
    (h1 : r ∉ hostOps1_W) (h11 : r ∉ hostOps1_1_W) (h12 : r ∉ hostOps1_2_W) (hg : ∀ w, Pipeline.arrRef spec1 w ≠ r) (h2 : r ∉ hostOps2_W) :
    memEnd m hO c (Proc.devRef .tc r) = m ((c : Thread nD τ).loc r) :=
  (after_of_writes_sub hostOps2 _ hostOps2_writes h2).trans <|
  (memGatherOut_of_ne m hO c r hg).trans <| memGatherIn_keeps m c r h0 hp h1 h11 h12

theorem memEnd_arg0 (c : Dev nD) : memEnd m hO c (Proc.devRef .tc main_arg0) = m ((c : Thread nD τ).loc main_arg0) :=
  memEnd_keeps m hO c main_arg0 (by decide) (by decide) (by decide) (by decide) (by decide) (by decide) (by decide)

theorem memEnd_arg1 (c : Dev nD) : memEnd m hO c (Proc.devRef .tc main_arg1) = m ((c : Thread nD τ).loc main_arg1) :=
  memEnd_keeps m hO c main_arg1 (by decide) (by decide) (by decide) (by decide) (by decide) (by decide) (by decide)
theorem memEnd_arg2 (c : Dev nD) : memEnd m hO c (Proc.devRef .tc main_arg2) = m ((c : Thread nD τ).loc main_arg2) :=
  memEnd_keeps m hO c main_arg2 (by decide) (by decide) (by decide) (by decide) (by decide) (by decide) (by decide)
theorem memEnd_arg3 (c : Dev nD) : memEnd m hO c (Proc.devRef .tc main_arg3) = m ((c : Thread nD τ).loc main_arg3) :=
  memEnd_keeps m hO c main_arg3 (by decide) (by decide) (by decide) (by decide) (by decide) (by decide) (by decide)
theorem memEnd_arg4 (c : Dev nD) : memEnd m hO c (Proc.devRef .tc main_arg4) = m ((c : Thread nD τ).loc main_arg4) :=
  memEnd_keeps m hO c main_arg4 (by decide) (by decide) (by decide) (by decide) (by decide) (by decide) (by decide)

omit hO

/-! ## The three tables, from any contents `W` at the projection's exit -/

/-- The position ids clipped below at zero. -/
def clipped (ids : IVec S16x1024x2 32) : IVec S16x1024x2 32 :=
  maxsi (broadcastInDim S16x1024x2 ![] Facts₀.bcast_S_S16x1024x2 (id (constantI S_ 32 0#32))) ids

/-- Coordinate `k` (0: x, 1: y) of the clipped ids, flattened to one word per row. -/
def coordTable0 (ids : IVec S16x1024x2 32) : IVec S16384 32 :=
  shapeCast S16384 (shapeCast S16x1024 (extractStridedSlice S16x1024x1 ![0, 0, 0] (clipped ids)
    Facts₀.slices_S16x1024x2_S16x1024x1_0_0_0) Facts₀.shapeCasts_S16x1024x1_S16x1024) Facts₀.shapeCasts_S16x1024_S16384
def coordTable1 (ids : IVec S16x1024x2 32) : IVec S16384 32 :=
  shapeCast S16384 (shapeCast S16x1024 (extractStridedSlice S16x1024x1 ![0, 0, 1] (clipped ids)
    Facts₀.slices_S16x1024x2_S16x1024x1_0_0_1) Facts₀.shapeCasts_S16x1024x1_S16x1024) Facts₀.shapeCasts_S16x1024_S16384
/-- The padding flags flattened and widened to words. -/
def padTable (pad : IVec S16x1024 1) : IVec S16384 32 :=
  extui 32 (shapeCast S16384 pad Facts₀.shapeCasts_S16x1024_S16384) Facts₀.natLt_1_32

theorem tab_x_of (W : Valuation τ sig (Elt F)) :
    after hostOps1_2 (after hostOps1_1 (after hostOps1 W)) (Proc.devRef .tc main_v14) = coordTable0 (W (Proc.devRef .tc main_arg3)) := by
  dsimp only [hostOps1, hostOps1_1, hostOps1_2]
  after_results
  simp only [TRef.ofBuf, TRef.toBuf, cast_eq]
  rfl
theorem tab_y_of (W : Valuation τ sig (Elt F)) :
    after hostOps1_2 (after hostOps1_1 (after hostOps1 W)) (Proc.devRef .tc main_v17) = coordTable1 (W (Proc.devRef .tc main_arg3)) := by
  dsimp only [hostOps1, hostOps1_1, hostOps1_2]
  after_results
  simp only [TRef.ofBuf, TRef.toBuf, cast_eq]
  rfl
theorem tab_pad_of (W : Valuation τ sig (Elt F)) :
    after hostOps1_2 (after hostOps1_1 (after hostOps1 W)) (Proc.devRef .tc main_v19) = padTable (W (Proc.devRef .tc main_arg4)) := by
  dsimp only [hostOps1, hostOps1_1, hostOps1_2]
  after_results
  rfl

theorem memProjOut_keeps (c : Dev nD) (r : Ref sig .tc) (h0 : r ∉ hostOps0_W) (hp : ∀ w, Pipeline.arrRef spec0 w ≠ r) :
    memProjOut m c (Proc.devRef .tc r) = m ((c : Thread nD τ).loc r) :=
  (memProjOut_of_ne m c r hp).trans <| (after_of_writes_sub hostOps0 _ hostOps0_writes h0).trans rfl

/-- The gather's tables are functions of the position ids and the padding flags alone. -/
theorem tabsOf_x : (tabsOf m 0 : IVec S16384 32) = coordTable0 (m (((0 : Dev nD) : Thread nD τ).loc main_arg3)) :=
  (tab_x_of (memProjOut m 0)).trans (congrArg coordTable0 (memProjOut_keeps m 0 main_arg3 (by decide) (by decide)))
theorem tabsOf_y : (tabsOf m 1 : IVec S16384 32) = coordTable1 (m (((0 : Dev nD) : Thread nD τ).loc main_arg3)) :=
  (tab_y_of (memProjOut m 0)).trans (congrArg coordTable1 (memProjOut_keeps m 0 main_arg3 (by decide) (by decide)))
theorem tabsOf_pad : (tabsOf m 2 : IVec S16384 32) = padTable (m (((0 : Dev nD) : Thread nD τ).loc main_arg4)) :=
  (tab_pad_of (memProjOut m 0)).trans (congrArg padTable (memProjOut_keeps m 0 main_arg4 (by decide) (by decide)))

end Cert.Kernel.Embed

end
-- ==== Proof.Word.OkOfPre.lean ====
/-
  From the precondition to the gather pipeline's side condition. The precondition's last conjunct says every
  position id is below 10240, signed. The x and y tables hold the ids clipped below at zero, so every table
  word, read unsigned, is a row number below 10240: the [1, 1, 768] block it names lies inside its
  [10240, 1, 768] position table, and a transfer of 32-bit words has word-exact ends.
-/
import proofs.«431244_j39298950758871_1_alg».proof.Proof.Word.Fold
import proofs.«431244_j39298950758871_1_alg».proof.Proof.Spec
import proofs.«431244_j39298950758871_1_alg».proof.Pre_finite_inputs
import Idealize.ShloMosaic.Lib.ReduceAll
import Idealize.ShloMosaic.Lib.Affine
import Idealize.ShloMosaic.Lib.ValueIdx

set_option maxRecDepth 16384

noncomputable section

namespace Cert.Kernel.Embed

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The precondition's predicate is all ones at the launch memory of the program's one device. -/
def PreHolds [Cert.Pre_finite_inputs.Facts] : Prop :=
  Cert.Pre_finite_inputs.fn (F := F) (m (((0 : Dev nD) : Thread nD τ).loc main_arg0)) (m (((0 : Dev nD) : Thread nD τ).loc main_arg1))
    (m (((0 : Dev nD) : Thread nD τ).loc main_arg2)) (m (((0 : Dev nD) : Thread nD τ).loc main_arg3)) (m (((0 : Dev nD) : Thread nD τ).loc main_arg4))
    = (fun _ => 1#1)

/-- Every position id is below 10240, signed: the precondition's last conjunct, an "all" over the id array. -/
theorem ids_below [Cert.Pre_finite_inputs.Facts] (h : PreHolds m) (i : S16x1024x2.Idx) :
    IntOp.cmpi .slt ((m (((0 : Dev nD) : Thread nD τ).loc main_arg3) : IVec S16x1024x2 32) i) (10240#32) = 1#1 := by
  have e := congrFun h ValueIdx.ix0
  unfold Cert.Pre_finite_inputs.fn Cert.Pre_finite_inputs.fn_part1 at e
  dsimp only at e
  have e2 := (IntOp.andi_eq_one.mp e).2
  haveI : Subsingleton Cert.Pre_finite_inputs.S_.Idx := ⟨fun a b => funext fun d => d.elim0⟩
  exact Host.reduce_andi_all _ _ _ _ _ e2 i

/-- Every word of the x table is some id clipped below at zero; likewise the y table. -/
theorem coordTable0_clip (ids : IVec S16x1024x2 32) (x : S16384.Idx) : ∃ j, coordTable0 ids x = IntOp.maxsi (0#32) (ids j) := ⟨_, rfl⟩
theorem coordTable1_clip (ids : IVec S16x1024x2 32) (x : S16384.Idx) : ∃ j, coordTable1 ids x = IntOp.maxsi (0#32) (ids j) := ⟨_, rfl⟩

/-- Tables whose x and y words are all below 10240 satisfy the pipeline's side condition. -/
theorem ok1_of_rows (pf : pre1.Contents (Elt F)) (hx : ∀ x, ((pf 0 : IVec S16384 32) x).toNat < 10240)
    (hy : ∀ x, ((pf 1 : IVec S16384 32) x).toNat < 10240) : ok1 (F := F) pf := by
  refine ⟨fun i => ?_, fun i => ?_⟩
  · obtain ⟨w, hw, e⟩ : ∃ w : BitVec 32, w.toNat < 10240 ∧ cc1_transform_1 Facts₀.k1_off1_inb Facts₀.numel1_S1 pf i = ![w.toNat, 0, 0] :=
      ⟨_, hx _, rfl⟩
    refine ⟨fun a => ?_, Or.inl rfl⟩
    rw [e]
    fin_cases a <;> simp [S1x1x768, S10240x1x768] <;> omega
  · obtain ⟨w, hw, e⟩ : ∃ w : BitVec 32, w.toNat < 10240 ∧ cc1_transform_2 Facts₀.k1_off1_inb Facts₀.numel1_S1 pf i = ![w.toNat, 0, 0] :=
      ⟨_, hy _, rfl⟩
    refine ⟨fun a => ?_, Or.inl rfl⟩
    rw [e]
    fin_cases a <;> simp [S1x1x768, S10240x1x768] <;> omega

/-- Under "every id below 10240" the tables the fold holds at the gather's entry are admissible. -/
theorem tabsOk_of_below (hR : ∀ i, IntOp.cmpi .slt ((m (((0 : Dev nD) : Thread nD τ).loc main_arg3) : IVec S16x1024x2 32) i) (10240#32) = 1#1) :
    TabsOk m := by
  refine ok1_of_rows (tabsOf m) (fun x => ?_) (fun x => ?_)
  · rw [tabsOf_x]
    obtain ⟨j, e⟩ := coordTable0_clip (m (((0 : Dev nD) : Thread nD τ).loc main_arg3)) x
    rw [e]; exact (Cert.EmbedSpec.rowOf_val _ (hR j)).2
  · rw [tabsOf_y]
    obtain ⟨j, e⟩ := coordTable1_clip (m (((0 : Dev nD) : Thread nD τ).loc main_arg3)) x
    rw [e]; exact (Cert.EmbedSpec.rowOf_val _ (hR j)).2

theorem tabsOk_of_pre [Cert.Pre_finite_inputs.Facts] (h : PreHolds m) : TabsOk m :=
  tabsOk_of_below m (ids_below m h)

end Cert.Kernel.Embed

end
-- ==== Proof.FoldValue.lean ====
/-
  The fold read at the buffers the value of the result passes through, at any float family: the projection's two
  inputs are the rounded rescaled patches and the rounded transposed weight; the gather's hidden rows are the
  projection's result re-laid one patch per row, its two tables' rows are the two halves of the position table;
  the program's result is the gather's rows re-laid as [image, patch, feature].
-/
import proofs.«431244_j39298950758871_1_alg».proof.Proof.Fold

set_option maxRecDepth 16384

noncomputable section

namespace Cert.KernelIdeal.Embed

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The rescaled patch array: the images re-laid as [image, patch, feature], minus one half, doubled. -/
def patchesOf (x : FVec F S16x3x512x512 .f32) : FVec F S16x1024x768 .f32 :=
  mulf (broadcastInDim S16x1024x768 ![] Facts₀.bcast_S_S16x1024x768 (constant S_ .f32 0x40000000#32))
    (subf (shapeCast S16x1024x768 (transpose S16x32x32x3x16x16 [0, 2, 4, 1, 3, 5]
        (shapeCast S16x3x32x16x32x16 x Facts₀.shapeCasts_S16x3x512x512_S16x3x32x16x32x16)
        Facts₀.transposes_S16x3x32x16x32x16_S16x32x32x3x16x16_0_2_4_1_3_5) Facts₀.shapeCasts_S16x32x32x3x16x16_S16x1024x768)
      (broadcastInDim S16x1024x768 ![] Facts₀.bcast_S_S16x1024x768 (constant S_ .f32 0x3F000000#32)))

theorem projIn_patches (c : Dev nD) :
    memProjIn m c (Proc.devRef .tc main_v7) = truncf .bf16 (patchesOf (m ((c : Thread nD τ).loc main_arg0))) Facts₀.bitsLt_bf16_f32 := by
  dsimp only [memProjIn, memLaunch, hostOps0]
  after_results
  rfl

theorem projIn_weight (c : Dev nD) :
    memProjIn m c (Proc.devRef .tc main_v9)
      = truncf .bf16 (transpose S768x768 [1, 0] (m ((c : Thread nD τ).loc main_arg1)) Facts₀.transposes_S768x768_S768x768_1_0) Facts₀.bitsLt_bf16_f32 := by
  dsimp only [memProjIn, memLaunch, hostOps0]
  after_results

theorem gatherIn_hidden_of (W : Valuation τ sig (Elt F)) :
    after hostOps1_2 (after hostOps1_1 (after hostOps1 W)) (Proc.devRef .tc main_v20)
      = shapeCast S16384x1x768 (W (Proc.devRef .tc main_v10)) Facts₀.shapeCasts_S16x1024x768_S16384x1x768 := by
  dsimp only [hostOps1, hostOps1_1, hostOps1_2]
  after_results
  rfl

/-- Half `h` of the position table, one table row per row. -/
def tableRows0 (T : FVec F S2x10240x768 .f32) : FVec F S10240x1x768 .f32 :=
  shapeCast S10240x1x768 (shapeCast S10240x768 (extractStridedSlice S1x10240x768 ![0, 0, 0] T Facts₀.slices_S2x10240x768_S1x10240x768_0_0_0)
    Facts₀.shapeCasts_S1x10240x768_S10240x768) Facts₀.shapeCasts_S10240x768_S10240x1x768
def tableRows1 (T : FVec F S2x10240x768 .f32) : FVec F S10240x1x768 .f32 :=
  shapeCast S10240x1x768 (shapeCast S10240x768 (extractStridedSlice S1x10240x768 ![1, 0, 0] T Facts₀.slices_S2x10240x768_S1x10240x768_1_0_0)
    Facts₀.shapeCasts_S1x10240x768_S10240x768) Facts₀.shapeCasts_S10240x768_S10240x1x768

theorem gatherIn_t0_of (W : Valuation τ sig (Elt F)) :
    after hostOps1_2 (after hostOps1_1 (after hostOps1 W)) (Proc.devRef .tc main_v23) = tableRows0 (W (Proc.devRef .tc main_arg2)) := by
  dsimp only [hostOps1, hostOps1_1, hostOps1_2]
  after_results
  rfl
theorem gatherIn_t1_of (W : Valuation τ sig (Elt F)) :
    after hostOps1_2 (after hostOps1_1 (after hostOps1 W)) (Proc.devRef .tc main_v26) = tableRows1 (W (Proc.devRef .tc main_arg2)) := by
  dsimp only [hostOps1, hostOps1_1, hostOps1_2]
  after_results
  rfl

/-- The projection's result as a function on [image, patch, feature]. -/
abbrev hiddenOf (c : Dev nD) : S16x1024x768.Idx → Elt F .f32 := (projDat (eProj m) c).arrAt 2 cfg0.N

theorem gatherIn_hidden (c : Dev nD) :
    memGatherIn m c (Proc.devRef .tc main_v20) = shapeCast S16384x1x768 (hiddenOf m c) Facts₀.shapeCasts_S16x1024x768_S16384x1x768 :=
  (gatherIn_hidden_of (memProjOut m c)).trans
    (congrArg (fun v : S16x1024x768.Idx → Elt F .f32 => shapeCast S16384x1x768 v Facts₀.shapeCasts_S16x1024x768_S16384x1x768) (memProjOut_arr m c 2))
theorem gatherIn_t0 (c : Dev nD) : memGatherIn m c (Proc.devRef .tc main_v23) = tableRows0 (m ((c : Thread nD τ).loc main_arg2)) :=
  (gatherIn_t0_of (memProjOut m c)).trans (congrArg tableRows0 (memProjOut_keeps m c main_arg2 (by decide) (by decide)))
theorem gatherIn_t1 (c : Dev nD) : memGatherIn m c (Proc.devRef .tc main_v26) = tableRows1 (m ((c : Thread nD τ).loc main_arg2)) :=
  (gatherIn_t1_of (memProjOut m c)).trans (congrArg tableRows1 (memProjOut_keeps m c main_arg2 (by decide) (by decide)))

variable (hO : TabsOk m)

/-- The gather's result rows. -/
abbrev rowsOf (c : Dev nD) : S16384x1x768.Idx → Elt F .f32 := (gatherDat (eGather m) (a1 m hO) c).arrAt 3 (cfg1 (a1 m hO)).N

theorem end_result (c : Dev nD) :
    memEnd m hO c (Proc.devRef .tc main_v28) = shapeCast S16x1024x768 (rowsOf m hO c) Facts₀.shapeCasts_S16384x1x768_S16x1024x768 := by
  dsimp only [memEnd, hostOps2]
  after_results
  exact congrArg (fun v : S16384x1x768.Idx → Elt F .f32 => shapeCast S16x1024x768 v Facts₀.shapeCasts_S16384x1x768_S16x1024x768) (memGatherOut_arr m hO c 3)

end Cert.KernelIdeal.Embed

end
-- ==== Proof.Layout.lean ====
/-
  The re-layings on the value's path, read at explicit coordinates. Patch (b, n) is row b * 1024 + n of the
  16384 rows; a table word for that row is the clipped coordinate of patch (b, n); a position table's row r is
  row r of its half of the [2, 10240, 768] table; the transposed weight at (k, d) is the weight at (d, k).
-/
import proofs.«431244_j39298950758871_1_alg».proof.Proof.FoldValue
import Idealize.ShloMosaic.Lib.Pipeline.Value
import Idealize.ShloMosaic.Lib.ValueIdx

set_option maxRecDepth 16384

noncomputable section

namespace Cert.KernelIdeal.Embed

open Cert.KernelIdeal Cert.KernelIdeal.Gen
open Idealize.ShloMosaic Idealize.ShloMosaic.TcCoe Idealize.SL.Sem

variable {α : Type}

/-- The row of patch (b, n). -/
def rowNo (b : Fin 16) (n : Fin 1024) : Fin 16384 := ⟨b.val * 1024 + n.val, by omega⟩

/-- Rows re-laid as [image, patch, feature]: entry (b, n, d) is row (b, n) at d. -/
theorem rows_as_grid (v : S16384x1x768.Idx → α) (b : Fin 16) (n : Fin 1024) (d : Fin 768) :
    shapeCast S16x1024x768 v Facts₀.shapeCasts_S16384x1x768_S16x1024x768 (ValueIdx.ix3 b n d) = v (ValueIdx.ix3 (rowNo b n) (0 : Fin 1) d) :=
  shapeCast_apply v _ _ _ (by
    rw [Shape.rowMajor_val_three, Shape.rowMajor_val_three]
    show ((b.val * 1024 + n.val) * 1 + 0) * 768 + d.val = (b.val * 1024 + n.val) * 768 + d.val
    omega)

/-- [image, patch, feature] re-laid as rows: row (b, n) at d is entry (b, n, d). -/
theorem grid_as_rows (v : S16x1024x768.Idx → α) (b : Fin 16) (n : Fin 1024) (d : Fin 768) :
    shapeCast S16384x1x768 v Facts₀.shapeCasts_S16x1024x768_S16384x1x768 (ValueIdx.ix3 (rowNo b n) (0 : Fin 1) d) = v (ValueIdx.ix3 b n d) :=
  shapeCast_apply v _ _ _ (by
    rw [Shape.rowMajor_val_three, Shape.rowMajor_val_three]
    show (b.val * 1024 + n.val) * 768 + d.val = ((b.val * 1024 + n.val) * 1 + 0) * 768 + d.val
    omega)

/-- The x table at row (b, n) is the x coordinate of patch (b, n) clipped below at zero; the y table likewise. -/
theorem coordTable0_at (ids : IVec S16x1024x2 32) (b : Fin 16) (n : Fin 1024) :
    coordTable0 ids (ValueIdx.ix1 (rowNo b n)) = IntOp.maxsi (0#32) (ids (ValueIdx.ix3 b n (0 : Fin 2))) := by
  unfold coordTable0
  refine (shapeCast_apply _ _ (ValueIdx.ix1 (rowNo b n)) (ValueIdx.ix2 b n) (by
    rw [Shape.rowMajor_val_two, Shape.rowMajor_val_one]; rfl)).trans ?_
  refine (shapeCast_apply _ _ (ValueIdx.ix2 b n) (ValueIdx.ix3 b n (0 : Fin 1)) (by
    rw [Shape.rowMajor_val_three, Shape.rowMajor_val_two]
    show (b.val * 1024 + n.val) * 1 + 0 = b.val * 1024 + n.val
    omega)).trans ?_
  refine (extractStridedSlice_apply _ _ _ (ValueIdx.ix3 b n (0 : Fin 1)) (ValueIdx.ix3 b n (0 : Fin 2)) (fun a => match a with
    | ⟨0, _⟩ => (Nat.zero_add _).symm
    | ⟨1, _⟩ => (Nat.zero_add _).symm
    | ⟨2, _⟩ => rfl)).trans ?_
  rfl
theorem coordTable1_at (ids : IVec S16x1024x2 32) (b : Fin 16) (n : Fin 1024) :
    coordTable1 ids (ValueIdx.ix1 (rowNo b n)) = IntOp.maxsi (0#32) (ids (ValueIdx.ix3 b n (1 : Fin 2))) := by
  unfold coordTable1
  refine (shapeCast_apply _ _ (ValueIdx.ix1 (rowNo b n)) (ValueIdx.ix2 b n) (by
    rw [Shape.rowMajor_val_two, Shape.rowMajor_val_one]; rfl)).trans ?_
  refine (shapeCast_apply _ _ (ValueIdx.ix2 b n) (ValueIdx.ix3 b n (0 : Fin 1)) (by
    rw [Shape.rowMajor_val_three, Shape.rowMajor_val_two]
    show (b.val * 1024 + n.val) * 1 + 0 = b.val * 1024 + n.val
    omega)).trans ?_
  refine (extractStridedSlice_apply _ _ _ (ValueIdx.ix3 b n (0 : Fin 1)) (ValueIdx.ix3 b n (1 : Fin 2)) (fun a => match a with
    | ⟨0, _⟩ => (Nat.zero_add _).symm
    | ⟨1, _⟩ => (Nat.zero_add _).symm
    | ⟨2, _⟩ => rfl)).trans ?_
  rfl

/-- The padding table at row (b, n) is the flag of patch (b, n), widened. -/
theorem padTable_at (pad : IVec S16x1024 1) (b : Fin 16) (n : Fin 1024) :
    padTable pad (ValueIdx.ix1 (rowNo b n)) = (pad (ValueIdx.ix2 b n)).setWidth 32 := by
  unfold padTable
  refine (ValueIdx.extui_apply _ _ _).trans ?_
  exact congrArg (BitVec.setWidth 32) (shapeCast_apply _ _ (ValueIdx.ix1 (rowNo b n)) (ValueIdx.ix2 b n) (by
    rw [Shape.rowMajor_val_two, Shape.rowMajor_val_one]; rfl))

/-- Row r of half 0 (half 1) of the position table. -/
theorem tableRows0_at (T : S2x10240x768.Idx → α) (r : Fin 10240) (d : Fin 768) :
    shapeCast S10240x1x768 (shapeCast S10240x768 (extractStridedSlice S1x10240x768 ![0, 0, 0] T Facts₀.slices_S2x10240x768_S1x10240x768_0_0_0)
      Facts₀.shapeCasts_S1x10240x768_S10240x768) Facts₀.shapeCasts_S10240x768_S10240x1x768 (ValueIdx.ix3 r (0 : Fin 1) d)
      = T (ValueIdx.ix3 (0 : Fin 2) r d) := by
  refine (shapeCast_apply _ _ (ValueIdx.ix3 r (0 : Fin 1) d) (ValueIdx.ix2 r d) (by
    rw [Shape.rowMajor_val_three, Shape.rowMajor_val_two]
    show r.val * 768 + d.val = (r.val * 1 + 0) * 768 + d.val
    omega)).trans ?_
  refine (shapeCast_apply _ _ (ValueIdx.ix2 r d) (ValueIdx.ix3 (0 : Fin 1) r d) (by
    rw [Shape.rowMajor_val_three, Shape.rowMajor_val_two]
    show (0 * 10240 + r.val) * 768 + d.val = r.val * 768 + d.val
    omega)).trans ?_
  exact extractStridedSlice_apply _ _ _ (ValueIdx.ix3 (0 : Fin 1) r d) (ValueIdx.ix3 (0 : Fin 2) r d) (fun a => match a with
    | ⟨0, _⟩ => rfl
    | ⟨1, _⟩ => (Nat.zero_add _).symm
    | ⟨2, _⟩ => (Nat.zero_add _).symm)
theorem tableRows1_at (T : S2x10240x768.Idx → α) (r : Fin 10240) (d : Fin 768) :
    shapeCast S10240x1x768 (shapeCast S10240x768 (extractStridedSlice S1x10240x768 ![1, 0, 0] T Facts₀.slices_S2x10240x768_S1x10240x768_1_0_0)
      Facts₀.shapeCasts_S1x10240x768_S10240x768) Facts₀.shapeCasts_S10240x768_S10240x1x768 (ValueIdx.ix3 r (0 : Fin 1) d)
      = T (ValueIdx.ix3 (1 : Fin 2) r d) := by
  refine (shapeCast_apply _ _ (ValueIdx.ix3 r (0 : Fin 1) d) (ValueIdx.ix2 r d) (by
    rw [Shape.rowMajor_val_three, Shape.rowMajor_val_two]
    show r.val * 768 + d.val = (r.val * 1 + 0) * 768 + d.val
    omega)).trans ?_
  refine (shapeCast_apply _ _ (ValueIdx.ix2 r d) (ValueIdx.ix3 (0 : Fin 1) r d) (by
    rw [Shape.rowMajor_val_three, Shape.rowMajor_val_two]
    show (0 * 10240 + r.val) * 768 + d.val = r.val * 768 + d.val
    omega)).trans ?_
  exact extractStridedSlice_apply _ _ _ (ValueIdx.ix3 (0 : Fin 1) r d) (ValueIdx.ix3 (1 : Fin 2) r d) (fun a => match a with
    | ⟨0, _⟩ => rfl
    | ⟨1, _⟩ => (Nat.zero_add _).symm
    | ⟨2, _⟩ => (Nat.zero_add _).symm)

/-- The transposed weight at (k, d) is the weight at (d, k). -/
theorem weightT_at (w : S768x768.Idx → α) (k d : Fin 768) :
    transpose S768x768 [1, 0] w Facts₀.transposes_S768x768_S768x768_1_0 (ValueIdx.ix2 k d) = w (ValueIdx.ix2 d k) :=
  transpose_apply [1, 0] w Facts₀.transposes_S768x768_S768x768_1_0 (ValueIdx.ix2 k d) (ValueIdx.ix2 d k) (fun b => match b with
    | ⟨0, _⟩ => rfl
    | ⟨1, _⟩ => rfl)

end Cert.KernelIdeal.Embed

end
-- ==== Proof.ValueNames.lean ====
/-
  Names, with their literal types at the ideal instance, for the arrays the two value statements speak of: the
  projection's inputs and result, the gather's inputs, tables and result. (A buffer's contents type is a function
  type only after unfolding; arithmetic on entries wants the literal one.)
-/
import proofs.«431244_j39298950758871_1_alg».proof.Proof.ProjRegion
import proofs.«431244_j39298950758871_1_alg».proof.Proof.GatherRegion
import Idealize.ShloMosaic.PureOps.Ideal
import Idealize.ShloMosaic.Lib.ValueIdx

set_option maxRecDepth 16384

noncomputable section

namespace Cert.KernelIdeal.Embed

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The rounded patch array and the rounded transposed weight as the projection finds them. -/
abbrev patchIn (c : Dev nD) : S16x1024x768.Idx → EReal := V c main_v7
abbrev weightIn (c : Dev nD) : S768x768.Idx → EReal := V c main_v9
/-- The hidden array as the projection leaves it. -/
abbrev projResult (c : Dev nD) : S16x1024x768.Idx → EReal := (projDat (F := Ideal) V c).arrAt 2 cfg0.N

/-- The hidden rows and the two position tables' rows as the gather finds them. -/
abbrev hiddenRows (c : Dev nD) : S16384x1x768.Idx → EReal := V c main_v20
abbrev tab0Rows (c : Dev nD) : S10240x1x768.Idx → EReal := V c main_v23
abbrev tab1Rows (c : Dev nD) : S10240x1x768.Idx → EReal := V c main_v26

variable (a1 : (pcfg1 (F := Ideal)).Adm)

/-- The three prefetched tables: x coordinates, y coordinates, padding flags, one word per row. -/
abbrev xsOf : S16384.Idx → BitVec 32 := a1.1 0
abbrev ysOf : S16384.Idx → BitVec 32 := a1.1 1
abbrev padOf : S16384.Idx → BitVec 32 := a1.1 2
/-- The result rows as the gather leaves them. -/
abbrev gatherResult (c : Dev nD) : S16384x1x768.Idx → EReal := (gatherDat (F := Ideal) V a1 c).arrAt 3 (cfg1 a1).N

end Cert.KernelIdeal.Embed

end
-- ==== Proof.KernelValue.lean ====
/-
  The idealized program's result array is the specification. Entry (b, n, d) of the result is row b * 1024 + n of
  the gather's rows at feature d, which the gather region's value fact gives as the hidden row plus the masked
  sum of two table rows. The hidden row is the projection's result at (b, n, d): by the projection region's value
  fact the sum over k of the rounded patches at (b, n, k) times the rounded transposed weight at (k, d) — at the
  ideal instance rounding is the identity and the transposed weight at (k, d) is the weight at (d, k). The
  padding word of the row is the widened flag of patch (b, n), not zero exactly when the flag is set. The x and
  y words of the row are the patch's coordinates clipped below at zero, which under "every id below 10240" are
  the specification's row numbers. The two value facts are hypotheses here; the regions' modules prove them.
-/
import proofs.«431244_j39298950758871_1_alg».proof.Proof.Layout
import proofs.«431244_j39298950758871_1_alg».proof.Proof.ValueNames
import proofs.«431244_j39298950758871_1_alg».proof.Proof.Spec
import Idealize.ShloMosaic.Lib.ValueIdx
import Idealize.ShloMosaic.PureOps.Ideal

set_option maxRecDepth 16384

noncomputable section

namespace Cert.KernelIdeal.Embed

open Cert.KernelIdeal Cert.KernelIdeal.Gen
open Idealize.ShloMosaic Idealize.ShloMosaic.TcCoe Idealize.SL.Sem

variable (m : (ℓ : Loc nD τ sig) → Buf (Elt Ideal) ℓ) (hO : TabsOk m)

/-- The three tables of admissible contents built from `pf` are `pf`'s (stated with `pf` a variable). -/
theorem xsOf_mk (pf : pre1.Contents (Elt Ideal)) (h : ok1 (F := Ideal) pf) : xsOf (⟨pf, h⟩ : (pcfg1 (F := Ideal)).Adm) = (pf 0 : IVec S16384 32) := rfl
theorem ysOf_mk (pf : pre1.Contents (Elt Ideal)) (h : ok1 (F := Ideal) pf) : ysOf (⟨pf, h⟩ : (pcfg1 (F := Ideal)).Adm) = (pf 1 : IVec S16384 32) := rfl
theorem padOf_mk (pf : pre1.Contents (Elt Ideal)) (h : ok1 (F := Ideal) pf) : padOf (⟨pf, h⟩ : (pcfg1 (F := Ideal)).Adm) = (pf 2 : IVec S16384 32) := rfl

theorem ne_zero_of_widened (p : BitVec 1) : IntOp.cmpi .ne (p.setWidth 32) (0#32) = p := by
  rcases BitVec.eq_zero_or_eq_one p with h | h <;> subst h <;> decide

/-- The hidden row of patch (b, n) at feature d is the specification's projected patch. -/
theorem hidden_entry
    (hproj : ∀ (V : (c : Dev nD) → (b : Ref sig .tc) → Buf (Elt Ideal) ((c : Thread nD τ).loc b)) (c : Dev nD) (b : Fin 16) (n : Fin 1024) (d : Fin 768),
      projResult V c (ValueIdx.ix3 b n d) = ∑ k : Fin 768, patchIn V c (ValueIdx.ix3 b n k) * weightIn V c (ValueIdx.ix2 k d))
    (b : Fin 16) (n : Fin 1024) (d : Fin 768) :
    hiddenRows (eGather m) (0 : Dev nD) (ValueIdx.ix3 (rowNo b n) (0 : Fin 1) d)
      = Cert.EmbedSpec.projAt (patchesOf (F := Ideal) (m (((0 : Dev nD) : Thread nD τ).loc main_arg0))) (m (((0 : Dev nD) : Thread nD τ).loc main_arg1)) b n d := by
  refine (congrFun (gatherIn_hidden m 0) (ValueIdx.ix3 (rowNo b n) (0 : Fin 1) d)).trans ?_
  refine (grid_as_rows (hiddenOf m 0) b n d).trans ?_
  refine (hproj (eProj m) 0 b n d).trans ?_
  unfold Cert.EmbedSpec.projAt
  refine Finset.sum_congr rfl fun k _ => ?_
  refine congrArg₂ (· * ·) ?_ ?_
  · exact congrFun (projIn_patches m 0) (ValueIdx.ix3 b n k)
  · exact (congrFun (projIn_weight m 0) (ValueIdx.ix2 k d)).trans (weightT_at _ k d)

/-- The padding word of row (b, n) is not zero exactly when patch (b, n)'s flag is set. -/
theorem pad_bit (b : Fin 16) (n : Fin 1024) :
    IntOp.cmpi .ne (padOf (a1 m hO) (ValueIdx.ix1 (rowNo b n))) (0#32)
      = (m (((0 : Dev nD) : Thread nD τ).loc main_arg4) : IVec S16x1024 1) (ValueIdx.ix2 b n) :=
  have hp0 : (tabsOf m 2 : IVec S16384 32) (ValueIdx.ix1 (rowNo b n)) = ((m (((0 : Dev nD) : Thread nD τ).loc main_arg4) : IVec S16x1024 1) (ValueIdx.ix2 b n)).setWidth 32 :=
    (congrFun (tabsOf_pad m) (ValueIdx.ix1 (rowNo b n))).trans (padTable_at (m (((0 : Dev nD) : Thread nD τ).loc main_arg4) : IVec S16x1024 1) b n)
  have hp : padOf (a1 m hO) (ValueIdx.ix1 (rowNo b n)) = ((m (((0 : Dev nD) : Thread nD τ).loc main_arg4) : IVec S16x1024 1) (ValueIdx.ix2 b n)).setWidth 32 :=
    (congrFun (padOf_mk (tabsOf m) hO) (ValueIdx.ix1 (rowNo b n))).trans hp0
  (congrArg (fun w : BitVec 32 => IntOp.cmpi .ne w (0#32)) hp).trans (ne_zero_of_widened _)

/-- The first table's row the x word of row (b, n) names is the specification's. -/
theorem x_row (hR : ∀ i, IntOp.cmpi .slt ((m (((0 : Dev nD) : Thread nD τ).loc main_arg3) : IVec S16x1024x2 32) i) (10240#32) = 1#1) (b : Fin 16) (n : Fin 1024) (d : Fin 768) :
    tab0Rows (eGather m) (0 : Dev nD) (ValueIdx.ix3 (⟨min (xsOf (a1 m hO) (ValueIdx.ix1 (rowNo b n))).toNat 10239, by omega⟩ : Fin 10240) (0 : Fin 1) d)
      = (m (((0 : Dev nD) : Thread nD τ).loc main_arg2) : S2x10240x768.Idx → EReal)
          (ValueIdx.ix3 (0 : Fin 2) (Cert.EmbedSpec.rowOf ((m (((0 : Dev nD) : Thread nD τ).loc main_arg3) : IVec S16x1024x2 32) (ValueIdx.ix3 b n (0 : Fin 2)))) d) := by
  have hx0 : (tabsOf m 0 : IVec S16384 32) (ValueIdx.ix1 (rowNo b n)) = IntOp.maxsi (0#32) ((m (((0 : Dev nD) : Thread nD τ).loc main_arg3) : IVec S16x1024x2 32) (ValueIdx.ix3 b n (0 : Fin 2))) :=
    (congrFun (tabsOf_x m) (ValueIdx.ix1 (rowNo b n))).trans (coordTable0_at ((m (((0 : Dev nD) : Thread nD τ).loc main_arg3) : IVec S16x1024x2 32)) b n)
  have hx : xsOf (a1 m hO) (ValueIdx.ix1 (rowNo b n)) = IntOp.maxsi (0#32) ((m (((0 : Dev nD) : Thread nD τ).loc main_arg3) : IVec S16x1024x2 32) (ValueIdx.ix3 b n (0 : Fin 2))) :=
    (congrFun (xsOf_mk (tabsOf m) hO) (ValueIdx.ix1 (rowNo b n))).trans hx0
  have hrow : (⟨min (xsOf (a1 m hO) (ValueIdx.ix1 (rowNo b n))).toNat 10239, by omega⟩ : Fin 10240)
      = Cert.EmbedSpec.rowOf ((m (((0 : Dev nD) : Thread nD τ).loc main_arg3) : IVec S16x1024x2 32) (ValueIdx.ix3 b n (0 : Fin 2))) := by
    apply Fin.ext
    show min (xsOf (a1 m hO) (ValueIdx.ix1 (rowNo b n))).toNat 10239 = (Cert.EmbedSpec.rowOf ((m (((0 : Dev nD) : Thread nD τ).loc main_arg3) : IVec S16x1024x2 32) (ValueIdx.ix3 b n (0 : Fin 2)))).val
    have h1 := congrArg BitVec.toNat hx
    have h2 := Cert.EmbedSpec.rowOf_val _ (hR (ValueIdx.ix3 b n (0 : Fin 2)))
    omega
  refine (congrArg (fun rr : Fin 10240 => tab0Rows (eGather m) (0 : Dev nD) (ValueIdx.ix3 rr (0 : Fin 1) d)) hrow).trans ?_
  exact (congrFun (gatherIn_t0 m 0) _).trans (tableRows0_at _ _ d)

/-- The second table's row the y word of row (b, n) names is the specification's. -/
theorem y_row (hR : ∀ i, IntOp.cmpi .slt ((m (((0 : Dev nD) : Thread nD τ).loc main_arg3) : IVec S16x1024x2 32) i) (10240#32) = 1#1) (b : Fin 16) (n : Fin 1024) (d : Fin 768) :
    tab1Rows (eGather m) (0 : Dev nD) (ValueIdx.ix3 (⟨min (ysOf (a1 m hO) (ValueIdx.ix1 (rowNo b n))).toNat 10239, by omega⟩ : Fin 10240) (0 : Fin 1) d)
      = (m (((0 : Dev nD) : Thread nD τ).loc main_arg2) : S2x10240x768.Idx → EReal)
          (ValueIdx.ix3 (1 : Fin 2) (Cert.EmbedSpec.rowOf ((m (((0 : Dev nD) : Thread nD τ).loc main_arg3) : IVec S16x1024x2 32) (ValueIdx.ix3 b n (1 : Fin 2)))) d) := by
  have hy0 : (tabsOf m 1 : IVec S16384 32) (ValueIdx.ix1 (rowNo b n)) = IntOp.maxsi (0#32) ((m (((0 : Dev nD) : Thread nD τ).loc main_arg3) : IVec S16x1024x2 32) (ValueIdx.ix3 b n (1 : Fin 2))) :=
    (congrFun (tabsOf_y m) (ValueIdx.ix1 (rowNo b n))).trans (coordTable1_at ((m (((0 : Dev nD) : Thread nD τ).loc main_arg3) : IVec S16x1024x2 32)) b n)
  have hy : ysOf (a1 m hO) (ValueIdx.ix1 (rowNo b n)) = IntOp.maxsi (0#32) ((m (((0 : Dev nD) : Thread nD τ).loc main_arg3) : IVec S16x1024x2 32) (ValueIdx.ix3 b n (1 : Fin 2))) :=
    (congrFun (ysOf_mk (tabsOf m) hO) (ValueIdx.ix1 (rowNo b n))).trans hy0
  have hrow : (⟨min (ysOf (a1 m hO) (ValueIdx.ix1 (rowNo b n))).toNat 10239, by omega⟩ : Fin 10240)
      = Cert.EmbedSpec.rowOf ((m (((0 : Dev nD) : Thread nD τ).loc main_arg3) : IVec S16x1024x2 32) (ValueIdx.ix3 b n (1 : Fin 2))) := by
    apply Fin.ext
    show min (ysOf (a1 m hO) (ValueIdx.ix1 (rowNo b n))).toNat 10239 = (Cert.EmbedSpec.rowOf ((m (((0 : Dev nD) : Thread nD τ).loc main_arg3) : IVec S16x1024x2 32) (ValueIdx.ix3 b n (1 : Fin 2)))).val
    have h1 := congrArg BitVec.toNat hy
    have h2 := Cert.EmbedSpec.rowOf_val _ (hR (ValueIdx.ix3 b n (1 : Fin 2)))
    omega
  refine (congrArg (fun rr : Fin 10240 => tab1Rows (eGather m) (0 : Dev nD) (ValueIdx.ix3 rr (0 : Fin 1) d)) hrow).trans ?_
  exact (congrFun (gatherIn_t1 m 0) _).trans (tableRows1_at _ _ d)

theorem kernel_embed
    (hproj : ∀ (V : (c : Dev nD) → (b : Ref sig .tc) → Buf (Elt Ideal) ((c : Thread nD τ).loc b)) (c : Dev nD) (b : Fin 16) (n : Fin 1024) (d : Fin 768),
      projResult V c (ValueIdx.ix3 b n d) = ∑ k : Fin 768, patchIn V c (ValueIdx.ix3 b n k) * weightIn V c (ValueIdx.ix2 k d))
    (hgather : ∀ (V : (c : Dev nD) → (b : Ref sig .tc) → Buf (Elt Ideal) ((c : Thread nD τ).loc b)) (a1 : (pcfg1 (F := Ideal)).Adm) (c : Dev nD) (r : Fin 16384) (d : Fin 768),
      gatherResult V a1 c (ValueIdx.ix3 r (0 : Fin 1) d)
        = hiddenRows V c (ValueIdx.ix3 r (0 : Fin 1) d)
          + Scalar.select (IntOp.cmpi .ne (padOf a1 (ValueIdx.ix1 r)) (0#32)) (Ideal.ofBits .f32 0x00000000#32)
              (tab0Rows V c (ValueIdx.ix3 (⟨min (xsOf a1 (ValueIdx.ix1 r)).toNat 10239, by omega⟩ : Fin 10240) (0 : Fin 1) d)
                + tab1Rows V c (ValueIdx.ix3 (⟨min (ysOf a1 (ValueIdx.ix1 r)).toNat 10239, by omega⟩ : Fin 10240) (0 : Fin 1) d)))
    (hR : ∀ i, IntOp.cmpi .slt ((m (((0 : Dev nD) : Thread nD τ).loc main_arg3) : IVec S16x1024x2 32) i) (10240#32) = 1#1)
    (c : Dev nD) :
    (memEnd m hO c (Proc.devRef .tc main_v28) : S16x1024x768.Idx → EReal)
      = Cert.EmbedSpec.embed (patchesOf (F := Ideal) (m ((c : Thread nD τ).loc main_arg0))) (m ((c : Thread nD τ).loc main_arg1))
          (m ((c : Thread nD τ).loc main_arg2)) (m ((c : Thread nD τ).loc main_arg3)) (m ((c : Thread nD τ).loc main_arg4)) := by
  obtain rfl : c = 0 := Subsingleton.elim _ _
  funext i
  obtain ⟨b, n, d, rfl⟩ : ∃ (b : Fin 16) (n : Fin 1024) (d : Fin 768), i = ValueIdx.ix3 b n d := ⟨i 0, i 1, i 2, ValueIdx.eq_ix3 i⟩
  refine (congrFun (end_result m hO 0) (ValueIdx.ix3 b n d)).trans ?_
  refine (rows_as_grid (rowsOf m hO 0) b n d).trans ?_
  refine (hgather (eGather m) (a1 m hO) 0 (rowNo b n) d).trans ?_
  refine congrArg₂ (· + ·) (hidden_entry m hproj b n d) ?_
  refine congrArg₂ (fun (s : BitVec 1) (v : EReal) => Scalar.select s (Ideal.ofBits .f32 0x00000000#32) v) (pad_bit m hO b n) ?_
  exact congrArg₂ (· + ·) (x_row m hO hR b n d) (y_row m hO hR b n d)

end Cert.KernelIdeal.Embed

end
-- ==== Proof.ProjValue.lean ====
/-
  The value of the projection region. Point t of its 16-point grid stages image t's [1, 1024, 768] block of the
  patch array and the whole [768, 768] transposed weight, and stores the block product: with the unit leading axis
  dropped, entry (n, d) of a [1024, 768] by [768, 768] product into a zero accumulator, which on the extended reals
  is the plain sum over the 768 features k of patch (n, k) times weight (k, d). Entry (0, n, d) of point t's block
  sits at (t, n, d) of the hidden array, the patch block's (0, n, k) at (t, n, k) of the patch array, and the weight
  block is the weight; the 16 blocks tile the hidden array (index (b, n, d) lies in point b's), so after the region
  the hidden array is, index by index, that sum.
-/
import proofs.«431244_j39298950758871_1_alg».proof.Proof.ValueNames
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Embed

open Cert.KernelIdeal Cert.KernelIdeal.Gen
open Idealize.ShloMosaic Idealize.ShloMosaic.TcCoe Idealize.SL.Sem
open Idealize.ShloMosaic.Pipeline (Dat Cfg Window)

/-! ## The product's operand indices

  The block product contracts the patch block's feature axis (its axis 1) against the weight's first axis: at result
  entry (n, d) and contraction position q the patch operand is read at (n, q) and the weight operand at (q, d). -/

/-- The patch operand keeps the result's row. -/
theorem patchOperand_row (i : S1024x768.Idx) (q : dot_S1024x768_S768x768_S1024x768_1_0_0_1_n_n.contr.Idx) :
    (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
/-- The patch operand's feature is the contraction position. -/
theorem patchOperand_feature (i : S1024x768.Idx) (q : dot_S1024x768_S768x768_S1024x768_1_0_0_1_n_n.contr.Idx) :
    (dot_S1024x768_S768x768_S1024x768_1_0_0_1_n_n.lhsIdx i q 1).val = (q ⟨0, by decide⟩).val :=
  dot_S1024x768_S768x768_S1024x768_1_0_0_1_n_n.lhsIdx_val_of_single rfl i q
/-- The weight operand's first coordinate is the contraction position. -/
theorem weightOperand_feature (i : S1024x768.Idx) (q : dot_S1024x768_S768x768_S1024x768_1_0_0_1_n_n.contr.Idx) :
    (dot_S1024x768_S768x768_S1024x768_1_0_0_1_n_n.rhsIdx i q 0).val = (q ⟨0, by decide⟩).val :=
  dot_S1024x768_S768x768_S1024x768_1_0_0_1_n_n.rhsIdx_val_of_single rfl i q
/-- The weight operand keeps the result's column. -/
theorem weightOperand_column (i : S1024x768.Idx) (q : dot_S1024x768_S768x768_S1024x768_1_0_0_1_n_n.contr.Idx) :
    (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- Into a zero accumulator, entry (n, d) of the block product is the sum over the 768 features k of the patch
    block at (n, k) times the weight at (k, d). -/
theorem product_entry (x : FVec Ideal S1024x768 .bf16) (wt : FVec Ideal S768x768 .bf16) (n : Fin 1024) (d : Fin 768) :
    matmul dot_S1024x768_S768x768_S1024x768_1_0_0_1_n_n none x wt (constant (F := Ideal) S1024x768 .f32 0x00000000#32) (ValueIdx.ix2 n d)
      = ∑ k : Fin 768, x (ValueIdx.ix2 n k) * wt (ValueIdx.ix2 k d) := by
  simp only [matmul]
  rw [Ideal.matmul_constant_zero_apply, ← Equiv.sum_comp (ValueIdx.contrEquiv1 dot_S1024x768_S768x768_S1024x768_1_0_0_1_n_n 768 rfl rfl).symm]
  refine Finset.sum_congr rfl fun k _ => ?_
  have hk := ValueIdx.contrEquiv1_symm_val dot_S1024x768_S768x768_S1024x768_1_0_0_1_n_n 768 rfl rfl k
  have el : dot_S1024x768_S768x768_S1024x768_1_0_0_1_n_n.lhsIdx (ValueIdx.ix2 n d) ((ValueIdx.contrEquiv1 dot_S1024x768_S768x768_S1024x768_1_0_0_1_n_n 768 rfl rfl).symm k) = ValueIdx.ix2 n k := funext fun a => Fin.ext (by
    match a with
    | ⟨0, _⟩ => exact patchOperand_row _ _
    | ⟨1, _⟩ => exact (patchOperand_feature _ _).trans hk)
  have er : dot_S1024x768_S768x768_S1024x768_1_0_0_1_n_n.rhsIdx (ValueIdx.ix2 n d) ((ValueIdx.contrEquiv1 dot_S1024x768_S768x768_S1024x768_1_0_0_1_n_n 768 rfl rfl).symm k) = ValueIdx.ix2 k d := funext fun a => Fin.ext (by
    match a with
    | ⟨0, _⟩ => exact (weightOperand_feature _ _).trans hk
    | ⟨1, _⟩ => exact weightOperand_column _ _)
  rw [el, er]

/-- The body's stored value at (0, n, d) of its [1, 1024, 768] block: the unit leading axis dropped from the patch
    block, the product taken, the unit axis put back. -/
theorem projPayload_entry (x : Vec Ideal S1x1024x768 .bf16) (wt : Vec Ideal S768x768 .bf16) (n : Fin 1024) (d : Fin 768) :
    k0_pay1 (F := Ideal) x wt (ValueIdx.ix3 (0 : Fin 1) n d)
      = ∑ k : Fin 768, x (ValueIdx.ix3 (0 : Fin 1) n k) * wt (ValueIdx.ix2 k d) := by
  unfold k0_pay1
  refine (shapeCast_apply _ shapeCasts_S1024x768_S1x1024x768 (ValueIdx.ix3 (0 : Fin 1) n d) (ValueIdx.ix2 n d) ?_).trans ?_
  · rw [Shape.rowMajor_val_two, Shape.rowMajor_val_three]
    show n.val * 768 + d.val = (0 * 1024 + n.val) * 768 + d.val
    omega
  refine (product_entry _ _ n d).trans ?_
  refine Finset.sum_congr rfl fun k _ => ?_
  have e1 : shapeCast S1024x768 x shapeCasts_S1x1024x768_S1024x768 (ValueIdx.ix2 n k) = x (ValueIdx.ix3 (0 : Fin 1) n k) :=
    shapeCast_apply x shapeCasts_S1x1024x768_S1024x768 (ValueIdx.ix2 n k) (ValueIdx.ix3 (0 : Fin 1) n k) (by
      rw [Shape.rowMajor_val_two, Shape.rowMajor_val_three]
      show (0 * 1024 + n.val) * 768 + k.val = n.val * 768 + k.val
      omega)
  have e2 : shapeCast S768x768 wt shapeCasts_S768x768_S768x768 (ValueIdx.ix2 k d) = wt (ValueIdx.ix2 k d) :=
    congrFun (shapeCast_self wt shapeCasts_S768x768_S768x768) _
  rw [e1, e2]

/-! ## From the blocks to the array -/

theorem zeros3 : (![0, 0, 0] : Fin 3 → Nat) = fun _ => 0 := funext fun a => by fin_cases a <;> rfl
theorem zeros2 : (![0, 0] : Fin 2 → Nat) = fun _ => 0 := funext fun a => by fin_cases a <;> rfl

variable (V : (c : Dev nD) → (b : Ref sig .tc) → Buf (Elt Ideal) ((c : Thread nD τ).loc b))

/-- Entry (b, n, d) of the hidden array: patch (b, n) against column d of the transposed weight. -/
def hiddenAt (c : Dev nD) (b : Fin 16) (n : Fin 1024) (d : Fin 768) : EReal :=
  ∑ k : Fin 768, patchIn V c (ValueIdx.ix3 b n k) * weightIn V c (ValueIdx.ix2 k d)

/-- The hidden array, index by index. -/
def hidden (c : Dev nD) : S16x1024x768.Idx → EReal := fun i => hiddenAt V c (i 0) (i 1) (i 2)

/-- The block indices over the 16 points: point t stages image t's block of the patches and of the result, and
    the one block of the weight. -/
theorem projIndex : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Image t's patch block at (0, n, k) is the patch array at (t, n, k). -/
theorem patchBlock_entry (c : Dev nD) (t : Fin cfg0.N) (tb : Fin 16) (ht : tb.val = t.val) (n : Fin 1024) (k : Fin 768) :
    (projBlk (F := Ideal) V c 0 t : S1x1024x768.Idx → EReal) (ValueIdx.ix3 (0 : Fin 1) n k) = patchIn V c (ValueIdx.ix3 tb n k) := by
  obtain ⟨e0, e1, e2, -⟩ := projIndex t
  show patchIn V c (((cfg0.win 0).blk t).view.emb (ValueIdx.ix3 (0 : Fin 1) n k)) = patchIn V c (ValueIdx.ix3 tb n k)
  refine congrArg (patchIn V c) (funext fun a => Fin.ext ?_)
  match a with
  | ⟨0, _⟩ => show win0_0.index t (0 : Fin 3) * 1 + 1 * 0 = tb.val; omega
  | ⟨1, _⟩ => show win0_0.index t (1 : Fin 3) * 1024 + 1 * n.val = n.val; omega
  | ⟨2, _⟩ => show win0_0.index t (2 : Fin 3) * 768 + 1 * k.val = k.val; omega

/-- The weight block is the weight. -/
theorem weightBlock_entry (c : Dev nD) (t : Fin cfg0.N) (k : Fin 768) (d : Fin 768) :
    (projBlk (F := Ideal) V c 1 t : S768x768.Idx → EReal) (ValueIdx.ix2 k d) = weightIn V c (ValueIdx.ix2 k d) := by
  obtain ⟨-, -, -, e0, e1, -⟩ := projIndex t
  show weightIn V c (((cfg0.win 1).blk t).view.emb (ValueIdx.ix2 k d)) = weightIn V c (ValueIdx.ix2 k d)
  refine congrArg (weightIn V c) (funext fun a => Fin.ext ?_)
  match a with
  | ⟨0, _⟩ => show win0_1.index t (0 : Fin 2) * 768 + 1 * k.val = k.val; omega
  | ⟨1, _⟩ => show win0_1.index t (1 : Fin 2) * 768 + 1 * d.val = d.val; omega

/-- The body's stored value at any index y of its block whose last two coordinates are n and d. -/
theorem projPayload_at (x : Vec Ideal S1x1024x768 .bf16) (wt : Vec Ideal S768x768 .bf16) (y : S1x1024x768.Idx) (n : Fin 1024) (d : Fin 768)
    (hn : (y 1).val = n.val) (hd : (y 2).val = d.val) :
    k0_pay1 (F := Ideal) x wt y = ∑ k : Fin 768, x (ValueIdx.ix3 (0 : Fin 1) n k) * wt (ValueIdx.ix2 k d) := by
  have e : y = ValueIdx.ix3 (0 : Fin 1) n d := funext fun a => Fin.ext (by
    match a with
    | ⟨0, _⟩ => show (y 0).val = 0; have : (y 0).val < 1 := (y 0).isLt; omega
    | ⟨1, _⟩ => exact hn
    | ⟨2, _⟩ => exact hd)
  rw [e]; exact projPayload_entry x wt n d

/-- The hidden array at an index whose coordinates are b, n, d. -/
theorem hidden_at (c : Dev nD) (i : S16x1024x768.Idx) (b : Fin 16) (n : Fin 1024) (d : Fin 768)
    (h0 : (i 0).val = b.val) (h1 : (i 1).val = n.val) (h2 : (i 2).val = d.val) : hidden V c i = hiddenAt V c b n d := by
  have e : i = ValueIdx.ix3 b n d := funext fun a => Fin.ext (by
    match a with
    | ⟨0, _⟩ => exact h0
    | ⟨1, _⟩ => exact h1
    | ⟨2, _⟩ => exact h2)
  rw [e]; rfl

/-- What point t writes back is image t's block of the hidden array: entry (0, n, d) of the stored product reads the
    patch block at (0, n, k), which is the patch array at (t, n, k), and the weight at (k, d); the block's entry
    (0, n, d) sits in the array at (t, n, d). -/
theorem proj_flushed (c : Dev nD) (t : Fin cfg0.N) :
    (projDat (F := Ideal) V c).flushed 2 t = ((cfg0.win 2).blk t).view.read (Elt Ideal) (hidden V c) := by
  show (cfg0.win 2).cut (grid0.coords t) ((projDat (F := Ideal) V c).after 2 t) = _
  rw [projDat_after2]
  unfold projOut
  rw [View.canon_unit_zero zeros3]
  simp only [View.ld_unit_zero (S := S1x1024x768) zeros3, View.ld_unit_zero (S := S768x768) zeros2]
  funext j
  obtain ⟨-, -, -, -, -, e0, e1, e2⟩ := projIndex t
  have ht : t.val < 16 := lt_of_lt_of_eq t.isLt N_0
  have hj0 : (j 0).val < 1 := (j 0).isLt
  have hj1 : (j 1).val < 1024 := (j 1).isLt
  have hj2 : (j 2).val < 768 := (j 2).isLt
  refine (projPayload_at (projBlk (F := Ideal) V c 0 t) (projBlk (F := Ideal) V c 1 t) ((cfg0.win 2).xinj (grid0.coords t) j)
    ⟨(j 1).val, hj1⟩ ⟨(j 2).val, hj2⟩ rfl rfl).trans ?_
  refine Eq.trans ?_ (hidden_at V c (((cfg0.win 2).blk t).view.emb j) ⟨t.val, ht⟩ ⟨(j 1).val, hj1⟩ ⟨(j 2).val, hj2⟩ ?_ ?_ ?_).symm
  · unfold hiddenAt
    exact Finset.sum_congr rfl fun k _ =>
      congrArg₂ (· * ·) (patchBlock_entry V c t ⟨t.val, ht⟩ rfl ⟨(j 1).val, hj1⟩ k) (weightBlock_entry V c t k ⟨(j 2).val, hj2⟩)
  · show win0_2.index t (0 : Fin 3) * 1 + 1 * (j 0).val = t.val; omega
  · show win0_2.index t (1 : Fin 3) * 1024 + 1 * (j 1).val = (j 1).val; omega
  · show win0_2.index t (2 : Fin 3) * 768 + 1 * (j 2).val = (j 2).val; omega

/-- An index of the hidden array is in point t's block iff each coordinate is in the block's range on its axis. -/
theorem mem_projBlock (t : Fin cfg0.N) (i : S16x1024x768.Idx) :
    i ∈ ((cfg0.win 2).blk t).view.set ↔ ∀ a : Fin 3, win0_2.index t a * S1x1024x768.size a ≤ (i a).val ∧ (i a).val < win0_2.index t a * S1x1024x768.size a + S1x1024x768.size a := by
  show i ∈ ((View.whole main_v10).slice (win0_2.rect t)).set ↔ _
  rw [View.set_slice_whole, Rect.mem_set_unit]
  exact Iff.rfl

/-- Every index (b, n, d) of the hidden array is in the block of point b. -/
theorem proj_cover (i : S16x1024x768.Idx) : ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 768 := (i 2).isLt
  have hN : (i 0).val < cfg0.N := lt_of_lt_of_eq hi0 N_0.symm
  obtain ⟨-, -, -, -, -, e0, e1, e2⟩ := projIndex ⟨(i 0).val, hN⟩
  refine ⟨⟨(i 0).val, hN⟩, flush0_2 _, ?_⟩
  rw [mem_projBlock]
  intro a
  match a with
  | ⟨0, _⟩ => show win0_2.index ⟨(i 0).val, hN⟩ (0 : Fin 3) * 1 ≤ (i 0).val ∧ (i 0).val < win0_2.index ⟨(i 0).val, hN⟩ (0 : Fin 3) * 1 + 1; rw [e0]; show (i 0).val * 1 ≤ (i 0).val ∧ (i 0).val < (i 0).val * 1 + 1; omega
  | ⟨1, _⟩ => show win0_2.index ⟨(i 0).val, hN⟩ (1 : Fin 3) * 1024 ≤ (i 1).val ∧ (i 1).val < win0_2.index ⟨(i 0).val, hN⟩ (1 : Fin 3) * 1024 + 1024; omega
  | ⟨2, _⟩ => show win0_2.index ⟨(i 0).val, hN⟩ (2 : Fin 3) * 768 ≤ (i 2).val ∧ (i 2).val < win0_2.index ⟨(i 0).val, hN⟩ (2 : Fin 3) * 768 + 768; omega

/-- After the projection region the hidden array holds, at (b, n, d), the sum over the 768 patch features of
    patches[b, n, k] times the transposed weight[k, d]. -/
theorem proj_value (c : Dev nD) (b : Fin 16) (n : Fin 1024) (d : Fin 768) :
    projResult V c (ValueIdx.ix3 b n d) = ∑ k : Fin 768, patchIn V c (ValueIdx.ix3 b n k) * weightIn V c (ValueIdx.ix2 k d) := by
  have h := (projDat (F := Ideal) V c).arrAt_eq_of_cover 2 (hidden V c) (fun t _ => proj_flushed V c t) proj_cover
  show (projDat (F := Ideal) V c).arrAt 2 cfg0.N (ValueIdx.ix3 b n d) = _
  rw [h]
  rfl

end Cert.KernelIdeal.Embed

end
-- ==== Proof.GatherValue.lean ====
/-
  The value of the gather region. Its grid has one point per patch row, 16384 in all. At point t the body finds in its
  staging buffers row t of the hidden rows and the rows xs[t] and ys[t] of the two position tables (the tables' words at
  t name the blocks; an admissible table keeps every named row below 10240, so capping the row at 10239 changes
  nothing), loads the padding word at t from scalar memory, and stores, feature by feature, the hidden entry plus — zero
  when the padding word is not 0, else — the sum of the two table entries. Every fact about the blocks is proved with the
  tables' contents a variable. Point t writes back row t of the result, the rows change from each point to the next so
  every point writes back, and row r lies in point r's block: after the region the result rows are, index by index,
  that value.
-/
import proofs.«431244_j39298950758871_1_alg».proof.Proof.ValueNames
import Idealize.ShloMosaic.Lib.Pipeline.Value
import Idealize.ShloMosaic.Lib.Pipeline.FrameBody
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Embed

open Cert.KernelIdeal Cert.KernelIdeal.Gen
open Idealize.ShloMosaic Idealize.ShloMosaic.TcCoe Idealize.ShloMosaic.Tactic Idealize.SL.Sem
open Idealize.ShloMosaic.Pipeline (Dat Cfg Window)

/-! ## What the body leaves in the output's staging buffer -/

section
variable {F : FTy → Type} [FloatOps F]

theorem zeroOffsets : (![0, 0, 0] : Fin 3 → Nat) = fun _ => 0 := funext fun a => by fin_cases a <;> rfl

/-- The body's one store is of the whole block: the payload of the three loaded rows and of the padding word, which
    is the padding table's word at the grid coordinate. -/
theorem gatherOutOf_eq (c : Dev nD) (i : grid1.Coords)
    (arg4 : Memref sig .tc .vmem S1x1x768 .f32) (harg4 : arg4.IsWhole) (arg5 : Memref sig .tc .vmem S1x1x768 .f32) (harg5 : arg5.IsWhole)
    (arg6 : Memref sig .tc .vmem S1x1x768 .f32) (harg6 : arg6.IsWhole) (arg7 : Memref sig .tc .vmem S1x1x768 .f32) (harg7 : arg7.IsWhole)
    (x0 x1 x2 : Vec F S1x1x768 .f32) (xp : TabBuf (F := F) c tabPad) (r : Fin 16384) (hr : r.val = (i 0).val) :
    gatherOutOf c i arg4 harg4 arg5 harg5 arg6 harg6 arg7 harg7 x0 x1 x2 xp
      = k1_pay1 x1 x2 ((xp : S16384.Idx → BitVec 32) (ValueIdx.ix1 r)) x0 := by
  unfold gatherOutOf
  rw [View.read_writes_eq_canon _ _ _ (gather_cover c i arg4 harg4 arg5 harg5 arg6 harg6 arg7 harg7 x0 x1 x2 xp)]
  unfold gather_run
  dsimp only
  sl_unfold_words
  rw [View.canon_unit_zero zeroOffsets]
  simp only [View.readAt_eq_ld, harg4.read_unread, harg5.read_unread, harg6.read_unread, View.ld_unit_zero (S := S1x1x768) zeroOffsets]
  refine congrArg (fun w => k1_pay1 x1 x2 w x0) ?_
  rw [View.read_whole]
  refine congrArg (xp : S16384.Idx → BitVec 32) (funext fun a => Fin.ext ?_)
  match a with
  | ⟨0, _⟩ =>
    show BitVec.toNat (Scalar.indexCast (BitVec.ofNat 32 (i 0).val)) + 1 * 0 = r.val
    unfold Scalar.indexCast
    rw [BitVec.toNat_ofNat, hr]
    have h16 : (i 0).val < 16384 := (i 0).isLt
    omega
end

/-! ## The body's arithmetic at a feature -/

/-- A select between two rows on one bit, read at a feature, selects between the two entries. -/
theorem select_rows {ι α : Type} (b : BitVec 1) (u v : ι → α) (i : ι) : (Scalar.select b u v) i = Scalar.select b (u i) (v i) := by
  unfold Scalar.select; split <;> rfl

/-- A [1, 1, 768] row viewed flat reads feature d at (0, 0, d). -/
theorem flatRow_entry (x : Vec Ideal S1x1x768 .f32) (d : Fin 768) :
    shapeCast S768 x shapeCasts_S1x1x768_S768 (ValueIdx.ix1 d) = x (ValueIdx.ix3 (0 : Fin 1) (0 : Fin 1) d) :=
  shapeCast_apply x shapeCasts_S1x1x768_S768 (ValueIdx.ix1 d) (ValueIdx.ix3 (0 : Fin 1) (0 : Fin 1) d) (by
    rw [Shape.rowMajor_val_one, Shape.rowMajor_val_three]; show (0 * 1 + 0) * 768 + d.val = d.val; omega)

/-- The stored row at feature d: the hidden row's entry plus — zero when the padding word is not 0, else — the sum of
    the two table rows' entries. -/
theorem gatherPayload_entry (t0 t1 : Vec Ideal S1x1x768 .f32) (w : BitVec 32) (h : Vec Ideal S1x1x768 .f32) (d : Fin 768) :
    k1_pay1 (F := Ideal) t0 t1 w h (ValueIdx.ix3 (0 : Fin 1) (0 : Fin 1) d)
      = h (ValueIdx.ix3 (0 : Fin 1) (0 : Fin 1) d)
        + Scalar.select (IntOp.cmpi .ne w (0#32)) (Ideal.ofBits .f32 0x00000000#32)
            (t0 (ValueIdx.ix3 (0 : Fin 1) (0 : Fin 1) d) + t1 (ValueIdx.ix3 (0 : Fin 1) (0 : Fin 1) d)) := by
  unfold k1_pay1
  refine (shapeCast_apply _ shapeCasts_S768_S1x1x768 (ValueIdx.ix3 (0 : Fin 1) (0 : Fin 1) d) (ValueIdx.ix1 d) (by
    rw [Shape.rowMajor_val_one, Shape.rowMajor_val_three]; show d.val = (0 * 1 + 0) * 768 + d.val; omega)).trans ?_
  show shapeCast S768 h shapeCasts_S1x1x768_S768 (ValueIdx.ix1 d)
      + (Scalar.select (IntOp.cmpi .ne w (0#32)) (broadcast S768 (Ideal.ofBits .f32 0x00000000#32))
          (addf (F := Ideal) (shapeCast S768 t0 shapeCasts_S1x1x768_S768) (shapeCast S768 t1 shapeCasts_S1x1x768_S768))) (ValueIdx.ix1 d) = _
  rw [select_rows, flatRow_entry h]
  show _ + Scalar.select _ _ (shapeCast S768 t0 shapeCasts_S1x1x768_S768 (ValueIdx.ix1 d) + shapeCast S768 t1 shapeCasts_S1x1x768_S768 (ValueIdx.ix1 d)) = _
  rw [flatRow_entry t0, flatRow_entry t1]
  rfl

/-! ## The gather's grid and block indices, at any admissible tables -/

/-- The grid has one axis of 16384 points: point t's coordinate is t. -/
theorem gatherCoord (t : Fin grid1.N) : ((grid1.coords t) 0).val = t.val := by
  have ht : t.val < 16384 := lt_of_lt_of_eq t.isLt N_1
  have hs : grid1.stride (0 : Fin 1) = 1 := by decide
  show t.val / grid1.stride (0 : Fin 1) % 16384 = t.val
  rw [hs]; omega

/-- The one word a table's index map reads at grid coordinates i sits at the table's index (i 0). -/
theorem wordIndex (i : grid1.Coords) (r : Fin 16384) (hr : r.val = (i 0).val) :
    (Rect.unit (s := S16384) (k1_off1 i) S1.size (Facts₀.k1_off1_inb i)).emb (Shape.Idx.first (Facts₀.numel1_S1.symm ▸ Nat.one_pos)) = ValueIdx.ix1 r :=
  funext fun a => Fin.ext (by
    match a with
    | ⟨0, _⟩ =>
      show BitVec.toNat (Scalar.indexCast (BitVec.ofNat 32 (i 0).val)) + 1 * 0 = r.val
      unfold Scalar.indexCast
      rw [BitVec.toNat_ofNat, hr]
      have h16 : (i 0).val < 16384 := (i 0).isLt
      omega)

variable (V : (c : Dev nD) → (b : Ref sig .tc) → Buf (Elt Ideal) ((c : Thread nD τ).loc b))
variable (a1 : (pcfg1 (F := Ideal)).Adm)

theorem gatherPoint_lt (t : Fin (cfg1 a1).N) : t.val < 16384 := lt_of_lt_of_eq t.isLt N_1

/-- The hidden rows' window and the result's window are at row t on the first axis, zero on the others. -/
theorem hiddenIndex (t : Fin (cfg1 a1).N) :
    ((cfg1 a1).win 0).index t (0 : Fin 3) = t.val ∧ ((cfg1 a1).win 0).index t (1 : Fin 3) = 0 ∧ ((cfg1 a1).win 0).index t (2 : Fin 3) = 0 := by
  have ht := gatherPoint_lt a1 t
  refine ⟨?_, rfl, rfl⟩
  show (BitVec.ofNat 32 ((grid1.coords t) 0).val).toNat = t.val
  rw [BitVec.toNat_ofNat, gatherCoord]; omega

theorem resultIndex (t : Fin (cfg1 a1).N) :
    ((cfg1 a1).win 3).index t (0 : Fin 3) = t.val ∧ ((cfg1 a1).win 3).index t (1 : Fin 3) = 0 ∧ ((cfg1 a1).win 3).index t (2 : Fin 3) = 0 := by
  have ht := gatherPoint_lt a1 t
  refine ⟨?_, rfl, rfl⟩
  show (BitVec.ofNat 32 ((grid1.coords t) 0).val).toNat = t.val
  rw [BitVec.toNat_ofNat, gatherCoord]; omega

/-- The first table's window is at the row the x table names at t; the table's admissibility keeps it inside. -/
theorem tab0Index (t : Fin (cfg1 a1).N) (r : Fin 16384) (hr : r.val = t.val) :
    ((cfg1 a1).win 1).index t (0 : Fin 3) = (xsOf a1 (ValueIdx.ix1 r)).toNat ∧ ((cfg1 a1).win 1).index t (1 : Fin 3) = 0
      ∧ ((cfg1 a1).win 1).index t (2 : Fin 3) = 0 ∧ (xsOf a1 (ValueIdx.ix1 r)).toNat < 10240 := by
  have e : ((cfg1 a1).win 1).index t (0 : Fin 3) = (xsOf a1 (ValueIdx.ix1 r)).toNat := by
    show ((a1.1 0 : S16384.Idx → BitVec 32) ((Rect.unit (s := S16384) (k1_off1 (grid1.coords t)) S1.size (Facts₀.k1_off1_inb (grid1.coords t))).emb
      (Shape.Idx.first (Facts₀.numel1_S1.symm ▸ Nat.one_pos)))).toNat = _
    rw [wordIndex (grid1.coords t) r (hr.trans (gatherCoord t).symm)]
  refine ⟨e, rfl, rfl, ?_⟩
  have hin := (a1.2.1 (grid1.coords t)).elim fun h _ => h (0 : Fin 3)
  have hin' : (((cfg1 a1).win 1).index t (0 : Fin 3) + 1) * 1 ≤ 10240 := hin
  rw [e] at hin'; omega

/-- Likewise the second table's window, at the row the y table names. -/
theorem tab1Index (t : Fin (cfg1 a1).N) (r : Fin 16384) (hr : r.val = t.val) :
    ((cfg1 a1).win 2).index t (0 : Fin 3) = (ysOf a1 (ValueIdx.ix1 r)).toNat ∧ ((cfg1 a1).win 2).index t (1 : Fin 3) = 0
      ∧ ((cfg1 a1).win 2).index t (2 : Fin 3) = 0 ∧ (ysOf a1 (ValueIdx.ix1 r)).toNat < 10240 := by
  have e : ((cfg1 a1).win 2).index t (0 : Fin 3) = (ysOf a1 (ValueIdx.ix1 r)).toNat := by
    show ((a1.1 1 : S16384.Idx → BitVec 32) ((Rect.unit (s := S16384) (k1_off1 (grid1.coords t)) S1.size (Facts₀.k1_off1_inb (grid1.coords t))).emb
      (Shape.Idx.first (Facts₀.numel1_S1.symm ▸ Nat.one_pos)))).toNat = _
    rw [wordIndex (grid1.coords t) r (hr.trans (gatherCoord t).symm)]
  refine ⟨e, rfl, rfl, ?_⟩
  have hin := (a1.2.2 (grid1.coords t)).elim fun h _ => h (0 : Fin 3)
  have hin' : (((cfg1 a1).win 2).index t (0 : Fin 3) + 1) * 1 ≤ 10240 := hin
  rw [e] at hin'; omega

/-- The result's window is written back at every point: its row changes from each point to the next. -/
theorem result_flush (t : Fin (cfg1 a1).N) : ((cfg1 a1).win 3).flush t = true := by
  have ht := gatherPoint_lt a1 t
  unfold Window.flush
  rw [Bool.and_eq_true]
  refine ⟨rfl, ?_⟩
  rw [Bool.or_eq_true, decide_eq_true_eq, decide_eq_true_eq]
  by_cases h : t.val + 1 = (cfg1 a1).grid.N
  · exact .inl h
  · have hN : (cfg1 a1).grid.N = 16384 := N_1
    have hlt : t.val + 1 < (cfg1 a1).N := lt_of_lt_of_eq (show t.val + 1 < 16384 by omega) N_1.symm
    refine .inr ⟨hlt, fun e => ?_⟩
    have e0 := congrFun e (0 : Fin 3)
    rw [(resultIndex a1 t).1, (resultIndex a1 ⟨t.val + 1, hlt⟩).1] at e0
    exact absurd e0 (Nat.succ_ne_self t.val)

/-! ## The staged rows -/

/-- Point t's hidden row at feature d is the hidden rows' array at (t, 0, d). -/
theorem hiddenRow_entry (c : Dev nD) (t : Fin (cfg1 a1).N) (r : Fin 16384) (hr : r.val = t.val) (d : Fin 768) :
    (gatherBlk (F := Ideal) V a1 c 0 t : S1x1x768.Idx → EReal) (ValueIdx.ix3 (0 : Fin 1) (0 : Fin 1) d) = hiddenRows V c (ValueIdx.ix3 r (0 : Fin 1) d) := by
  obtain ⟨e0, e1, e2⟩ := hiddenIndex a1 t
  show hiddenRows V c ((((cfg1 a1).win 0).blk t).view.emb (ValueIdx.ix3 (0 : Fin 1) (0 : Fin 1) d)) = hiddenRows V c (ValueIdx.ix3 r (0 : Fin 1) d)
  refine congrArg (hiddenRows V c) (funext fun a => Fin.ext ?_)
  match a with
  | ⟨0, _⟩ => show ((cfg1 a1).win 0).index t (0 : Fin 3) * 1 + 1 * 0 = r.val; omega
  | ⟨1, _⟩ => show ((cfg1 a1).win 0).index t (1 : Fin 3) * 1 + 1 * 0 = 0; omega
  | ⟨2, _⟩ => show ((cfg1 a1).win 0).index t (2 : Fin 3) * 768 + 1 * d.val = d.val; omega

/-- Point t's first table row at feature d is the first table at (xs[t], 0, d): the cap at the last row does not bind. -/
theorem tab0Row_entry (c : Dev nD) (t : Fin (cfg1 a1).N) (r : Fin 16384) (hr : r.val = t.val) (d : Fin 768) :
    (gatherBlk (F := Ideal) V a1 c 1 t : S1x1x768.Idx → EReal) (ValueIdx.ix3 (0 : Fin 1) (0 : Fin 1) d)
      = tab0Rows V c (ValueIdx.ix3 (⟨min (xsOf a1 (ValueIdx.ix1 r)).toNat 10239, by omega⟩ : Fin 10240) (0 : Fin 1) d) := by
  obtain ⟨e0, e1, e2, hlt⟩ := tab0Index a1 t r hr
  show tab0Rows V c ((((cfg1 a1).win 1).blk t).view.emb (ValueIdx.ix3 (0 : Fin 1) (0 : Fin 1) d)) = _
  refine congrArg (tab0Rows V c) (funext fun a => Fin.ext ?_)
  match a with
  | ⟨0, _⟩ => show ((cfg1 a1).win 1).index t (0 : Fin 3) * 1 + 1 * 0 = min (xsOf a1 (ValueIdx.ix1 r)).toNat 10239; omega
  | ⟨1, _⟩ => show ((cfg1 a1).win 1).index t (1 : Fin 3) * 1 + 1 * 0 = 0; omega
  | ⟨2, _⟩ => show ((cfg1 a1).win 1).index t (2 : Fin 3) * 768 + 1 * d.val = d.val; omega

/-- Point t's second table row at feature d is the second table at (ys[t], 0, d). -/
theorem tab1Row_entry (c : Dev nD) (t : Fin (cfg1 a1).N) (r : Fin 16384) (hr : r.val = t.val) (d : Fin 768) :
    (gatherBlk (F := Ideal) V a1 c 2 t : S1x1x768.Idx → EReal) (ValueIdx.ix3 (0 : Fin 1) (0 : Fin 1) d)
      = tab1Rows V c (ValueIdx.ix3 (⟨min (ysOf a1 (ValueIdx.ix1 r)).toNat 10239, by omega⟩ : Fin 10240) (0 : Fin 1) d) := by
  obtain ⟨e0, e1, e2, hlt⟩ := tab1Index a1 t r hr
  show tab1Rows V c ((((cfg1 a1).win 2).blk t).view.emb (ValueIdx.ix3 (0 : Fin 1) (0 : Fin 1) d)) = _
  refine congrArg (tab1Rows V c) (funext fun a => Fin.ext ?_)
  match a with
  | ⟨0, _⟩ => show ((cfg1 a1).win 2).index t (0 : Fin 3) * 1 + 1 * 0 = min (ysOf a1 (ValueIdx.ix1 r)).toNat 10239; omega
  | ⟨1, _⟩ => show ((cfg1 a1).win 2).index t (1 : Fin 3) * 1 + 1 * 0 = 0; omega
  | ⟨2, _⟩ => show ((cfg1 a1).win 2).index t (2 : Fin 3) * 768 + 1 * d.val = d.val; omega

/-! ## From the rows to the array -/

/-- Row r of the result at feature d. -/
def rowAt (c : Dev nD) (r : Fin 16384) (d : Fin 768) : EReal :=
  hiddenRows V c (ValueIdx.ix3 r (0 : Fin 1) d)
    + Scalar.select (IntOp.cmpi .ne (padOf a1 (ValueIdx.ix1 r)) (0#32)) (Ideal.ofBits .f32 0x00000000#32)
        (tab0Rows V c (ValueIdx.ix3 (⟨min (xsOf a1 (ValueIdx.ix1 r)).toNat 10239, by omega⟩ : Fin 10240) (0 : Fin 1) d)
          + tab1Rows V c (ValueIdx.ix3 (⟨min (ysOf a1 (ValueIdx.ix1 r)).toNat 10239, by omega⟩ : Fin 10240) (0 : Fin 1) d))

/-- The result rows, index by index. -/
def rowsOut (c : Dev nD) : S16384x1x768.Idx → EReal := fun i => rowAt V a1 c (i 0) (i 2)

theorem rowsOut_at (c : Dev nD) (i : S16384x1x768.Idx) (r : Fin 16384) (d : Fin 768)
    (h0 : (i 0).val = r.val) (h2 : (i 2).val = d.val) : rowsOut V a1 c i = rowAt V a1 c r d := by
  have e : i = ValueIdx.ix3 r (0 : Fin 1) d := funext fun a => Fin.ext (by
    match a with
    | ⟨0, _⟩ => exact h0
    | ⟨1, _⟩ => show (i 1).val = 0; have : (i 1).val < 1 := (i 1).isLt; omega
    | ⟨2, _⟩ => exact h2)
  rw [e]; rfl

/-- The stored row at any index y of the block whose last coordinate is d. -/
theorem gatherPayload_at (t0 t1 : Vec Ideal S1x1x768 .f32) (w : BitVec 32) (h : Vec Ideal S1x1x768 .f32) (y : S1x1x768.Idx) (d : Fin 768)
    (hd : (y 2).val = d.val) :
    k1_pay1 (F := Ideal) t0 t1 w h y
      = h (ValueIdx.ix3 (0 : Fin 1) (0 : Fin 1) d)
        + Scalar.select (IntOp.cmpi .ne w (0#32)) (Ideal.ofBits .f32 0x00000000#32)
            (t0 (ValueIdx.ix3 (0 : Fin 1) (0 : Fin 1) d) + t1 (ValueIdx.ix3 (0 : Fin 1) (0 : Fin 1) d)) := by
  have e : y = ValueIdx.ix3 (0 : Fin 1) (0 : Fin 1) d := funext fun a => Fin.ext (by
    match a with
    | ⟨0, _⟩ => show (y 0).val = 0; have : (y 0).val < 1 := (y 0).isLt; omega
    | ⟨1, _⟩ => show (y 1).val = 0; have : (y 1).val < 1 := (y 1).isLt; omega
    | ⟨2, _⟩ => exact hd)
  rw [e]; exact gatherPayload_entry t0 t1 w h d

/-- What point t writes back is row t of the result rows: the stored row reads the hidden row t, the padding word at t
    and the two table rows the tables name at t. -/
theorem gather_flushed (c : Dev nD) (t : Fin (cfg1 a1).N) :
    (gatherDat (F := Ideal) V a1 c).flushed 3 t = (((cfg1 a1).win 3).blk t).view.read (Elt Ideal) (rowsOut V a1 c) := by
  have ht := gatherPoint_lt a1 t
  show ((cfg1 a1).win 3).cut ((cfg1 a1).grid.coords t) ((gatherDat (F := Ideal) V a1 c).after 3 t) = _
  rw [gatherDat_after3]
  unfold gatherOut
  rw [gatherOutOf_eq (F := Ideal) c (grid1.coords t) (gs0 a1 t) (gh0 a1 t) (gs1 a1 t) (gh1 a1 t) (gs2 a1 t) (gh2 a1 t) (gs3 a1 t) (gh3 a1 t)
    (gatherBlk V a1 c 0 t) (gatherBlk V a1 c 1 t) (gatherBlk V a1 c 2 t) (a1.1 2) ⟨t.val, ht⟩ (gatherCoord t).symm]
  refine funext fun (j : S1x1x768.Idx) => ?_
  obtain ⟨e0, e1, e2⟩ := resultIndex a1 t
  have hj0 : (j 0).val < 1 := (j 0).isLt
  have hj1 : (j 1).val < 1 := (j 1).isLt
  have hj2 : (j 2).val < 768 := (j 2).isLt
  refine (gatherPayload_at (gatherBlk (F := Ideal) V a1 c 1 t) (gatherBlk (F := Ideal) V a1 c 2 t)
    ((a1.1 2 : S16384.Idx → BitVec 32) (ValueIdx.ix1 (⟨t.val, ht⟩ : Fin 16384))) (gatherBlk (F := Ideal) V a1 c 0 t)
    (((cfg1 a1).win 3).xinj ((cfg1 a1).grid.coords t) j) ⟨(j 2).val, hj2⟩ rfl).trans ?_
  refine Eq.trans ?_ (rowsOut_at V a1 c ((((cfg1 a1).win 3).blk t).view.emb j) ⟨t.val, ht⟩ ⟨(j 2).val, hj2⟩ ?_ ?_).symm
  · unfold rowAt
    exact congrArg₂ (· + ·) (hiddenRow_entry V a1 c t ⟨t.val, ht⟩ rfl ⟨(j 2).val, hj2⟩)
      (congrArg (Scalar.select (IntOp.cmpi .ne (padOf a1 (ValueIdx.ix1 (⟨t.val, ht⟩ : Fin 16384))) (0#32)) (Ideal.ofBits .f32 0x00000000#32))
        (congrArg₂ (· + ·) (tab0Row_entry V a1 c t ⟨t.val, ht⟩ rfl ⟨(j 2).val, hj2⟩) (tab1Row_entry V a1 c t ⟨t.val, ht⟩ rfl ⟨(j 2).val, hj2⟩)))
  · show ((cfg1 a1).win 3).index t (0 : Fin 3) * 1 + 1 * (j 0).val = t.val; omega
  · show ((cfg1 a1).win 3).index t (2 : Fin 3) * 768 + 1 * (j 2).val = (j 2).val; omega

/-- An index of a whole array is under a unit-stride rectangle of it iff each coordinate is in the rectangle's range. -/
theorem mem_wholeSlice_unit {κ : Kind} (b : Ref sig κ) (off size : Fin b.ty.shape.rank → Nat) (inb : ∀ a, off a + size a ≤ b.ty.shape.size a)
    (i : b.ty.shape.Idx) :
    i ∈ ((View.whole b).slice (Rect.unit off size inb)).set ↔ ∀ a, off a ≤ (i a).val ∧ (i a).val < off a + size a := by
  rw [View.set_slice_whole, Rect.mem_set_unit]

/-- An index of the result rows is in point t's block iff each coordinate is in the block's range on its axis. -/
theorem mem_resultBlock (t : Fin (cfg1 a1).N) (i : S16384x1x768.Idx) :
    i ∈ (((cfg1 a1).win 3).blk t).view.set ↔ ∀ a : Fin 3, ((cfg1 a1).win 3).index t a * S1x1x768.size a ≤ (i a).val
      ∧ (i a).val < ((cfg1 a1).win 3).index t a * S1x1x768.size a + S1x1x768.size a := by
  exact mem_wholeSlice_unit main_v27 (fun a => ((cfg1 a1).win 3).index t a * S1x1x768.size a) S1x1x768.size
    (fun a => Pipeline.Clip.inb (((cfg1 a1).win 3).hclip ((cfg1 a1).grid.coords t) a)) i

/-- Every index (r, 0, d) of the result rows is in the block of point r. -/
theorem resultRows_cover (i : S16384x1x768.Idx) :
    ∃ t : Fin (cfg1 a1).N, ((cfg1 a1).win 3).flush t = true ∧ i ∈ (((cfg1 a1).win 3).blk t).view.set := by
  have hi0 : (i 0).val < 16384 := (i 0).isLt
  have hi1 : (i 1).val < 1 := (i 1).isLt
  have hi2 : (i 2).val < 768 := (i 2).isLt
  have hN : (i 0).val < (cfg1 a1).N := lt_of_lt_of_eq hi0 N_1.symm
  obtain ⟨e0, e1, e2⟩ := resultIndex a1 ⟨(i 0).val, hN⟩
  refine ⟨⟨(i 0).val, hN⟩, result_flush a1 _, ?_⟩
  rw [mem_resultBlock]
  intro a
  match a with
  | ⟨0, _⟩ => show ((cfg1 a1).win 3).index ⟨(i 0).val, hN⟩ (0 : Fin 3) * 1 ≤ (i 0).val ∧ (i 0).val < ((cfg1 a1).win 3).index ⟨(i 0).val, hN⟩ (0 : Fin 3) * 1 + 1; rw [e0]; show (i 0).val * 1 ≤ (i 0).val ∧ (i 0).val < (i 0).val * 1 + 1; omega
  | ⟨1, _⟩ => show ((cfg1 a1).win 3).index ⟨(i 0).val, hN⟩ (1 : Fin 3) * 1 ≤ (i 1).val ∧ (i 1).val < ((cfg1 a1).win 3).index ⟨(i 0).val, hN⟩ (1 : Fin 3) * 1 + 1; omega
  | ⟨2, _⟩ => show ((cfg1 a1).win 3).index ⟨(i 0).val, hN⟩ (2 : Fin 3) * 768 ≤ (i 2).val ∧ (i 2).val < ((cfg1 a1).win 3).index ⟨(i 0).val, hN⟩ (2 : Fin 3) * 768 + 768; omega

/-- After the gather region row r of the result holds, at feature d, the hidden row plus — zero when the padding word
    at r is not 0, else — the first table's row xs[r] plus the second table's row ys[r]. -/
theorem gather_value (a1 : (pcfg1 (F := Ideal)).Adm) (c : Dev nD) (r : Fin 16384) (d : Fin 768) :
    gatherResult V a1 c (ValueIdx.ix3 r (0 : Fin 1) d)
      = hiddenRows V c (ValueIdx.ix3 r (0 : Fin 1) d)
        + Scalar.select (IntOp.cmpi .ne (padOf a1 (ValueIdx.ix1 r)) (0#32)) (Ideal.ofBits .f32 0x00000000#32)
            (tab0Rows V c (ValueIdx.ix3 (⟨min (xsOf a1 (ValueIdx.ix1 r)).toNat 10239, by omega⟩ : Fin 10240) (0 : Fin 1) d)
              + tab1Rows V c (ValueIdx.ix3 (⟨min (ysOf a1 (ValueIdx.ix1 r)).toNat 10239, by omega⟩ : Fin 10240) (0 : Fin 1) d)) := by
  have h := (gatherDat (F := Ideal) V a1 c).arrAt_eq_of_cover 3 (rowsOut V a1 c) (fun t _ => gather_flushed V a1 c t) (resultRows_cover a1)
  show (gatherDat (F := Ideal) V a1 c).arrAt 3 (cfg1 a1).N (ValueIdx.ix3 r (0 : Fin 1) d) = _
  rw [h]
  rfl

end Cert.KernelIdeal.Embed

end
-- ==== Proof.LibGatherRows3.lean ====
/-
  A `stablehlo.gather` that takes whole ROWS of a rank-2 table, read at one element.

  The table is [N, D]; the start indices are [R, C, 1], one row number for each position (r, c); the result is
  [R, C, D]. The dimension numbers are the ones `table[rows]` lowers to: the table's row axis is collapsed and is the one
  axis the start index names (collapsed_slice_dims [0], start_index_map [0]), the result's last axis is the one offset
  axis and walks the table's column axis (offset_dims [2], slice sizes [1, D]), the index vector lies on the start
  indices' last axis (index_vector_dim 2), and there are no batching axes. Result element (r, c, k) is then the table at
  row `rows[r, c, 0]` — that word read as a SIGNED integer and clamped into [0, N − 1], as the gather clamps every start
  index — and column k.

  On the row axis the operand index is start + 0 + 0 (the axis is collapsed, so it has no offset coordinate; nothing is a
  batching axis); on the column axis it is 0 + 0 + k (the start index does not name it; it is the first and only kept
  axis, so it reads the result's only offset axis).
-/
import Idealize.ShloMosaic.Lib.ValueIdx

set_option maxRecDepth 16384

noncomputable section

namespace Cert.GatherRows

open Idealize.ShloMosaic Idealize.ShloMosaic.ValueIdx

variable {α : Type}

/-- THE ROW GATHER READ AT (r, c, k): the table at the row the start index `rows[r, c, 0]` names (signed, clamped into
    [0, N − 1]) and column k. The five hypotheses are the printed dimension numbers, each closed by `rfl` at a use. -/
theorem gather_rows_apply {N D R C w : Nat} (hN : 0 < N)
    (g : GatherDims ⟨2, ![N, D]⟩ ⟨3, ![R, C, 1]⟩ ⟨3, ![R, C, D]⟩)
    (hoff : g.offsetDims = [2]) (hcoll : g.collapsedSliceDims = [0]) (hob : g.operandBatchingDims = [])
    (hsim : g.startIndexMap = [0]) (hivd : g.indexVectorDim = 2)
    (x : (⟨2, ![N, D]⟩ : Shape).Idx → α) (rows : IVec ⟨3, ![R, C, 1]⟩ w) (r : Fin R) (c : Fin C) (k : Fin D) :
    Host.gather g x rows (ix3 r c k)
      = x (ix2 (⟨min (rows (ix3 r c (0 : Fin 1))).toInt.toNat (N - 1), by omega⟩ : Fin N) k) := by
  obtain ⟨od, cd, ob, sb, sm, iv, ss, wf⟩ := g
  dsimp only at hoff hcoll hob hsim hivd
  subst hoff hcoll hob hsim hivd
  unfold Host.gather
  congr 1
  funext a
  refine Fin.ext ?_
  -- the dimension numbers as a record of literals, and the result index read
  generalize hg : (⟨[2], [0], [], sb, [0], 2, ss, wf⟩ : GatherDims ⟨2, ![N, D]⟩ ⟨3, ![R, C, 1]⟩ ⟨3, ![R, C, D]⟩) = g
  have hob : g.operandBatchingDims = [] := by subst hg; rfl
  have hnb : ∀ a : Fin 2, a ∉ g.operandBatchingDims := fun a h => by rw [hob] at h; exact List.not_mem_nil h
  match a with
  | ⟨0, _⟩ =>
    -- the row axis: collapsed and start-indexed
    show g.start (ix3 r c k) rows 0 + g.batchCoord (ix3 r c k) 0 + g.offCoord (ix3 r c k) 0 = _
    have hk : (0 : Fin 2) ∉ g.sKept := fun h => ((g.mem_sKept 0).mp h).1 (by subst hg; exact List.mem_singleton.mpr rfl)
    have hsl : g.sliceSizes 0 = 1 := g.slice_collapsed 0 (by subst hg; exact List.mem_singleton.mpr rfl)
    rw [g.batchCoord_eq_zero _ _ (hnb 0), g.offCoord_eq_zero _ _ hk, Nat.add_zero]
    unfold GatherDims.start
    have hm : (0 : Fin 2) ∈ g.startIndexMap := by subst hg; exact List.mem_singleton.mpr rfl
    rw [dif_pos hm, hsl]
    have hsi : g.siIdx (ix3 r c k) ⟨List.idxOf (0 : Fin 2) g.startIndexMap, List.idxOf_lt_length_iff.2 hm⟩
        = ix3 r c (0 : Fin 1) := by
      subst hg
      funext b; refine Fin.ext ?_
      match b with
      | ⟨0, _⟩ => rfl
      | ⟨1, _⟩ => rfl
      | ⟨2, _⟩ => rfl
    rw [hsi]
    rfl
  | ⟨1, _⟩ =>
    -- the column axis: the one kept axis, walked by the result's offset axis
    show g.start (ix3 r c k) rows 1 + g.batchCoord (ix3 r c k) 1 + g.offCoord (ix3 r c k) 1 = _
    have hm : (1 : Fin 2) ∉ g.startIndexMap := by subst hg; show (1 : Fin 2) ∉ ([0] : List (Fin 2)); decide
    rw [g.batchCoord_eq_zero _ _ (hnb 1), Nat.add_zero]
    unfold GatherDims.start
    rw [dif_neg hm, Nat.zero_add]
    subst hg
    rfl

end Cert.GatherRows

end
-- ==== Proof.RefValue.lean ====
/-
  The reference, read one element at a time: its result array is the specification (Spec.lean) taken at the
  reference's own rescaled patch array P, which stays opaque here.

  Entry (b, n, d) of the reference's result is the sum of two terms.

  * The projection: a `dot_general` contracting the patch array's feature axis with the weight's second axis, i.e.
    the sum over k of P[b, n, k] * w[d, k].

  * The position term: a select on the padding flag of patch (b, n), broadcast along the feature axis, between the
    float word zero and the sum of two row gathers. Each gather takes from one of the two position tables
    (T[0] and T[1], cut out of T by a slice and a reshape, so entry (r, d) of the cut is T[s, r, d]) the row named by
    one coordinate of the patch. The coordinate has first been clipped below at zero (a signed maximum with 0), then
    passed through the wrap of a negative index "if c < 0 then c + 10240 else c", which does nothing to a clipped
    coordinate since that is never negative; the gather then reads the word signed and clamps it into
    [0, 10239]. That is exactly `rowOf` of the raw coordinate.

  The bound "every coordinate is below 10240" is not needed for this side: `rowOf` keeps the cap at the last row.
-/
import proofs.«431244_j39298950758871_1_alg».proof.Defs
import proofs.«431244_j39298950758871_1_alg».proof.Proof.Gen.ReferenceIdeal.Run
import proofs.«431244_j39298950758871_1_alg».proof.Proof.Gen.ReferenceIdeal.Read
import proofs.«431244_j39298950758871_1_alg».proof.Proof.Spec
import proofs.«431244_j39298950758871_1_alg».proof.Proof.LibGatherRows3
import Idealize.ShloMosaic.Lib.ValueIdx

set_option maxRecDepth 16384

noncomputable section

namespace Cert.ReferenceIdeal.RefValue
open Cert.ReferenceIdeal Cert.ReferenceIdeal.Gen Cert.ReferenceIdeal.Read Idealize.ShloMosaic Idealize.ShloMosaic.ValueIdx

/-! ## The coordinates: clipped at zero, then untouched by the negative-index wrap -/

/-- A coordinate clipped below at zero is not negative: the test "clipped < 0 (signed)" answers 0. -/
theorem clipped_not_negative (w : BitVec 32) : IntOp.cmpi .slt (IntOp.maxsi (0#32) w) (0#32) = 0#1 := by
  unfold IntOp.maxsi
  by_cases h : w.slt (0#32) = true
  · rw [if_pos h]; decide
  · rw [if_neg h]
    rw [Bool.not_eq_true] at h
    show BitVec.ofBool (w.slt (0#32)) = 0#1
    rw [h]; rfl

/-- The x coordinates laid out [16, 1024]: entry (b, n) is the x coordinate of patch (b, n) clipped below at zero. -/
theorem clipped_x (x3 : (⟨S16x1024x2, .i32⟩ : BufTy).Contents (Elt Ideal)) (b : Fin 16) (n : Fin 1024) :
    val_main_v12 (F := Ideal) x3 (ix2 b n) = IntOp.maxsi (0#32) (x3 (ix3 b n (0 : Fin 2))) := by
  have hb := b.isLt
  have hn := n.isLt
  have e : idx_main_v11 (idx_main_v12 (ix2 b n)) = ix3 b n (0 : Fin 2) := by
    funext a
    match a with
    | ⟨0, _⟩ => exact Fin.ext (by show (b.val * 1024 + n.val) / 1024 = b.val; omega)
    | ⟨1, _⟩ => exact Fin.ext (by show (b.val * 1024 + n.val) / 1 % 1024 = n.val; omega)
    | ⟨2, _⟩ => rfl
  rw [val_main_v12_apply, val_main_v11_apply, e, val_main_v8_apply, val_main_call0_v1_apply, val_main_call0_v0_apply,
    val_main_c_apply]

/-- The y coordinates laid out [16, 1024]: entry (b, n) is the y coordinate of patch (b, n) clipped below at zero. -/
theorem clipped_y (x3 : (⟨S16x1024x2, .i32⟩ : BufTy).Contents (Elt Ideal)) (b : Fin 16) (n : Fin 1024) :
    val_main_v23 (F := Ideal) x3 (ix2 b n) = IntOp.maxsi (0#32) (x3 (ix3 b n (1 : Fin 2))) := by
  have hb := b.isLt
  have hn := n.isLt
  have e : idx_main_v22 (idx_main_v23 (ix2 b n)) = ix3 b n (1 : Fin 2) := by
    funext a
    match a with
    | ⟨0, _⟩ => exact Fin.ext (by show (b.val * 1024 + n.val) / 1024 = b.val; omega)
    | ⟨1, _⟩ => exact Fin.ext (by show (b.val * 1024 + n.val) / 1 % 1024 = n.val; omega)
    | ⟨2, _⟩ => rfl
  rw [val_main_v23_apply, val_main_v22_apply, e, val_main_v8_apply, val_main_call0_v1_apply, val_main_call0_v0_apply,
    val_main_c_apply]

/-- The start indices of the first gather, [16, 1024, 1]: at (b, n, 0) the clipped x coordinate; the wrap of a negative
    index does not fire. -/
theorem start_x (x3 : (⟨S16x1024x2, .i32⟩ : BufTy).Contents (Elt Ideal)) (b : Fin 16) (n : Fin 1024) :
    val_main_v18 (F := Ideal) x3 (ix3 b n (0 : Fin 1)) = IntOp.maxsi (0#32) (x3 (ix3 b n (0 : Fin 2))) := by
  have e : idx_main_v18 (ix3 b n (0 : Fin 1)) = ix2 b n := by
    funext a
    match a with
    | ⟨0, _⟩ => rfl
    | ⟨1, _⟩ => rfl
  rw [val_main_v18_apply, e, val_main_v17_apply, val_main_v14_apply, val_main_v13_apply, val_main_c_1_apply, clipped_x,
    clipped_not_negative, select_zero]

/-- The start indices of the second gather: at (b, n, 0) the clipped y coordinate. -/
theorem start_y (x3 : (⟨S16x1024x2, .i32⟩ : BufTy).Contents (Elt Ideal)) (b : Fin 16) (n : Fin 1024) :
    val_main_v29 (F := Ideal) x3 (ix3 b n (0 : Fin 1)) = IntOp.maxsi (0#32) (x3 (ix3 b n (1 : Fin 2))) := by
  have e : idx_main_v29 (ix3 b n (0 : Fin 1)) = ix2 b n := by
    funext a
    match a with
    | ⟨0, _⟩ => rfl
    | ⟨1, _⟩ => rfl
  rw [val_main_v29_apply, e, val_main_v28_apply, val_main_v25_apply, val_main_v24_apply, val_main_c_3_apply, clipped_y,
    clipped_not_negative, select_zero]

/-! ## The two tables cut out of T -/

/-- The first table as a [10240, 768] array: entry (r, d) is T[0, r, d]. -/
theorem table_x (x2 : (⟨S2x10240x768, .f32⟩ : BufTy).Contents (Elt Ideal)) (r : Fin 10240) (d : Fin 768) :
    val_main_v10 (F := Ideal) x2 (ix2 r d) = x2 (ix3 (0 : Fin 2) r d) := by
  have hr := r.isLt
  have hd := d.isLt
  have e : idx_main_v9 (idx_main_v10 (ix2 r d)) = ix3 (0 : Fin 2) r d := by
    funext a
    match a with
    | ⟨0, _⟩ => rfl
    | ⟨1, _⟩ => exact Fin.ext (by show (r.val * 768 + d.val) / 768 % 10240 = r.val; omega)
    | ⟨2, _⟩ => exact Fin.ext (by show (r.val * 768 + d.val) % 768 = d.val; omega)
  rw [val_main_v10_apply, val_main_v9_apply, e]

/-- The second table as a [10240, 768] array: entry (r, d) is T[1, r, d]. -/
theorem table_y (x2 : (⟨S2x10240x768, .f32⟩ : BufTy).Contents (Elt Ideal)) (r : Fin 10240) (d : Fin 768) :
    val_main_v21 (F := Ideal) x2 (ix2 r d) = x2 (ix3 (1 : Fin 2) r d) := by
  have hr := r.isLt
  have hd := d.isLt
  have e : idx_main_v20 (idx_main_v21 (ix2 r d)) = ix3 (1 : Fin 2) r d := by
    funext a
    match a with
    | ⟨0, _⟩ => rfl
    | ⟨1, _⟩ => exact Fin.ext (by show (r.val * 768 + d.val) / 768 % 10240 = r.val; omega)
    | ⟨2, _⟩ => exact Fin.ext (by show (r.val * 768 + d.val) % 768 = d.val; omega)
  rw [val_main_v21_apply, val_main_v20_apply, e]

/-! ## The two row gathers -/

/-- The first gather at (b, n, d): T[0] at the row `rowOf` of the x coordinate, feature d. -/
theorem gathered_x (x2 : (⟨S2x10240x768, .f32⟩ : BufTy).Contents (Elt Ideal))
    (x3 : (⟨S16x1024x2, .i32⟩ : BufTy).Contents (Elt Ideal)) (b : Fin 16) (n : Fin 1024) (d : Fin 768) :
    val_main_v19 (F := Ideal) x2 x3 (ix3 b n d)
      = x2 (ix3 (0 : Fin 2) (Cert.EmbedSpec.rowOf (x3 (ix3 b n (0 : Fin 2)))) d) := by
  unfold val_main_v19
  refine (Cert.GatherRows.gather_rows_apply (N := 10240) (D := 768) (R := 16) (C := 1024) (by decide)
    gather_S10240x768_S16x1024x1_S16x1024x768_2_0_n_n_0_2_1768 rfl rfl rfl rfl rfl
    (val_main_v10 (F := Ideal) x2) (val_main_v18 (F := Ideal) x3) b n d).trans ?_
  rw [table_x]
  refine congrArg (fun r => x2 (ix3 (0 : Fin 2) r d)) (Fin.ext ?_)
  show min (val_main_v18 (F := Ideal) x3 (ix3 b n (0 : Fin 1))).toInt.toNat (10240 - 1)
    = min (IntOp.maxsi (0#32) (x3 (ix3 b n (0 : Fin 2)))).toInt.toNat 10239
  rw [start_x]

/-- The second gather at (b, n, d): T[1] at the row `rowOf` of the y coordinate, feature d. -/
theorem gathered_y (x2 : (⟨S2x10240x768, .f32⟩ : BufTy).Contents (Elt Ideal))
    (x3 : (⟨S16x1024x2, .i32⟩ : BufTy).Contents (Elt Ideal)) (b : Fin 16) (n : Fin 1024) (d : Fin 768) :
    val_main_v30 (F := Ideal) x2 x3 (ix3 b n d)
      = x2 (ix3 (1 : Fin 2) (Cert.EmbedSpec.rowOf (x3 (ix3 b n (1 : Fin 2)))) d) := by
  unfold val_main_v30
  refine (Cert.GatherRows.gather_rows_apply (N := 10240) (D := 768) (R := 16) (C := 1024) (by decide)
    gather_S10240x768_S16x1024x1_S16x1024x768_2_0_n_n_0_2_1768 rfl rfl rfl rfl rfl
    (val_main_v21 (F := Ideal) x2) (val_main_v29 (F := Ideal) x3) b n d).trans ?_
  rw [table_y]
  refine congrArg (fun r => x2 (ix3 (1 : Fin 2) r d)) (Fin.ext ?_)
  show min (val_main_v29 (F := Ideal) x3 (ix3 b n (0 : Fin 1))).toInt.toNat (10240 - 1)
    = min (IntOp.maxsi (0#32) (x3 (ix3 b n (1 : Fin 2)))).toInt.toNat 10239
  rw [start_y]

/-! ## The projection and the padding select -/

/-- The `dot_general` at (b, n, d): the sum over k of P[b, n, k] * w[d, k]. -/
theorem projected (x0 : (⟨S16x3x512x512, .f32⟩ : BufTy).Contents (Elt Ideal))
    (x1 : (⟨S768x768, .f32⟩ : BufTy).Contents (Elt Ideal)) (b : Fin 16) (n : Fin 1024) (d : Fin 768) :
    val_main_v7 (F := Ideal) x0 x1 (ix3 b n d) = Cert.EmbedSpec.projAt (val_main_v6 (F := Ideal) x0) x1 b n d := by
  rw [val_main_v7_apply]
  unfold Cert.EmbedSpec.projAt
  refine Finset.sum_congr rfl fun k _ => ?_
  have el : lidx_main_v7 (ix3 b n d) k = ix3 b n k := by
    funext a
    match a with
    | ⟨0, _⟩ => rfl
    | ⟨1, _⟩ => rfl
    | ⟨2, _⟩ => rfl
  have er : ridx_main_v7 (ix3 b n d) k = ix2 d k := by
    funext a
    match a with
    | ⟨0, _⟩ => rfl
    | ⟨1, _⟩ => rfl
  rw [el, er]

/-- The select at (b, n, d): on the padding flag of patch (b, n), the float word zero, else the position term. -/
theorem padded (x2 : (⟨S2x10240x768, .f32⟩ : BufTy).Contents (Elt Ideal))
    (x3 : (⟨S16x1024x2, .i32⟩ : BufTy).Contents (Elt Ideal)) (x4 : (⟨S16x1024, .i1⟩ : BufTy).Contents (Elt Ideal))
    (b : Fin 16) (n : Fin 1024) (d : Fin 768) :
    val_main_v33 (F := Ideal) x2 x3 x4 (ix3 b n d)
      = Scalar.select (x4 (ix2 b n)) (Ideal.ofBits .f32 0x00000000#32) (val_main_v31 (F := Ideal) x2 x3 (ix3 b n d)) := by
  have e : idx_main_v32 (idx_main_call1_v1 (ix3 b n d)) = ix2 b n := by
    funext a
    match a with
    | ⟨0, _⟩ => rfl
    | ⟨1, _⟩ => rfl
  rw [val_main_v33_apply, val_main_call1_v1_apply, val_main_v32_apply, e, val_main_call1_v2_apply,
    val_main_call1_v0_apply, val_main_cst_5_apply]
  rfl

/-! ## The whole result -/

/-- Under "every position id is below 10240 (signed)", the reference's result array is the specification at the reference's own patch array. -/
theorem ref_embed (x0 : (⟨S16x3x512x512, .f32⟩ : BufTy).Contents (Elt Ideal)) (x1 : (⟨S768x768, .f32⟩ : BufTy).Contents (Elt Ideal))
    (x2 : (⟨S2x10240x768, .f32⟩ : BufTy).Contents (Elt Ideal)) (x3 : (⟨S16x1024x2, .i32⟩ : BufTy).Contents (Elt Ideal))
    (x4 : (⟨S16x1024, .i1⟩ : BufTy).Contents (Elt Ideal))
    (hR : ∀ i, IntOp.cmpi .slt (x3 i) (10240#32) = 1#1) :
    val_main_v34 (F := Ideal) x0 x1 x2 x3 x4 = Cert.EmbedSpec.embed (val_main_v6 (F := Ideal) x0) x1 x2 x3 x4 := by
  funext i
  obtain ⟨b, n, d, rfl⟩ : ∃ (b : Fin 16) (n : Fin 1024) (d : Fin 768), i = ix3 b n d := ⟨i 0, i 1, i 2, eq_ix3 i⟩
  show val_main_v34 (F := Ideal) x0 x1 x2 x3 x4 (ix3 b n d)
    = Cert.EmbedSpec.embedAt (val_main_v6 (F := Ideal) x0) x1 x2 x3 x4 b n d
  rw [val_main_v34_apply, projected, padded, val_main_v31_apply, gathered_x, gathered_y]
  rfl

end Cert.ReferenceIdeal.RefValue

end
-- ==== Proof.lean ====
/-
  The certificate of the patch embedding: a patch projection followed by a position-embedding gather, against
  its jnp reference, under "every float input is finite and every position id is below 10240".

  Both kernel programs are @main = host operations, the projection region, host operations, the gather region,
  a reshape. Their frames come from one run theorem per program (Proof/Run.lean for the idealized program, its
  copy under Proof/Word for the word-level one): under the side condition that the gather's two coordinate
  tables name rows inside the position tables, every execution terminates and every unscoped buffer ends at the
  contents a fold of @main computes from the launch memory; the arguments are untouched by that fold. The side
  condition follows from the precondition: the tables hold the ids clipped below at zero, and every id is below
  10240. The reference's frame is its generated run.

  The ideal pass rewrote nothing, so "preserves" is trivial.

  For the value claim both runs are stated at ONE function of the arguments (Proof/Spec.lean): entry (b, n, d)
  is the sum over k of patches[b, n, k] * w[d, k] plus, unless patch (b, n) is padded, the x row of the first
  position table plus the y row of the second. The kernel side reads it off the fold (the projection's blocks
  are a matmul into a zero accumulator, which at the ideal instance is the plain sum; rounding to bf16 is the
  identity there); the reference side reads its einsum as the same sum and its two gathers at the clipped ids,
  whose clamp into the table never binds under the precondition. No law needing finiteness is used.
-/
import proofs.«431244_j39298950758871_1_alg».proof.Defs
import proofs.«431244_j39298950758871_1_alg».proof.Proof.Gen.Kernel
import proofs.«431244_j39298950758871_1_alg».proof.Proof.Gen.KernelIdeal
import proofs.«431244_j39298950758871_1_alg».proof.Proof.Gen.ReferenceIdeal
import proofs.«431244_j39298950758871_1_alg».proof.Proof.Gen.Pre_finite_inputs
import proofs.«431244_j39298950758871_1_alg».proof.Proof.Gen.ReferenceIdeal.Run
import proofs.«431244_j39298950758871_1_alg».proof.Proof.Gen.ReferenceIdeal.Read
import proofs.«431244_j39298950758871_1_alg».proof.Proof.OkOfPre
import proofs.«431244_j39298950758871_1_alg».proof.Proof.Word.OkOfPre
import proofs.«431244_j39298950758871_1_alg».proof.Proof.KernelValue
import proofs.«431244_j39298950758871_1_alg».proof.Proof.ProjValue
import proofs.«431244_j39298950758871_1_alg».proof.Proof.GatherValue
import proofs.«431244_j39298950758871_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments as launched. -/
theorem frame_word : Cert.frame_Kernel := fun m ρ hpre => by
  have hO : Cert.Kernel.Embed.TabsOk m := Cert.Kernel.Embed.tabsOk_of_pre m (hpre 0)
  refine (θ_run Cert.Kernel.defs _ _).mono (fun r h c => ⟨?_, ?_, ?_, ?_, ?_⟩) (Cert.Kernel.Embed.run_all m ρ hO)
  · exact (h c _ (Cert.Kernel.Embed.mem_uc Cert.Kernel.main_arg0 (by decide))).trans (Cert.Kernel.Embed.memEnd_arg0 m hO c)
  · exact (h c _ (Cert.Kernel.Embed.mem_uc Cert.Kernel.main_arg1 (by decide))).trans (Cert.Kernel.Embed.memEnd_arg1 m hO c)
  · exact (h c _ (Cert.Kernel.Embed.mem_uc Cert.Kernel.main_arg2 (by decide))).trans (Cert.Kernel.Embed.memEnd_arg2 m hO c)
  · exact (h c _ (Cert.Kernel.Embed.mem_uc Cert.Kernel.main_arg3 (by decide))).trans (Cert.Kernel.Embed.memEnd_arg3 m hO c)
  · exact (h c _ (Cert.Kernel.Embed.mem_uc Cert.Kernel.main_arg4 (by decide))).trans (Cert.Kernel.Embed.memEnd_arg4 m hO c)

/-- The idealized program runs and leaves its arguments as launched. -/
theorem frame_ideal : Cert.frame_KernelIdeal := fun m ρ hpre => by
  have hO : Cert.KernelIdeal.Embed.TabsOk m := Cert.KernelIdeal.Embed.tabsOk_of_pre m (hpre 0)
  refine (θ_run Cert.KernelIdeal.defs _ _).mono (fun r h c => ⟨?_, ?_, ?_, ?_, ?_⟩) (Cert.KernelIdeal.Embed.run_all m ρ hO)
  · exact (h c _ (Cert.KernelIdeal.Embed.mem_uc Cert.KernelIdeal.main_arg0 (by decide))).trans (Cert.KernelIdeal.Embed.memEnd_arg0 m hO c)
  · exact (h c _ (Cert.KernelIdeal.Embed.mem_uc Cert.KernelIdeal.main_arg1 (by decide))).trans (Cert.KernelIdeal.Embed.memEnd_arg1 m hO c)
  · exact (h c _ (Cert.KernelIdeal.Embed.mem_uc Cert.KernelIdeal.main_arg2 (by decide))).trans (Cert.KernelIdeal.Embed.memEnd_arg2 m hO c)
  · exact (h c _ (Cert.KernelIdeal.Embed.mem_uc Cert.KernelIdeal.main_arg3 (by decide))).trans (Cert.KernelIdeal.Embed.memEnd_arg3 m hO c)
  · exact (h c _ (Cert.KernelIdeal.Embed.mem_uc Cert.KernelIdeal.main_arg4 (by decide))).trans (Cert.KernelIdeal.Embed.memEnd_arg4 m hO c)

/-- The reference runs and leaves its arguments as launched: its generated run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The two programs' patch arrays are one host term. -/
theorem patches_eq (x : FVec Ideal Cert.KernelIdeal.S16x3x512x512 .f32) :
    Cert.ReferenceIdeal.Read.val_main_v6 (F := Ideal) x = Cert.KernelIdeal.Embed.patchesOf (F := Ideal) x := rfl

/-- Run from memories that agree on the arguments, the idealized kernel and the reference both end with the
    result array at the specification. -/
theorem algebraic : Cert.algebraic_KernelIdeal_ReferenceIdeal := by
  intro m ρ m' ρ' hpre hagree
  have hR := Cert.KernelIdeal.Embed.ids_below m (hpre 0)
  have hO : Cert.KernelIdeal.Embed.TabsOk m := Cert.KernelIdeal.Embed.tabsOk_of_below m hR
  refine ⟨fun c => Cert.EmbedSpec.embed
      (Cert.KernelIdeal.Embed.patchesOf (F := Ideal) (m ((c : Thread Cert.KernelIdeal.nD Cert.KernelIdeal.τ).loc Cert.KernelIdeal.main_arg0)))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)), ?_, ?_⟩
  · refine (θ_run Cert.KernelIdeal.defs _ _).mono (fun r h c => ⟨?_, ?_, ?_, ?_, ?_, ?_⟩) (Cert.KernelIdeal.Embed.run_all m ρ hO)
    · exact (h c _ (Cert.KernelIdeal.Embed.mem_uc Cert.KernelIdeal.main_v28 (by decide))).trans
        (Cert.KernelIdeal.Embed.kernel_embed m hO Cert.KernelIdeal.Embed.proj_value Cert.KernelIdeal.Embed.gather_value hR c)
    · exact (h c _ (Cert.KernelIdeal.Embed.mem_uc Cert.KernelIdeal.main_arg0 (by decide))).trans (Cert.KernelIdeal.Embed.memEnd_arg0 m hO c)
    · exact (h c _ (Cert.KernelIdeal.Embed.mem_uc Cert.KernelIdeal.main_arg1 (by decide))).trans (Cert.KernelIdeal.Embed.memEnd_arg1 m hO c)
    · exact (h c _ (Cert.KernelIdeal.Embed.mem_uc Cert.KernelIdeal.main_arg2 (by decide))).trans (Cert.KernelIdeal.Embed.memEnd_arg2 m hO c)
    · exact (h c _ (Cert.KernelIdeal.Embed.mem_uc Cert.KernelIdeal.main_arg3 (by decide))).trans (Cert.KernelIdeal.Embed.memEnd_arg3 m hO c)
    · exact (h c _ (Cert.KernelIdeal.Embed.mem_uc Cert.KernelIdeal.main_arg4 (by decide))).trans (Cert.KernelIdeal.Embed.memEnd_arg4 m hO c)
  · refine (θ_run Cert.ReferenceIdeal.defs _ _).mono (fun r h c => ⟨(h c).1.trans ?_, (h c).2⟩)
      (Cert.ReferenceIdeal.Value.run (F := Ideal) m' ρ')
    obtain rfl : c = 0 := Subsingleton.elim _ _
    rw [Cert.ReferenceIdeal.Read.val_main_v34_eq, (hagree 0).1, (hagree 0).2.1, (hagree 0).2.2.1, (hagree 0).2.2.2.1, (hagree 0).2.2.2.2]
    exact (Cert.ReferenceIdeal.RefValue.ref_embed _ _ _ _ _ hR).trans (by rw [patches_eq])

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
